-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1x1024 .f32 .bf16
  ∧ IdealRules.truncf_extf.Statement Cert.KernelIdeal.S1x1024 .f32 .bf16
  ∧ IdealRules.truncf_extf.Statement Cert.KernelIdeal.S1x1024 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel

variable [Facts]

def fn {F : FTy → Type} [FloatOps F] (main_arg0 : FVec F S4x8192x64 .f32) (main_arg1 : FVec F S4x8192x64 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x64 .f32 := Host.absf main_arg1
  let main_cst_0 : FVec F S_ .f32 := constant S_ .f32 0x7F800000#32
  let main_v5 : FVec F S4x8192x64 .f32 := broadcastInDim S4x8192x64 ![] bcast_S_S4x8192x64 main_cst_0
  let main_v6 : IVec S4x8192x64 1 := cmpf .olt main_v4 main_v5
  let main_c_1 : IVec S_ 1 := constantI S_ 1 1#1
  let main_v7 : IVec S_ 1 := (fun x v => Host.reduce IntOp.andi x v reducesTo_S4x8192x64_S_d0_1_2 h_S_) main_v6 main_c_1
  let main_v8 : IVec S_ 1 := andi main_v3 main_v7
  main_v8
-- ==== Kernel.lean ====
abbrev S4x8192x64 : Shape := ⟨3, ![4, 8192, 64]⟩
abbrev S4x64x8192 : Shape := ⟨3, ![4, 64, 8192]⟩
abbrev S_ : Shape := ⟨0, ![]⟩
abbrev S4x8192 : Shape := ⟨2, ![4, 8192]⟩
abbrev S4x1x8192 : Shape := ⟨3, ![4, 1, 8192]⟩
abbrev S4x1x128 : Shape := ⟨3, ![4, 1, 128]⟩
abbrev S1x8192x64 : Shape := ⟨3, ![1, 8192, 64]⟩
abbrev S1x64x8192 : Shape := ⟨3, ![1, 64, 8192]⟩
abbrev S1x1x8192 : Shape := ⟨3, ![1, 1, 8192]⟩
abbrev S1x1x128 : Shape := ⟨3, ![1, 1, 128]⟩
abbrev S1x8192 : Shape := ⟨2, ![1, 8192]⟩
abbrev S68x8192 : Shape := ⟨2, ![68, 8192]⟩
abbrev S1024x68 : Shape := ⟨2, ![1024, 68]⟩
abbrev S1x64x1024 : Shape := ⟨3, ![1, 64, 1024]⟩
abbrev S64x1024 : Shape := ⟨2, ![64, 1024]⟩
abbrev S1x1x1024 : Shape := ⟨3, ![1, 1, 1024]⟩
abbrev S1x1024 : Shape := ⟨2, ![1, 1024]⟩
abbrev S4x1024 : Shape := ⟨2, ![4, 1024]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S1024x4 : Shape := ⟨2, ![1024, 4]⟩
abbrev S68x1024 : Shape := ⟨2, ![68, 1024]⟩
abbrev S1024x1024 : Shape := ⟨2, ![1024, 1024]⟩
abbrev S1 : Shape := ⟨1, ![1]⟩
abbrev S1x1 : Shape := ⟨2, ![1, 1]⟩
abbrev S1x128 : Shape := ⟨2, ![1, 128]⟩
abbrev S4x1x1 : Shape := ⟨3, ![4, 1, 1]⟩
abbrev S4 : Shape := ⟨1, ![4]⟩

abbrev nBuf : Space → Nat
  | .hbm => 15
  | .vmem => 12
  | .smem => 0
  | _ => 0

abbrev bufTy : (tb : Table) → Fin (tcTables nBuf tb) → BufTy
  | .hbm, ⟨0, _⟩ => ⟨S4x8192x64, .f32⟩
  | .hbm, ⟨1, _⟩ => ⟨S4x8192x64, .f32⟩
  | .hbm, ⟨2, _⟩ => ⟨S4x64x8192, .f32⟩
  | .hbm, ⟨3, _⟩ => ⟨S4x64x8192, .bf16⟩
  | .hbm, ⟨4, _⟩ => ⟨S4x8192x64, .f32⟩
  | .hbm, ⟨5, _⟩ => ⟨S_, .f32⟩
  | .hbm, ⟨6, _⟩ => ⟨S4x8192, .f32⟩
  | .hbm, ⟨7, _⟩ => ⟨S4x1x8192, .f32⟩
  | .hbm, ⟨8, _⟩ => ⟨S4x1x128, .f32⟩
  | .hbm, ⟨9, _⟩ => ⟨S4x1x1, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x8192x64, .f32⟩
  | .local _ .vmem, ⟨1, _⟩ => ⟨S1x8192x64, .f32⟩
  | .local _ .vmem, ⟨2, _⟩ => ⟨S1x64x8192, .bf16⟩
  | .local _ .vmem, ⟨3, _⟩ => ⟨S1x64x8192, .bf16⟩
  | .local _ .vmem, ⟨4, _⟩ => ⟨S1x1x8192, .f32⟩
  | .local _ .vmem, ⟨5, _⟩ => ⟨S1x1x8192, .f32⟩
  | .local _ .vmem, ⟨6, _⟩ => ⟨S1x1x128, .f32⟩
  | .local _ .vmem, ⟨7, _⟩ => ⟨S1x1x128, .f32⟩
  | .local _ .vmem, ⟨8, _⟩ => ⟨S1x8192, .f32⟩
  | .local _ .vmem, ⟨9, _⟩ => ⟨S1x8192, .f32⟩
  | .local _ .vmem, ⟨10, _⟩ => ⟨S68x8192, .bf16⟩
  | .local _ .vmem, ⟨11, _⟩ => ⟨S1024x68, .bf16⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v26 : BitVec 32 := Scalar.muli arg9 c1024_i32
  v26
def k0_off1 (k0_t1 : Fin k0_t1_loop.trips) : Fin 3 → Nat :=
  let c0_20 : Index := 0#32
  let c0_21 : Index := 0#32
  let c0_i32 : BitVec 32 := 0#32
  let c1_i32 : BitVec 32 := 1#32
  let arg9 : BitVec 32 := Scf.iv c0_i32 c1_i32 k0_t1
  let c1024_i32 : BitVec 32 := 1024#32
  let v26 : BitVec 32 := Scalar.muli arg9 c1024_i32
  let v27 : BitVec 32 := v26
  let v28 : Index := Scalar.indexCast v27
  ![0, 0, v28.toNat]
def k0_off2 (k0_t1 : Fin k0_t1_loop.trips) : Fin 3 → Nat :=
  let c0_22 : Index := 0#32
  let c0_23 : Index := 0#32
  let c0_i32 : BitVec 32 := 0#32
  let c1_i32 : BitVec 32 := 1#32
  let arg9 : BitVec 32 := Scf.iv c0_i32 c1_i32 k0_t1
  let c1024_i32 : BitVec 32 := 1024#32
  let v26 : BitVec 32 := Scalar.muli arg9 c1024_i32
  let v27 : BitVec 32 := v26
  let v31 : Index := Scalar.indexCast v27
  ![0, 0, v31.toNat]
def k0_off3 (k0_t1 : Fin k0_t1_loop.trips) : Fin 2 → Nat :=
  let c0_26 : Index := 0#32
  let c0_i32 : BitVec 32 := 0#32
  let c1_i32 : BitVec 32 := 1#32
  let arg9 : BitVec 32 := Scf.iv c0_i32 c1_i32 k0_t1
  let c1024_i32 : BitVec 32 := 1024#32
  let v26 : BitVec 32 := Scalar.muli arg9 c1024_i32
  let v27 : BitVec 32 := v26
  let v53 : Index := Scalar.indexCast v27
  ![0, v53.toNat]
def k0_off4 (k0_t1 : Fin k0_t1_loop.trips) : Fin 2 → Nat :=
  let c64 : Index := 64#32
  let c0_i32 : BitVec 32 := 0#32
  let c1_i32 : BitVec 32 := 1#32
  let arg9 : BitVec 32 := Scf.iv c0_i32 c1_i32 k0_t1
  let c1024_i32 : BitVec 32 := 1024#32
  let v26 : BitVec 32 := Scalar.muli arg9 c1024_i32
  let v27 : BitVec 32 := v26
  let v57 : Index := Scalar.indexCast v27
  ![64, v57.toNat]
@[reducible] def k0_t2_loop : Scf.Loop 32 :=
  let c0_i32_5 : BitVec 32 := 0#32
  let c8_i32_6 : BitVec 32 := 8#32
  let v9 : BitVec 32 := Scalar.addi c0_i32_5 c8_i32_6
  let c1_i32_7 : BitVec 32 := 1#32
  ⟨c0_i32_5, v9, c1_i32_7⟩
def k0_mult2 (k0_t2 : Fin k0_t2_loop.trips) : BitVec 32 :=
  let c0_i32_5 : BitVec 32 := 0#32
  let c1_i32_7 : BitVec 32 := 1#32
  let arg9 : BitVec 32 := Scf.iv c0_i32_5 c1_i32_7 k0_t2
  let c1024_i32 : BitVec 32 := 1024#32
  let v26 : BitVec 32 := Scalar.muli arg9 c1024_i32
  v26
def k0_off5 (k0_t2 : Fin k0_t2_loop.trips) : Fin 3 → Nat :=
  let c0_20 : Index := 0#32
  let c0_i32_5 : BitVec 32 := 0#32
  let c1_i32_7 : BitVec 32 := 1#32
  let arg9 : BitVec 32 := Scf.iv c0_i32_5 c1_i32_7 k0_t2
  let c1024_i32 : BitVec 32 := 1024#32
  let v26 : BitVec 32 := Scalar.muli arg9 c1024_i32
  let v27 : BitVec 32 := v26
  let v28 : Index := Scalar.indexCast v27
  let c0_21 : Index := 0#32
  ![0, v28.toNat, 0]
def k0_mult3 : BitVec 32 :=
  let c0_i32_33 : BitVec 32 := 0#32
  let c1024_i32_34 : BitVec 32 := 1024#32
  let v64 : BitVec 32 := Scalar.muli c0_i32_33 c1024_i32_34
  v64
def k0_off6 (c0_i32_33 : BitVec 32) : Fin 2 → Nat :=
  let c0_35 : Index := 0#32
  let c1024_i32_34 : BitVec 32 := 1024#32
  let v64 : BitVec 32 := Scalar.muli c0_i32_33 c1024_i32_34
  let v65 : BitVec 32 := v64
  let v66 : Index := Scalar.indexCast v65
  ![0, v66.toNat]
def k0_off7 (c0_i32_33 : BitVec 32) : Fin 2 → Nat :=
  let c0_37 : Index := 0#32
  let c1024_i32_34 : BitVec 32 := 1024#32
  let v64 : BitVec 32 := Scalar.muli c0_i32_33 c1024_i32_34
  let v65 : BitVec 32 := v64
  let v69 : Index := Scalar.indexCast v65
  ![0, v69.toNat]
def k0_mult4 : BitVec 32 :=
  let c1_i32_41 : BitVec 32 := 1#32
  let c1024_i32_42 : BitVec 32 := 1024#32
  let v82 : BitVec 32 := Scalar.muli c1_i32_41 c1024_i32_42
  v82
def k0_mult5 : BitVec 32 :=
  let c2_i32 : BitVec 32 := 2#32
  let c1024_i32_49 : BitVec 32 := 1024#32
  let v100 : BitVec 32 := Scalar.muli c2_i32 c1024_i32_49
  v100
def k0_mult6 : BitVec 32 :=
  let c3_i32 : BitVec 32 := 3#32
  let c1024_i32_56 : BitVec 32 := 1024#32
  let v118 : BitVec 32 := Scalar.muli c3_i32 c1024_i32_56
  v118
def k0_mult7 : BitVec 32 :=
  let c4_i32 : BitVec 32 := 4#32
  let c1024_i32_63 : BitVec 32 := 1024#32
  let v136 : BitVec 32 := Scalar.muli c4_i32 c1024_i32_63
  v136
def k0_mult8 : BitVec 32 :=
  let c5_i32 : BitVec 32 := 5#32
  let c1024_i32_70 : BitVec 32 := 1024#32
  let v154 : BitVec 32 := Scalar.muli c5_i32 c1024_i32_70
  v154
def k0_mult9 : BitVec 32 :=
  let c6_i32 : BitVec 32 := 6#32
  let c1024_i32_77 : BitVec 32 := 1024#32
  let v172 : BitVec 32 := Scalar.muli c6_i32 c1024_i32_77
  v172
def k0_mult10 : BitVec 32 :=
  let c7_i32 : BitVec 32 := 7#32
  let c1024_i32_84 : BitVec 32 := 1024#32
  let v190 : BitVec 32 := Scalar.muli c7_i32 c1024_i32_84
  v190
def k0_off8 (k0_t2 : Fin k0_t2_loop.trips) : Fin 2 → Nat :=
  let c0_92 : Index := 0#32
  let c0_i32_5 : BitVec 32 := 0#32
  let c1_i32_7 : BitVec 32 := 1#32
  let arg9 : BitVec 32 := Scf.iv c0_i32_5 c1_i32_7 k0_t2
  let c1024_i32 : BitVec 32 := 1024#32
  let v26 : BitVec 32 := Scalar.muli arg9 c1024_i32
  let v27 : BitVec 32 := v26
  let v208 : Index := Scalar.indexCast v27
  ![0, v208.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x8192x64_S4x64x8192_0_2_1 : S4x8192x64.Transposes [0, 2, 1] S4x64x8192
  bitsLt_bf16_f32 : FTy.bits .bf16 < FTy.bits .f32
  reducesTo_S4x8192x64_S4x8192_d2 : S4x8192x64.ReducesTo [2] S4x8192
  h_S_ : 0 < S_.numel
  bcast_S4x8192_S4x1x8192_0_2 : S4x8192.BroadcastsInDim S4x1x8192 (![0, 2] : Fin 2 → Fin S4x1x8192.rank)
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S1x64x1024 : 0 < S1x64x1024.numel
  shapeCasts_S1x64x1024_S64x1024 : S1x64x1024.ShapeCasts S64x1024
  h_S1x1x1024 : 0 < S1x1x1024.numel
  shapeCasts_S1x1x1024_S1x1024 : S1x1x1024.ShapeCasts S1x1024
  iota_S4x1024_d0_w32 : S4x1024.Iotas .tc 32 [0]
  shapeCasts_S1x1024_S1x1024 : S1x1024.ShapeCasts S1x1024
  broadcasts_S1x1024_S4x1024 : S1x1024.Broadcasts S4x1024
  h_S64x1024 : 0 < S64x1024.numel
  shapeCasts_S64x1024_S64x1024 : S64x1024.ShapeCasts S64x1024
  h_S4x1024 : 0 < S4x1024.numel
  shapeCasts_S4x1024_S4x1024 : S4x1024.ShapeCasts S4x1024
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  iota_S1024x4_d1_w32 : S1024x4.Iotas .tc 32 [1]
  shapeCasts_S1024x1_S1024x1 : S1024x1.ShapeCasts S1024x1
  broadcasts_S1024x1_S1024x4 : S1024x1.Broadcasts S1024x4
  inb_S1024x68_S1024x64_0_0 : ∀ a, (![0, 0] : Fin 2 → Nat) a + S1024x64.size a ≤ S1024x68.size a
  h_S1024x64 : 0 < S1024x64.numel
  shapeCasts_S1024x64_S1024x64 : S1024x64.ShapeCasts S1024x64
  packedbf16_S1024x68_S1024x64_0_0 : (Rect.unit (s := S1024x68) ![0, 0] S1024x64.size inb_S1024x68_S1024x64_0_0).PackedRows (EltTy.packing .bf16)
  inb_S1024x68_S1024x4_0_64 : ∀ a, (![0, 64] : Fin 2 → Nat) a + S1024x4.size a ≤ S1024x68.size a
  h_S1024x4 : 0 < S1024x4.numel
  shapeCasts_S1024x4_S1024x4 : S1024x4.ShapeCasts S1024x4
  packedbf16_S1024x68_S1024x4_0_64 : (Rect.unit (s := S1024x68) ![0, 64] S1024x4.size inb_S1024x68_S1024x4_0_64).PackedRows (EltTy.packing .bf16)
  inb_S1024x68_S1024x68_0_0 : ∀ a, (![0, 0] : Fin 2 → Nat) a + S1024x68.size a ≤ S1024x68.size a
  h_S1024x68 : 0 < S1024x68.numel
  h_S68x1024 : 0 < S68x1024.numel
  h_S1x1024 : 0 < S1x1024.numel
  reduces_S1024x1024_S1024 : S1024x1024.Reduces [0] S1024
  shapeCasts_S1024_S1x1024 : S1024.ShapeCasts S1x1024
  reduces_S1024x1024_S1024_2 : S1024x1024.Reduces [1] S1024
  transposes_S1024x1_p1_0_S1x1024 : S1024x1.Transposes [1, 0] S1x1024
  reduces_S1x8192_S1 : S1x8192.Reduces [1] S1
  shapeCasts_S1_S1x1 : S1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  dot_S1024x68_S68x1024_S1024x1024_1_0_0_1_n_n_wf : DotDims.WF S1024x68 S68x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x64x1024.size a ≤ S1x64x8192.size a
  k0_off2_inb : ∀ k0_t1 : Fin k0_t1_loop.trips, ∀ a, (k0_off2 k0_t1) a + S1x1x1024.size a ≤ S1x1x8192.size a
  k0_off3_inb : ∀ k0_t1 : Fin k0_t1_loop.trips, ∀ a, (k0_off3 k0_t1) a + S64x1024.size a ≤ S68x8192.size a
  k0_off3_packedbf16 : ∀ k0_t1 : Fin k0_t1_loop.trips, (Rect.unit (s := S68x8192) (k0_off3 k0_t1) S64x1024.size (k0_off3_inb k0_t1)).PackedRows (EltTy.packing .bf16)
  k0_off4_inb : ∀ k0_t1 : Fin k0_t1_loop.trips, ∀ a, (k0_off4 k0_t1) a + S4x1024.size a ≤ S68x8192.size a
  k0_off4_packedbf16 : ∀ k0_t1 : Fin k0_t1_loop.trips, (Rect.unit (s := S68x8192) (k0_off4 k0_t1) S4x1024.size (k0_off4_inb k0_t1)).PackedRows (EltTy.packing .bf16)
  k0_t2_ok : k0_t2_loop.OK
  k0_mult2_dvd : ∀ k0_t2 : Fin k0_t2_loop.trips, 1024 ∣ (k0_mult2 k0_t2).toNat
  k0_off5_inb : ∀ k0_t2 : Fin k0_t2_loop.trips, ∀ a, (k0_off5 k0_t2) a + S1x1024x64.size a ≤ S1x8192x64.size a
  k0_mult3_dvd : 1024 ∣ k0_mult3.toNat
  k0_off6_inb : ∀ (r : Fin 8), ∀ a, (k0_off6 (BitVec.ofNat 32 r.val)) a + S68x1024.size a ≤ S68x8192.size a
  k0_off7_inb : ∀ (r : Fin 8), ∀ a, (k0_off7 (BitVec.ofNat 32 r.val)) a + S1x1024.size a ≤ S1x8192.size a
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_off8_inb : ∀ k0_t2 : Fin k0_t2_loop.trips, ∀ a, (k0_off8 k0_t2) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S4x8192x64.size a
  hwx0_0 : ∀ i : grid0.Coords, EltTy.bits .f32 = 32 ∨ (Rect.block (s := S4x8192x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8192.size a ≤ S4x64x8192.size a
  hwx0_1 : ∀ i : grid0.Coords, EltTy.bits .bf16 = 32 ∨ (Rect.block (s := S4x64x8192) S1x64x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)

variable [Facts₀]

def dot_S1024x68_S68x1024_S1024x1024_1_0_0_1_n_n : DotDims S1024x68 S68x1024 S1024x1024 where
  lhsContracting := [1]
  rhsContracting := [0]
  lhsNonContracting := [0]
  rhsNonContracting := [1]
  lhsBatch := []
  rhsBatch := []
  wf := dot_S1024x68_S68x1024_S1024x1024_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x64 : Shape := ⟨3, ![4, 8192, 64]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x64, .f32⟩
  | .hbm, ⟨2, _⟩ => ⟨S4x8192x8192, .f32⟩
  | .hbm, ⟨3, _⟩ => ⟨S_, .f32⟩
  | .hbm, ⟨4, _⟩ => ⟨S4x8192x8192, .f32⟩
  | .hbm, ⟨5, _⟩ => ⟨S4x8192x8192, .f32⟩
  | .hbm, ⟨6, _⟩ => ⟨S4x8192x64, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S4x8192x8192, .f32⟩
  | .hbm, ⟨11, _⟩ => ⟨S4x8192x8192, .f32⟩
  | .hbm, ⟨12, _⟩ => ⟨S4x8192x64, .f32⟩
  | .hbm, ⟨13, _⟩ => ⟨S_, .f32⟩
  | .hbm, ⟨14, _⟩ => ⟨S4x8192, .f32⟩
  | .hbm, ⟨15, _⟩ => ⟨S4x1x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S4x8192x8192 : S_.BroadcastsInDim S4x8192x8192 (![] : Fin 0 → Fin S4x8192x8192.rank)
  reducesTo_S4x8192x64_S4x8192_d2 : S4x8192x64.ReducesTo [2] S4x8192
  h_S_ : 0 < S_.numel
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  bcast_S4x8192_S4x1x8192_0_2 : S4x8192.BroadcastsInDim S4x1x8192 (![0, 2] : Fin 2 → Fin S4x1x8192.rank)
  bcast_S4x1x8192_S4x8192x8192_0_1_2 : S4x1x8192.BroadcastsInDim S4x8192x8192 (![0, 1, 2] : Fin 3 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x64_S4x8192x64_S4x8192x8192_2_2_1_1_0_0_wf : DotDims.WF S4x8192x64 S4x8192x64 S4x8192x8192 [2] [2] [1] [1] [0] [0]

variable [Facts₀]

def dot_S4x8192x64_S4x8192x64_S4x8192x8192_2_2_1_1_0_0 : DotDims S4x8192x64 S4x8192x64 S4x8192x8192 where
  lhsContracting := [2]
  rhsContracting := [2]
  lhsNonContracting := [1]
  rhsNonContracting := [1]
  lhsBatch := [0]
  rhsBatch := [0]
  wf := dot_S4x8192x64_S4x8192x64_S4x8192x8192_2_2_1_1_0_0_wf

class Facts : Prop extends Facts₀ where

variable [Facts]
-- ==== Proof.KDefs.lean ====
/-
  Names for the pure vector functions one trip of the kernel's second loop computes: the running
  row-minimum carried through the eight column tiles of one row tile.
-/
import proofs.«419406_j17239998726835_3_alg».proof.Proof.Gen.Kernel.Skeleton

noncomputable section

namespace Cert.Kernel.Hand

open Cert.Kernel Cert.Kernel.Gen
open Idealize.ShloMosaic

variable {F : FTy → Type} [FloatOps F]

/-- The row minima of one row tile against the eight column tiles `ld7 0 … ld7 7` of the right operand,
    combined one after the other starting from +∞: tile j's product `lhs · ld7 j` is reduced along its
    columns and the result is taken into the running minimum. -/
def rowChain (lhs : Vec F S1024x68 .bf16) (ld7 : Fin 8 → Vec F S68x1024 .bf16) : FVec F S1x1024 .f32 :=
  k0_pay7 lhs
    (k0_pay28 lhs
      (k0_pay22 lhs (k0_pay17 lhs k0_pay12 (ld7 0) (ld7 1)) (k0_pay18 lhs (ld7 2)) (ld7 3))
      (k0_pay23 lhs (ld7 4)) (ld7 5))
    (k0_pay29 lhs (ld7 6)) (ld7 7)

end Cert.Kernel.Hand

end
-- ==== Proof.KOpen.lean ====
import proofs.«419406_j17239998726835_3_alg».proof.Proof.Gen.Kernel.Loops
import proofs.«419406_j17239998726835_3_alg».proof.Proof.KDefs
import Idealize.ShloMosaic.Lib.Pipeline.Value

noncomputable section

namespace Cert.Kernel.Hand

open Cert.Kernel Cert.Kernel.Gen
open Idealize.ShloMosaic Idealize.ShloMosaic.TcCoe
open Idealize.SL Idealize.SL.Sem

variable {F : FTy → Type} [FloatOps F]

abbrev 𝒱₀ : Variants := Variants.none

/-- The kernel's four scratch operands: the two running minima, the augmented right operand, the
    augmented left tile. -/
abbrev sc5 : Memref sig .tc .vmem S1x8192 .f32 := Memref.whole cc0_scratch0
abbrev sc6 : Memref sig .tc .vmem S1x8192 .f32 := Memref.whole cc0_scratch1
abbrev sc7 : Memref sig .tc .vmem S68x8192 .bf16 := Memref.whole cc0_scratch2
abbrev sc8 : Memref sig .tc .vmem S1024x68 .bf16 := Memref.whole cc0_scratch3

/-- Column tile j of the augmented right operand: all 68 rows, columns j·1024 … j·1024+1023. -/
abbrev bx7 (j : Fin 8) : Rect S68x8192 :=
  Rect.unit (s := S68x8192) ![0, j.val * 1024] S68x1024.size (by intro a; have := j.isLt; fin_cases a <;> simp [Shape.size] <;> omega)
/-- Column tile j of a running-minimum row. -/
abbrev bx6 (j : Fin 8) : Rect S1x8192 :=
  Rect.unit (s := S1x8192) ![0, j.val * 1024] S1x1024.size (by intro a; have := j.isLt; fin_cases a <;> simp [Shape.size] <;> omega)

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-- The eight column tiles of the right operand, as loaded from contents `X7`. -/
def ld7 (X7 : BufTy.Contents (Elt F) sc7.view.ty) (j : Fin 8) : Vec F S68x1024 .bf16 :=
  View.readAt (Elt F) sc7.view (bx7 j).toLoadRect X7
/-- The eight column tiles of the running column minima, as loaded from contents `f6`. -/
def ld6 (f6 : BufTy.Contents (Elt F) sc6.view.ty) (j : Fin 8) : Vec F S1x1024 .f32 :=
  View.readAt (Elt F) sc6.view (bx6 j).toLoadRect f6
/-- Row tile k of the first cloud's block, as loaded from contents `X1`. -/
def ld1 (X1 : BufTy.Contents (Elt F) M1.view.ty) (k : Fin k0_t2_loop.trips) : Vec F S1x1024x64 .f32 :=
  View.readAt (Elt F) M1.view (Rect.unit (s := S1x8192x64) (k0_off5 k) S1x1024x64.size (k0_off5_inb k)).toLoadRect X1

/-- The two stores that build the augmented left tile: the 64 scaled coordinates and the four bias lanes. -/
def lhsPieces (X1 : BufTy.Contents (Elt F) M1.view.ty) (k : Fin k0_t2_loop.trips) : List (View.Piece (Elt F) S1024x68 .bf16) :=
  [⟨Rect.unit (s := S1024x68) ![0, 64] S1024x4.size inb_S1024x68_S1024x4_0_64, k0_pay11 (ld1 M1 X1 k)⟩,
   ⟨Rect.unit (s := S1024x68) ![0, 0] S1024x64.size inb_S1024x68_S1024x64_0_0, k0_pay10 (ld1 M1 X1 k)⟩]
/-- The augmented left tile read back whole. -/
def lhsTile (X1 : BufTy.Contents (Elt F) M1.view.ty) (k : Fin k0_t2_loop.trips) : Vec F S1024x68 .bf16 :=
  sc8.view.readCov (lhsPieces M1 X1 k) (Rect.unit (s := S1024x68) ![0, 0] S1024x68.size inb_S1024x68_S1024x68_0_0).toLoadRect

/-- Trip k's store of the row minima of row tile k. -/
def rowPieces (k : Fin k0_t2_loop.trips) (lhs : Vec F S1024x68 .bf16) (w : Fin 8 → Vec F S68x1024 .bf16) :
    List (View.Piece (Elt F) S1x8192 .f32) :=
  [⟨Rect.unit (s := S1x8192) (k0_off8 k) S1x1024.size (k0_off8_inb k), rowChain lhs w⟩]
/-- Trip k's eight stores into the running column minima, last made first: tile j gets the minimum of what it held
    and the column minima of the product of the left tile with column tile j. -/
def colPieces (lhs : Vec F S1024x68 .bf16) (w : Fin 8 → Vec F S68x1024 .bf16) (a : Fin 8 → Vec F S1x1024 .f32) :
    List (View.Piece (Elt F) S1x8192 .f32) :=
  [⟨bx6 7, k0_pay6 lhs (w 7) (a 7)⟩, ⟨bx6 6, k0_pay30 lhs (w 6) (a 6)⟩, ⟨bx6 5, k0_pay27 lhs (w 5) (a 5)⟩,
   ⟨bx6 4, k0_pay25 (k0_pay24 lhs (w 4) (a 4))⟩, ⟨bx6 3, k0_pay21 lhs (w 3) (a 3)⟩,
   ⟨bx6 2, k0_pay19 (k0_pay18 lhs (w 2)) (a 2)⟩, ⟨bx6 1, k0_pay16 lhs (w 1) (a 1)⟩, ⟨bx6 0, k0_pay14 lhs (w 0) (a 0)⟩]

/-- One trip of the second loop, spelt out: what it stores into the row minima, the column minima and the left tile,
    from the first cloud's block `X1`, the right operand `X7` and the column minima `f6` it finds. -/
theorem tripL2_eq (X1 : BufTy.Contents (Elt F) M1.view.ty) (X7 : BufTy.Contents (Elt F) sc7.view.ty) (k : Fin k0_t2_loop.trips)
    (f5 : BufTy.Contents (Elt F) sc5.view.ty) (f6 : BufTy.Contents (Elt F) sc6.view.ty) (f8 : BufTy.Contents (Elt F) sc8.view.ty) :
    tripL_k0_t2 (F := F) 𝒱₀ c none i M1 h1 M2 h2 M3 h3 M4 h4 sc5 (Memref.isWhole_whole _) sc6 (Memref.isWhole_whole _) sc7 (Memref.isWhole_whole _) sc8 (Memref.isWhole_whole _) X1 X7 k f5 f6 f8
      = (rowPieces k (lhsTile M1 X1 k) (ld7 X7), colPieces (lhsTile M1 X1 k) (ld7 X7) (ld6 f6), lhsPieces M1 X1 k) := by
  unfold tripL_k0_t2 trip_k0_t2
  rfl

/-- One trip of the first loop, spelt out: the four bias rows and the 64 coordinate rows of column tile k. -/
theorem tripL1_eq (X2 : BufTy.Contents (Elt F) M2.view.ty) (X3 : BufTy.Contents (Elt F) M3.view.ty) (k : Fin k0_t1_loop.trips) :
    tripL_k0_t1 (F := F) 𝒱₀ c none i M1 h1 M2 h2 M3 h3 M4 h4 sc5 (Memref.isWhole_whole _) sc6 (Memref.isWhole_whole _) sc7 (Memref.isWhole_whole _) sc8 (Memref.isWhole_whole _) X2 X3 k
      = [⟨Rect.unit (s := S68x8192) (k0_off4 k) S4x1024.size (k0_off4_inb k),
            k0_pay4 (View.readAt (Elt F) M3.view (Rect.unit (s := S1x1x8192) (k0_off2 k) S1x1x1024.size (k0_off2_inb k)).toLoadRect X3)⟩,
         ⟨Rect.unit (s := S68x8192) (k0_off3 k) S64x1024.size (k0_off3_inb k),
            k0_pay3 (View.readAt (Elt F) M2.view (Rect.unit (s := S1x64x8192) (k0_off1 k) S1x64x1024.size (k0_off1_inb k)).toLoadRect X2)⟩] := by
  unfold tripL_k0_t1 trip_k0_t1
  rfl

end

end Cert.Kernel.Hand

end
-- ==== Proof.KPB.lean ====
import proofs.«419406_j17239998726835_3_alg».proof.Proof.KOpen

noncomputable section

namespace Cert.Kernel.Hand

open Cert.Kernel Cert.Kernel.Gen
open Idealize.ShloMosaic Idealize.ShloMosaic.TcCoe
open Idealize.SL Idealize.SL.Sem

variable {F : FTy → Type} [FloatOps F]

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-- The stores of the second loop's trips before trip n, per buffer written. -/
abbrev PB2 (X1 : BufTy.Contents (Elt F) M1.view.ty) (X7 : BufTy.Contents (Elt F) sc7.view.ty)
    (G5 : BufTy.Contents (Elt F) sc5.view.ty) (G6 : BufTy.Contents (Elt F) sc6.view.ty) (G8 : BufTy.Contents (Elt F) sc8.view.ty) (n : ℕ) :=
  pb_k0_t2 (F := F) 𝒱₀ c none i M1 h1 M2 h2 M3 h3 M4 h4 sc5 (Memref.isWhole_whole _) sc6 (Memref.isWhole_whole _) sc7 (Memref.isWhole_whole _) sc8 (Memref.isWhole_whole _) X1 X7 G5 G6 G8 n

/-- The row-minimum stores of the trips before trip n: one per trip, depending only on the first cloud's block
    and on the right operand's column tiles. -/
def rowsPB (X1 : BufTy.Contents (Elt F) M1.view.ty) (w : Fin 8 → Vec F S68x1024 .bf16) : ℕ → List (View.Piece (Elt F) S1x8192 .f32)
  | 0 => []
  | n + 1 => if h : n < k0_t2_loop.trips then rowPieces ⟨n, h⟩ (lhsTile M1 X1 ⟨n, h⟩) w ++ rowsPB X1 w n else rowsPB X1 w n

/-- The column-minimum stores of the trips before trip n: trip n's eight stores take the minimum of what the
    earlier trips left (over the contents `G6` the loop started from) and its own tile products' column minima. -/
def colsPB (X1 : BufTy.Contents (Elt F) M1.view.ty) (w : Fin 8 → Vec F S68x1024 .bf16) (G6 : BufTy.Contents (Elt F) sc6.view.ty) :
    ℕ → List (View.Piece (Elt F) S1x8192 .f32)
  | 0 => []
  | n + 1 => if h : n < k0_t2_loop.trips then
      colPieces (lhsTile M1 X1 ⟨n, h⟩) w (ld6 (sc6.view.writes (Elt F) G6 (colsPB X1 w G6 n))) ++ colsPB X1 w G6 n
    else colsPB X1 w G6 n

/-- The generated recursion's row and column components are these two lists: they depend neither on what the
    row-minimum buffer and the left tile's buffer held when the loop started, nor on the right operand's buffer
    beyond its eight column tiles. -/
theorem PB2_eq (X1 : BufTy.Contents (Elt F) M1.view.ty) (X7 : BufTy.Contents (Elt F) sc7.view.ty)
    (G5 : BufTy.Contents (Elt F) sc5.view.ty) (G6 : BufTy.Contents (Elt F) sc6.view.ty) (G8 : BufTy.Contents (Elt F) sc8.view.ty) :
    ∀ n, (PB2 c i M1 h1 M2 h2 M3 h3 M4 h4 X1 X7 G5 G6 G8 n).1 = rowsPB M1 X1 (ld7 X7) n
      ∧ (PB2 c i M1 h1 M2 h2 M3 h3 M4 h4 X1 X7 G5 G6 G8 n).2.1 = colsPB M1 X1 (ld7 X7) G6 n
  | 0 => ⟨rfl, rfl⟩
  | n + 1 => by
    have ih := PB2_eq X1 X7 G5 G6 G8 n
    unfold PB2 at ih ⊢
    rw [pb_k0_t2.eq_2]; unfold pb_k0_t2Step
    by_cases h : n < k0_t2_loop.trips
    · rw [dif_pos h, tripL2_eq]
      dsimp only
      rw [rowsPB, colsPB, dif_pos h, dif_pos h, ih.1, ih.2]
      exact ⟨rfl, rfl⟩
    · rw [dif_neg h, rowsPB, colsPB, dif_neg h, dif_neg h]
      exact ih

end

end Cert.Kernel.Hand

end
-- ==== Proof.KRun.lean ====
/-
  The kernel body run once on whole staging buffers: the value it leaves in the result's buffer is the one
  the run finds, a function of the three input blocks (and, formally, of what the two operand scratch buffers
  held on entry).
-/
import proofs.«419406_j17239998726835_3_alg».proof.Proof.Gen.Kernel.Loops
import proofs.«419406_j17239998726835_3_alg».proof.Proof.Gen.Kernel.Frame
import proofs.«419406_j17239998726835_3_alg».proof.Proof.KPB
import Idealize.ShloMosaic.Lib.Tactic
import Idealize.ShloMosaic.Lib.Pipeline.Value
import Idealize.ShloMosaic.Lib.HeldBySlice

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl

set_option maxHeartbeats 4000000 in
/-- What the body leaves in the result's staging buffer — a value the run finds — with the proof that on whole
    staging buffers holding the three input blocks, the two minima scratch at anything and the two operand
    scratch at contents `j7`, `j8`, the body runs to the end, the inputs as they were, the result at that value,
    every scratch at some contents. -/
noncomputable def kernelRun (c : Dev nD) (i : grid0.Coords)
    (M1 : Memref sig .tc .vmem S1x8192x64 .f32) (h1 : M1.IsWhole) (M2 : Memref sig .tc .vmem S1x64x8192 .bf16) (h2 : M2.IsWhole)
    (M3 : Memref sig .tc .vmem S1x1x8192 .f32) (h3 : M3.IsWhole) (M4 : Memref sig .tc .vmem S1x1x128 .f32) (h4 : M4.IsWhole)
    (x1 : Vec F S1x8192x64 .f32) (x2 : Vec F S1x64x8192 .bf16) (x3 : Vec F S1x1x8192 .f32)
    (j7 : Vec F S68x8192 .bf16) (j8 : Vec F S1024x68 .bf16) :
    { Y : Vec F S1x1x128 .f32 //
      ∀ (E : Set ℕ) (K : PUnit → sProp 𝕄),
        iprop(owns (c : Thread nD τ) M1 fullShare x1 ∗ owns (c : Thread nD τ) M2 fullShare x2 ∗ owns (c : Thread nD τ) M3 fullShare x3
            ∗ (∃ d, owns (c : Thread nD τ) M4 fullShare d)
            ∗ (∃ d, owns (c : Thread nD τ) sc5 fullShare d) ∗ (∃ d, owns (c : Thread nD τ) sc6 fullShare d)
            ∗ owns (c : Thread nD τ) sc7 fullShare j7 ∗ owns (c : Thread nD τ) sc8 fullShare j8
            ∗ (iprop(owns (c : Thread nD τ) M1 fullShare x1 ∗ owns (c : Thread nD τ) M2 fullShare x2 ∗ owns (c : Thread nD τ) M3 fullShare x3
                ∗ owns (c : Thread nD τ) M4 fullShare Y
                ∗ (∃ d, owns (c : Thread nD τ) sc5 fullShare d) ∗ (∃ d, owns (c : Thread nD τ) sc6 fullShare d)
                ∗ (∃ d, owns (c : Thread nD τ) sc7 fullShare d) ∗ (∃ d, owns (c : Thread nD τ) sc8 fullShare d)) -∗ K ⟨⟩))
          ⊢ wp frame (wpE (defs₀ (F := F)) 𝒱₀ c none) E
              (cc0_kernel i M1 h1 M2 h2 M3 h3 M4 h4 sc5 (Memref.isWhole_whole _) sc6 (Memref.isWhole_whole _) sc7 (Memref.isWhole_whole _) sc8 (Memref.isWhole_whole _)) K } := by
  refine ⟨?_, fun E K => ?run⟩
  case run =>
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := h1.eq_unread hf1; obtain rfl := h2.eq_unread hf2; obtain rfl := h3.eq_unread hf3
    obtain rfl := (Memref.isWhole_whole _).eq_unread hf7; obtain rfl := (Memref.isWhole_whole _).eq_unread hf8
    sl_unfold [cc0_kernel]
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; swap; · iexact H4
      ipureintro
      refine (View.read_writes_eq_canon M4.view f4 _ (fun y => ⟨_, List.mem_singleton_self _, View.mem_set_unit_zero (S := S1x1x128) hz3 inb_S1x1x128_S1x1x128_0_0_0 y⟩)).trans ?_
      exact View.canon_unit_zero (Val := Elt F) (e := .f32) (S := S1x1x128) hz3 inb_S1x1x128_S1x1x128_0_0_0 _
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The value found, named: the mean payload of the two minima buffers as the run read them back. -/
theorem Y_eq (c : Dev nD) (i : grid0.Coords)
    (M1 : Memref sig .tc .vmem S1x8192x64 .f32) (h1 : M1.IsWhole) (M2 : Memref sig .tc .vmem S1x64x8192 .bf16) (h2 : M2.IsWhole)
    (M3 : Memref sig .tc .vmem S1x1x8192 .f32) (h3 : M3.IsWhole) (M4 : Memref sig .tc .vmem S1x1x128 .f32) (h4 : M4.IsWhole)
    (x1 : Vec F S1x8192x64 .f32) (x2 : Vec F S1x64x8192 .bf16) (x3 : Vec F S1x1x8192 .f32)
    (j7 : Vec F S68x8192 .bf16) (j8 : Vec F S1024x68 .bf16) : (kernelRun c i M1 h1 M2 h2 M3 h3 M4 h4 x1 x2 x3 j7 j8).1 = k0_pay8 (kernelRun.sl.v10 c i M1 h1 M2 h2 M3 h3 M4 h4 x1 x2 x3 j7 j8) (kernelRun.sl.v15 c i M1 h1 M2 h2 M3 h3 M4 h4 x1 x2 x3 j7 j8) := by
  unfold kernelRun
  rfl

end Cert.Kernel.Hand

end
-- ==== Proof.KData.lean ====
/-
  The pipeline's proof data for the kernel's one launch: what each window's staging buffer holds after the
  body at each grid point (each input its block, the result the value the body's run finds there).
-/
import proofs.«419406_j17239998726835_3_alg».proof.Proof.KRun

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1x8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)

/-- Fixed contents to name the result by: what the two operand scratch buffers hold does not matter (`Y_indep`). -/
def j7₀ : Vec F S68x8192 .bf16 := sc7.view.read (Elt F) sc7.view.junk
def j8₀ : Vec F S1024x68 .bf16 := sc8.view.read (Elt F) sc8.view.junk

/-- The value the body leaves in the result's staging buffer at point `t`. -/
def outsAt (c : Dev nD) (t : Fin cfg0.N) : Vec F S1x1x128 .f32 :=
  (kernelRun c (grid0.coords t) (ms0_0 t) (hs0_0 t) (ms0_1 t) (hs0_1 t) (ms0_2 t) (hs0_2 t) (ms0_3 t) (hs0_3 t)
    (iblk m c 0 t) (iblk m c 1 t) (iblk m c 2 t) j7₀ j8₀).1

/-! ## The pipeline's proof data -/

/-- The arrays as the region finds them; after the body each input's buffer at its block and the result's at
    `outsAt`; the invariant: the scratch at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant with the scratch operands as memrefs owned at some contents. -/
theorem PhiA_eq (c : Dev nD) :
    (Pipeline.ΦA spec0 c : sProp 𝕄)
      = iprop(iprop((∃ d, owns (c : Thread nD τ) sc5 fullShare d) ∗ (∃ d, owns (c : Thread nD τ) sc6 fullShare d)
          ∗ (∃ d, owns (c : Thread nD τ) sc7 fullShare d) ∗ (∃ d, owns (c : Thread nD τ) sc8 fullShare d)) ∗ (∃ r, prngReg c r)) := by
  unfold Pipeline.ΦA; rw [scopedRest0_eq]; simp only [sc5, sc6, sc7, sc8, owns_whole]; try rfl

end Cert.Kernel.Hand

end
-- ==== Proof.KCover.lean ====
import proofs.«419406_j17239998726835_3_alg».proof.Proof.KOpen

noncomputable section

namespace Cert.Kernel.Hand

open Cert.Kernel Cert.Kernel.Gen
open Idealize.ShloMosaic Idealize.ShloMosaic.TcCoe
open Idealize.SL Idealize.SL.Sem

variable {F : FTy → Type} [FloatOps F]

/-- The first loop makes eight trips. -/
theorem k0_t1_trips : k0_t1_loop.trips = 8 := by decide +kernel

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-- The stores into the augmented right operand made by the trips before trip n, last made first. -/
abbrev PB1 (X2 : BufTy.Contents (Elt F) M2.view.ty) (X3 : BufTy.Contents (Elt F) M3.view.ty) (n : ℕ) :
    List (View.Piece (Elt F) S68x8192 .bf16) :=
  pb_k0_t1 (F := F) 𝒱₀ c none i M1 h1 M2 h2 M3 h3 M4 h4 sc5 (Memref.isWhole_whole _) sc6 (Memref.isWhole_whole _) sc7 (Memref.isWhole_whole _) sc8 (Memref.isWhole_whole _) X2 X3 n

/-- One trip's stores, named. -/
abbrev TL1 (X2 : BufTy.Contents (Elt F) M2.view.ty) (X3 : BufTy.Contents (Elt F) M3.view.ty) (k : Fin k0_t1_loop.trips) :
    List (View.Piece (Elt F) S68x8192 .bf16) :=
  tripL_k0_t1 (F := F) 𝒱₀ c none i M1 h1 M2 h2 M3 h3 M4 h4 sc5 (Memref.isWhole_whole _) sc6 (Memref.isWhole_whole _) sc7 (Memref.isWhole_whole _) sc8 (Memref.isWhole_whole _) X2 X3 k

/-- The stores before trip n+1 are trip n's stores put in front of the stores before trip n. -/
theorem PB1_succ (X2 : BufTy.Contents (Elt F) M2.view.ty) (X3 : BufTy.Contents (Elt F) M3.view.ty) (n : ℕ) (h : n < k0_t1_loop.trips) :
    PB1 c i M1 h1 M2 h2 M3 h3 M4 h4 X2 X3 (n + 1)
      = TL1 c i M1 h1 M2 h2 M3 h3 M4 h4 X2 X3 ⟨n, h⟩ ++ PB1 c i M1 h1 M2 h2 M3 h3 M4 h4 X2 X3 n :=
  pb_k0_t1_succ (F := F) 𝒱₀ c none i M1 h1 M2 h2 M3 h3 M4 h4 sc5 (Memref.isWhole_whole _) sc6 (Memref.isWhole_whole _) sc7 (Memref.isWhole_whole _) sc8 (Memref.isWhole_whole _) X2 X3 ⟨n, h⟩

/-- Every store of trip k is among the stores before trip n, for k < n ≤ the trip count. -/
theorem TL1_sub_PB1 (X2 : BufTy.Contents (Elt F) M2.view.ty) (X3 : BufTy.Contents (Elt F) M3.view.ty) (k : Fin k0_t1_loop.trips) :
    ∀ n, k.val < n → n ≤ k0_t1_loop.trips →
      ∀ p ∈ TL1 c i M1 h1 M2 h2 M3 h3 M4 h4 X2 X3 k, p ∈ PB1 c i M1 h1 M2 h2 M3 h3 M4 h4 X2 X3 n
  | 0, h, _ => absurd h (Nat.not_lt_zero _)
  | n + 1, h, hn => by
    intro p hp
    rw [PB1_succ c i M1 h1 M2 h2 M3 h3 M4 h4 X2 X3 n (by omega)]
    rcases Nat.lt_succ_iff_lt_or_eq.mp h with h' | h'
    · exact List.mem_append_right _ (TL1_sub_PB1 X2 X3 k n h' (by omega) p hp)
    · have hk : (⟨n, by omega⟩ : Fin k0_t1_loop.trips) = k := Fin.ext h'.symm
      rw [hk]
      exact List.mem_append_left _ hp

/-- Every element of the augmented right operand lies in some store's rectangle: column tile (y 1) / 1024,
    the coordinate rows for a row below 64 and the bias rows otherwise. -/
theorem PB1_cover (X2 : BufTy.Contents (Elt F) M2.view.ty) (X3 : BufTy.Contents (Elt F) M3.view.ty) (y : S68x8192.Idx) :
    ∃ p ∈ PB1 c i M1 h1 M2 h2 M3 h3 M4 h4 X2 X3 (Scf.trips k0_t1_loop.lb k0_t1_loop.ub k0_t1_loop.st), y ∈ p.1.set := by
  have hy0 : (y 0).val < 68 := (y 0).isLt
  have hy1 : (y 1).val < 8192 := (y 1).isLt
  have ht : k0_t1_loop.trips = 8 := k0_t1_trips
  have hkt : (y 1).val / 1024 < k0_t1_loop.trips := by rw [ht]; omega
  have hsub := TL1_sub_PB1 c i M1 h1 M2 h2 M3 h3 M4 h4 X2 X3 ⟨(y 1).val / 1024, hkt⟩ k0_t1_loop.trips hkt le_rfl
  unfold TL1 at hsub
  rw [tripL1_eq] at hsub
  by_cases hr : (y 0).val < 64
  · refine ⟨_, hsub _ (List.mem_cons_of_mem _ List.mem_cons_self), ?_⟩
    rw [Rect.mem_set_unit]
    intro a
    rw [k0_off3_eq]
    fin_cases a
    · simp [Shape.size]; omega
    · simp [Shape.size]; omega
  · refine ⟨_, hsub _ List.mem_cons_self, ?_⟩
    rw [Rect.mem_set_unit]
    intro a
    rw [k0_off4_eq]
    fin_cases a
    · simp [Shape.size]; omega
    · simp [Shape.size]; omega

/-- What the eight trips leave in the augmented right operand does not depend on what it held before. -/
theorem X7_indep (X2 : BufTy.Contents (Elt F) M2.view.ty) (X3 : BufTy.Contents (Elt F) M3.view.ty)
    (f f' : BufTy.Contents (Elt F) sc7.view.ty) :
    sc7.view.writes (Elt F) f (PB1 c i M1 h1 M2 h2 M3 h3 M4 h4 X2 X3 (Scf.trips k0_t1_loop.lb k0_t1_loop.ub k0_t1_loop.st))
      = sc7.view.writes (Elt F) f' (PB1 c i M1 h1 M2 h2 M3 h3 M4 h4 X2 X3 (Scf.trips k0_t1_loop.lb k0_t1_loop.ub k0_t1_loop.st)) := by
  have key : sc7.view.read (Elt F) (sc7.view.writes (Elt F) f (PB1 c i M1 h1 M2 h2 M3 h3 M4 h4 X2 X3 (Scf.trips k0_t1_loop.lb k0_t1_loop.ub k0_t1_loop.st)))
      = sc7.view.read (Elt F) (sc7.view.writes (Elt F) f' (PB1 c i M1 h1 M2 h2 M3 h3 M4 h4 X2 X3 (Scf.trips k0_t1_loop.lb k0_t1_loop.ub k0_t1_loop.st))) :=
    funext fun y => View.read_writes_apply_eq sc7.view f sc7.view f' y _ (PB1_cover c i M1 h1 M2 h2 M3 h3 M4 h4 X2 X3 y)
  exact key

end

end Cert.Kernel.Hand

end
-- ==== Proof.KObl.lean ====
/-
  The body obligation of the kernel's launch, the run of @main and the frame: the body's run at each grid
  point on the staging buffers the pipeline passes, the scratch handed to it at whatever it holds.
-/
import proofs.«419406_j17239998726835_3_alg».proof.Proof.KData
import proofs.«419406_j17239998726835_3_alg».proof.Proof.KCover

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's buffer does not depend on what the two operand scratch buffers held on entry:
    the second loop's row and column stores are functions of the first cloud's block and of the right operand's column
    tiles alone, and the eight trips of the first loop overwrite the whole right operand. -/
theorem Y_indep (c : Dev nD) (i : grid0.Coords)
    (M1 : Memref sig .tc .vmem S1x8192x64 .f32) (h1 : M1.IsWhole) (M2 : Memref sig .tc .vmem S1x64x8192 .bf16) (h2 : M2.IsWhole)
    (M3 : Memref sig .tc .vmem S1x1x8192 .f32) (h3 : M3.IsWhole) (M4 : Memref sig .tc .vmem S1x1x128 .f32) (h4 : M4.IsWhole)
    (x1 : Vec F S1x8192x64 .f32) (x2 : Vec F S1x64x8192 .bf16) (x3 : Vec F S1x1x8192 .f32)
    (j7 j7' : Vec F S68x8192 .bf16) (j8 j8' : Vec F S1024x68 .bf16) :
    (kernelRun c i M1 h1 M2 h2 M3 h3 M4 h4 x1 x2 x3 j7 j8).1 = (kernelRun c i M1 h1 M2 h2 M3 h3 M4 h4 x1 x2 x3 j7' j8').1 := by
  rw [Y_eq, Y_eq]
  unfold kernelRun.sl.v10 kernelRun.sl.v15
  have e := @PB2_eq F _ c i M1 h1 M2 h2 M3 h3 M4 h4
  unfold PB2 at e
  have e1 := fun X1 X7 G5 G6 G8 n => (e X1 X7 G5 G6 G8 n).1
  have e2 := fun X1 X7 G5 G6 G8 n => (e X1 X7 G5 G6 G8 n).2
  simp only [e1, e2]
  rw [X7_indep c i M1 h1 M2 h2 M3 h3 M4 h4 (h2.unread x2) (h3.unread x3) ((Memref.isWhole_whole _).unread j7) ((Memref.isWhole_whole _).unread j7')]

/-! ## The body obligation -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl, PhiA_eq]
  unfold outsAt
  iintro ⟨⟨⟨H5, H6, ⟨%d7, H7⟩, ⟨%d8, H8⟩⟩, HR⟩, Ho, ⟨%d0, H0⟩, ⟨%d1, H1⟩, ⟨%d2, H2⟩, ⟨%d3, H3⟩⟩
  rw [Y_indep c (grid0.coords t) (ms0_0 t) (hs0_0 t) (ms0_1 t) (hs0_1 t) (ms0_2 t) (hs0_2 t) (ms0_3 t) (hs0_3 t)
    (iblk m c 0 t) (iblk m c 1 t) (iblk m c 2 t) j7₀ d7 j8₀ d8]
  iapply ((kernelRun c (grid0.coords t) (ms0_0 t) (hs0_0 t) (ms0_1 t) (hs0_1 t) (ms0_2 t) (hs0_2 t) (ms0_3 t) (hs0_3 t)
    (iblk m c 0 t) (iblk m c 1 t) (iblk m c 2 t) d7 d8).2 Set.univ _)
  isplitl [H0]; · iexact H0
  isplitl [H1]; · iexact H1
  isplitl [H2]; · iexact H2
  isplitl [H3]; · iexists _; iexact H3
  isplitl [H5]; · iexact H5
  isplitl [H6]; · iexact H6
  isplitl [H7]; · iexact H7
  isplitl [H8]; · iexact H8
  iintro ⟨H0, H1, H2, H3, H5, H6, H7, H8⟩
  isplitl [H5 H6 H7 H8 HR]
  · isplitr [HR]
    · isplitl [H5]; · iexact H5
      isplitl [H6]; · iexact H6
      isplitl [H7]; · iexact H7
      iexact H8
    · iexact HR
  isplitl [Ho]; · iexact Ho
  isplitl [H0]; · iexact H0
  isplitl [H1]; · iexact H1
  isplitl [H2]; · iexact H2
  iexact H3

/-! ## The run and the frame -/

set_option backward.isDefEq.respectTransparency.types false in
/-- Every weakly fair execution of @main terminates, and every final state has every array of the pipeline at what
    the library computes from the proof data and every other unscoped buffer at what the host lines after the
    region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The frame: the argument arrays end as they started. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

end Cert.Kernel.Hand

end
-- ==== Proof.KIDefs.lean ====
/-
  Names for the pure vector functions one trip of the kernel's second loop computes: the running
  row-minimum carried through the eight column tiles of one row tile.
-/
import proofs.«419406_j17239998726835_3_alg».proof.Proof.Gen.KernelIdeal.Skeleton

noncomputable section

namespace Cert.KernelIdeal.Hand

open Cert.KernelIdeal Cert.KernelIdeal.Gen
open Idealize.ShloMosaic

variable {F : FTy → Type} [FloatOps F]

/-- The row minima of one row tile against the eight column tiles `ld7 0 … ld7 7` of the right operand,
    combined one after the other starting from +∞: tile j's product `lhs · ld7 j` is reduced along its
    columns and the result is taken into the running minimum. -/
def rowChain (lhs : Vec F S1024x68 .bf16) (ld7 : Fin 8 → Vec F S68x1024 .bf16) : FVec F S1x1024 .f32 :=
  k0_pay7 lhs
    (k0_pay28 lhs
      (k0_pay22 lhs (k0_pay17 lhs k0_pay12 (ld7 0) (ld7 1)) (k0_pay18 lhs (ld7 2)) (ld7 3))
      (k0_pay23 lhs (ld7 4)) (ld7 5))
    (k0_pay29 lhs (ld7 6)) (ld7 7)

end Cert.KernelIdeal.Hand

end
-- ==== Proof.KIOpen.lean ====
import proofs.«419406_j17239998726835_3_alg».proof.Proof.Gen.KernelIdeal.Loops
import proofs.«419406_j17239998726835_3_alg».proof.Proof.KIDefs
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

abbrev 𝒱₀ : Variants := Variants.none

/-- The kernel's four scratch operands: the two running minima, the augmented right operand, the
    augmented left tile. -/
abbrev sc5 : Memref sig .tc .vmem S1x8192 .f32 := Memref.whole cc0_scratch0
abbrev sc6 : Memref sig .tc .vmem S1x8192 .f32 := Memref.whole cc0_scratch1
abbrev sc7 : Memref sig .tc .vmem S68x8192 .bf16 := Memref.whole cc0_scratch2
abbrev sc8 : Memref sig .tc .vmem S1024x68 .bf16 := Memref.whole cc0_scratch3

/-- Column tile j of the augmented right operand: all 68 rows, columns j·1024 … j·1024+1023. -/
abbrev bx7 (j : Fin 8) : Rect S68x8192 :=
  Rect.unit (s := S68x8192) ![0, j.val * 1024] S68x1024.size (by intro a; have := j.isLt; fin_cases a <;> simp [Shape.size] <;> omega)
/-- Column tile j of a running-minimum row. -/
abbrev bx6 (j : Fin 8) : Rect S1x8192 :=
  Rect.unit (s := S1x8192) ![0, j.val * 1024] S1x1024.size (by intro a; have := j.isLt; fin_cases a <;> simp [Shape.size] <;> omega)

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-- The eight column tiles of the right operand, as loaded from contents `X7`. -/
def ld7 (X7 : BufTy.Contents (Elt F) sc7.view.ty) (j : Fin 8) : Vec F S68x1024 .bf16 :=
  View.readAt (Elt F) sc7.view (bx7 j).toLoadRect X7
/-- The eight column tiles of the running column minima, as loaded from contents `f6`. -/
def ld6 (f6 : BufTy.Contents (Elt F) sc6.view.ty) (j : Fin 8) : Vec F S1x1024 .f32 :=
  View.readAt (Elt F) sc6.view (bx6 j).toLoadRect f6
/-- Row tile k of the first cloud's block, as loaded from contents `X1`. -/
def ld1 (X1 : BufTy.Contents (Elt F) M1.view.ty) (k : Fin k0_t2_loop.trips) : Vec F S1x1024x64 .f32 :=
  View.readAt (Elt F) M1.view (Rect.unit (s := S1x8192x64) (k0_off5 k) S1x1024x64.size (k0_off5_inb k)).toLoadRect X1

/-- The two stores that build the augmented left tile: the 64 scaled coordinates and the four bias lanes. -/
def lhsPieces (X1 : BufTy.Contents (Elt F) M1.view.ty) (k : Fin k0_t2_loop.trips) : List (View.Piece (Elt F) S1024x68 .bf16) :=
  [⟨Rect.unit (s := S1024x68) ![0, 64] S1024x4.size inb_S1024x68_S1024x4_0_64, k0_pay11 (ld1 M1 X1 k)⟩,
   ⟨Rect.unit (s := S1024x68) ![0, 0] S1024x64.size inb_S1024x68_S1024x64_0_0, k0_pay10 (ld1 M1 X1 k)⟩]
/-- The augmented left tile read back whole. -/
def lhsTile (X1 : BufTy.Contents (Elt F) M1.view.ty) (k : Fin k0_t2_loop.trips) : Vec F S1024x68 .bf16 :=
  sc8.view.readCov (lhsPieces M1 X1 k) (Rect.unit (s := S1024x68) ![0, 0] S1024x68.size inb_S1024x68_S1024x68_0_0).toLoadRect

/-- Trip k's store of the row minima of row tile k. -/
def rowPieces (k : Fin k0_t2_loop.trips) (lhs : Vec F S1024x68 .bf16) (w : Fin 8 → Vec F S68x1024 .bf16) :
    List (View.Piece (Elt F) S1x8192 .f32) :=
  [⟨Rect.unit (s := S1x8192) (k0_off8 k) S1x1024.size (k0_off8_inb k), rowChain lhs w⟩]
/-- Trip k's eight stores into the running column minima, last made first: tile j gets the minimum of what it held
    and the column minima of the product of the left tile with column tile j. -/
def colPieces (lhs : Vec F S1024x68 .bf16) (w : Fin 8 → Vec F S68x1024 .bf16) (a : Fin 8 → Vec F S1x1024 .f32) :
    List (View.Piece (Elt F) S1x8192 .f32) :=
  [⟨bx6 7, k0_pay6 lhs (w 7) (a 7)⟩, ⟨bx6 6, k0_pay30 lhs (w 6) (a 6)⟩, ⟨bx6 5, k0_pay27 lhs (w 5) (a 5)⟩,
   ⟨bx6 4, k0_pay25 (k0_pay24 lhs (w 4) (a 4))⟩, ⟨bx6 3, k0_pay21 lhs (w 3) (a 3)⟩,
   ⟨bx6 2, k0_pay19 (k0_pay18 lhs (w 2)) (a 2)⟩, ⟨bx6 1, k0_pay16 lhs (w 1) (a 1)⟩, ⟨bx6 0, k0_pay14 lhs (w 0) (a 0)⟩]

/-- One trip of the second loop, spelt out: what it stores into the row minima, the column minima and the left tile,
    from the first cloud's block `X1`, the right operand `X7` and the column minima `f6` it finds. -/
theorem tripL2_eq (X1 : BufTy.Contents (Elt F) M1.view.ty) (X7 : BufTy.Contents (Elt F) sc7.view.ty) (k : Fin k0_t2_loop.trips)
    (f5 : BufTy.Contents (Elt F) sc5.view.ty) (f6 : BufTy.Contents (Elt F) sc6.view.ty) (f8 : BufTy.Contents (Elt F) sc8.view.ty) :
    tripL_k0_t2 (F := F) 𝒱₀ c none i M1 h1 M2 h2 M3 h3 M4 h4 sc5 (Memref.isWhole_whole _) sc6 (Memref.isWhole_whole _) sc7 (Memref.isWhole_whole _) sc8 (Memref.isWhole_whole _) X1 X7 k f5 f6 f8
      = (rowPieces k (lhsTile M1 X1 k) (ld7 X7), colPieces (lhsTile M1 X1 k) (ld7 X7) (ld6 f6), lhsPieces M1 X1 k) := by
  unfold tripL_k0_t2 trip_k0_t2
  rfl

/-- One trip of the first loop, spelt out: the four bias rows and the 64 coordinate rows of column tile k. -/
theorem tripL1_eq (X2 : BufTy.Contents (Elt F) M2.view.ty) (X3 : BufTy.Contents (Elt F) M3.view.ty) (k : Fin k0_t1_loop.trips) :
    tripL_k0_t1 (F := F) 𝒱₀ c none i M1 h1 M2 h2 M3 h3 M4 h4 sc5 (Memref.isWhole_whole _) sc6 (Memref.isWhole_whole _) sc7 (Memref.isWhole_whole _) sc8 (Memref.isWhole_whole _) X2 X3 k
      = [⟨Rect.unit (s := S68x8192) (k0_off4 k) S4x1024.size (k0_off4_inb k),
            k0_pay4 (View.readAt (Elt F) M3.view (Rect.unit (s := S1x1x8192) (k0_off2 k) S1x1x1024.size (k0_off2_inb k)).toLoadRect X3)⟩,
         ⟨Rect.unit (s := S68x8192) (k0_off3 k) S64x1024.size (k0_off3_inb k),
            k0_pay3 (View.readAt (Elt F) M2.view (Rect.unit (s := S1x64x8192) (k0_off1 k) S1x64x1024.size (k0_off1_inb k)).toLoadRect X2)⟩] := by
  unfold tripL_k0_t1 trip_k0_t1
  rfl

end

end Cert.KernelIdeal.Hand

end
-- ==== Proof.KIPB.lean ====
import proofs.«419406_j17239998726835_3_alg».proof.Proof.KIOpen

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-- The stores of the second loop's trips before trip n, per buffer written. -/
abbrev PB2 (X1 : BufTy.Contents (Elt F) M1.view.ty) (X7 : BufTy.Contents (Elt F) sc7.view.ty)
    (G5 : BufTy.Contents (Elt F) sc5.view.ty) (G6 : BufTy.Contents (Elt F) sc6.view.ty) (G8 : BufTy.Contents (Elt F) sc8.view.ty) (n : ℕ) :=
  pb_k0_t2 (F := F) 𝒱₀ c none i M1 h1 M2 h2 M3 h3 M4 h4 sc5 (Memref.isWhole_whole _) sc6 (Memref.isWhole_whole _) sc7 (Memref.isWhole_whole _) sc8 (Memref.isWhole_whole _) X1 X7 G5 G6 G8 n

/-- The row-minimum stores of the trips before trip n: one per trip, depending only on the first cloud's block
    and on the right operand's column tiles. -/
def rowsPB (X1 : BufTy.Contents (Elt F) M1.view.ty) (w : Fin 8 → Vec F S68x1024 .bf16) : ℕ → List (View.Piece (Elt F) S1x8192 .f32)
  | 0 => []
  | n + 1 => if h : n < k0_t2_loop.trips then rowPieces ⟨n, h⟩ (lhsTile M1 X1 ⟨n, h⟩) w ++ rowsPB X1 w n else rowsPB X1 w n

/-- The column-minimum stores of the trips before trip n: trip n's eight stores take the minimum of what the
    earlier trips left (over the contents `G6` the loop started from) and its own tile products' column minima. -/
def colsPB (X1 : BufTy.Contents (Elt F) M1.view.ty) (w : Fin 8 → Vec F S68x1024 .bf16) (G6 : BufTy.Contents (Elt F) sc6.view.ty) :
    ℕ → List (View.Piece (Elt F) S1x8192 .f32)
  | 0 => []
  | n + 1 => if h : n < k0_t2_loop.trips then
      colPieces (lhsTile M1 X1 ⟨n, h⟩) w (ld6 (sc6.view.writes (Elt F) G6 (colsPB X1 w G6 n))) ++ colsPB X1 w G6 n
    else colsPB X1 w G6 n

/-- The generated recursion's row and column components are these two lists: they depend neither on what the
    row-minimum buffer and the left tile's buffer held when the loop started, nor on the right operand's buffer
    beyond its eight column tiles. -/
theorem PB2_eq (X1 : BufTy.Contents (Elt F) M1.view.ty) (X7 : BufTy.Contents (Elt F) sc7.view.ty)
    (G5 : BufTy.Contents (Elt F) sc5.view.ty) (G6 : BufTy.Contents (Elt F) sc6.view.ty) (G8 : BufTy.Contents (Elt F) sc8.view.ty) :
    ∀ n, (PB2 c i M1 h1 M2 h2 M3 h3 M4 h4 X1 X7 G5 G6 G8 n).1 = rowsPB M1 X1 (ld7 X7) n
      ∧ (PB2 c i M1 h1 M2 h2 M3 h3 M4 h4 X1 X7 G5 G6 G8 n).2.1 = colsPB M1 X1 (ld7 X7) G6 n
  | 0 => ⟨rfl, rfl⟩
  | n + 1 => by
    have ih := PB2_eq X1 X7 G5 G6 G8 n
    unfold PB2 at ih ⊢
    rw [pb_k0_t2.eq_2]; unfold pb_k0_t2Step
    by_cases h : n < k0_t2_loop.trips
    · rw [dif_pos h, tripL2_eq]
      dsimp only
      rw [rowsPB, colsPB, dif_pos h, dif_pos h, ih.1, ih.2]
      exact ⟨rfl, rfl⟩
    · rw [dif_neg h, rowsPB, colsPB, dif_neg h, dif_neg h]
      exact ih

end

end Cert.KernelIdeal.Hand

end
-- ==== Proof.KIRun.lean ====
/-
  The kernel body run once on whole staging buffers: the value it leaves in the result's buffer is the one
  the run finds, a function of the three input blocks (and, formally, of what the two operand scratch buffers
  held on entry).
-/
import proofs.«419406_j17239998726835_3_alg».proof.Proof.Gen.KernelIdeal.Loops
import proofs.«419406_j17239998726835_3_alg».proof.Proof.Gen.KernelIdeal.Frame
import proofs.«419406_j17239998726835_3_alg».proof.Proof.KIPB
import Idealize.ShloMosaic.Lib.Tactic
import Idealize.ShloMosaic.Lib.Pipeline.Value
import Idealize.ShloMosaic.Lib.HeldBySlice

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl

set_option maxHeartbeats 4000000 in
/-- What the body leaves in the result's staging buffer — a value the run finds — with the proof that on whole
    staging buffers holding the three input blocks, the two minima scratch at anything and the two operand
    scratch at contents `j7`, `j8`, the body runs to the end, the inputs as they were, the result at that value,
    every scratch at some contents. -/
noncomputable def kernelRun (c : Dev nD) (i : grid0.Coords)
    (M1 : Memref sig .tc .vmem S1x8192x64 .f32) (h1 : M1.IsWhole) (M2 : Memref sig .tc .vmem S1x64x8192 .bf16) (h2 : M2.IsWhole)
    (M3 : Memref sig .tc .vmem S1x1x8192 .f32) (h3 : M3.IsWhole) (M4 : Memref sig .tc .vmem S1x1x128 .f32) (h4 : M4.IsWhole)
    (x1 : Vec F S1x8192x64 .f32) (x2 : Vec F S1x64x8192 .bf16) (x3 : Vec F S1x1x8192 .f32)
    (j7 : Vec F S68x8192 .bf16) (j8 : Vec F S1024x68 .bf16) :
    { Y : Vec F S1x1x128 .f32 //
      ∀ (E : Set ℕ) (K : PUnit → sProp 𝕄),
        iprop(owns (c : Thread nD τ) M1 fullShare x1 ∗ owns (c : Thread nD τ) M2 fullShare x2 ∗ owns (c : Thread nD τ) M3 fullShare x3
            ∗ (∃ d, owns (c : Thread nD τ) M4 fullShare d)
            ∗ (∃ d, owns (c : Thread nD τ) sc5 fullShare d) ∗ (∃ d, owns (c : Thread nD τ) sc6 fullShare d)
            ∗ owns (c : Thread nD τ) sc7 fullShare j7 ∗ owns (c : Thread nD τ) sc8 fullShare j8
            ∗ (iprop(owns (c : Thread nD τ) M1 fullShare x1 ∗ owns (c : Thread nD τ) M2 fullShare x2 ∗ owns (c : Thread nD τ) M3 fullShare x3
                ∗ owns (c : Thread nD τ) M4 fullShare Y
                ∗ (∃ d, owns (c : Thread nD τ) sc5 fullShare d) ∗ (∃ d, owns (c : Thread nD τ) sc6 fullShare d)
                ∗ (∃ d, owns (c : Thread nD τ) sc7 fullShare d) ∗ (∃ d, owns (c : Thread nD τ) sc8 fullShare d)) -∗ K ⟨⟩))
          ⊢ wp frame (wpE (defs₀ (F := F)) 𝒱₀ c none) E
              (cc0_kernel i M1 h1 M2 h2 M3 h3 M4 h4 sc5 (Memref.isWhole_whole _) sc6 (Memref.isWhole_whole _) sc7 (Memref.isWhole_whole _) sc8 (Memref.isWhole_whole _)) K } := by
  refine ⟨?_, fun E K => ?run⟩
  case run =>
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := h1.eq_unread hf1; obtain rfl := h2.eq_unread hf2; obtain rfl := h3.eq_unread hf3
    obtain rfl := (Memref.isWhole_whole _).eq_unread hf7; obtain rfl := (Memref.isWhole_whole _).eq_unread hf8
    sl_unfold [cc0_kernel]
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; swap; · iexact H4
      ipureintro
      refine (View.read_writes_eq_canon M4.view f4 _ (fun y => ⟨_, List.mem_singleton_self _, View.mem_set_unit_zero (S := S1x1x128) hz3 inb_S1x1x128_S1x1x128_0_0_0 y⟩)).trans ?_
      exact View.canon_unit_zero (Val := Elt F) (e := .f32) (S := S1x1x128) hz3 inb_S1x1x128_S1x1x128_0_0_0 _
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The value found, named: the mean payload of the two minima buffers as the run read them back. -/
theorem Y_eq (c : Dev nD) (i : grid0.Coords)
    (M1 : Memref sig .tc .vmem S1x8192x64 .f32) (h1 : M1.IsWhole) (M2 : Memref sig .tc .vmem S1x64x8192 .bf16) (h2 : M2.IsWhole)
    (M3 : Memref sig .tc .vmem S1x1x8192 .f32) (h3 : M3.IsWhole) (M4 : Memref sig .tc .vmem S1x1x128 .f32) (h4 : M4.IsWhole)
    (x1 : Vec F S1x8192x64 .f32) (x2 : Vec F S1x64x8192 .bf16) (x3 : Vec F S1x1x8192 .f32)
    (j7 : Vec F S68x8192 .bf16) (j8 : Vec F S1024x68 .bf16) : (kernelRun c i M1 h1 M2 h2 M3 h3 M4 h4 x1 x2 x3 j7 j8).1 = k0_pay8 (kernelRun.sl.v10 c i M1 h1 M2 h2 M3 h3 M4 h4 x1 x2 x3 j7 j8) (kernelRun.sl.v15 c i M1 h1 M2 h2 M3 h3 M4 h4 x1 x2 x3 j7 j8) := by
  unfold kernelRun
  rfl

end Cert.KernelIdeal.Hand

end
-- ==== Proof.KIData.lean ====
/-
  The pipeline's proof data for the kernel's one launch: what each window's staging buffer holds after the
  body at each grid point (each input its block, the result the value the body's run finds there).
-/
import proofs.«419406_j17239998726835_3_alg».proof.Proof.KIRun

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1x8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)

/-- Fixed contents to name the result by: what the two operand scratch buffers hold does not matter (`Y_indep`). -/
def j7₀ : Vec F S68x8192 .bf16 := sc7.view.read (Elt F) sc7.view.junk
def j8₀ : Vec F S1024x68 .bf16 := sc8.view.read (Elt F) sc8.view.junk

/-- The value the body leaves in the result's staging buffer at point `t`. -/
def outsAt (c : Dev nD) (t : Fin cfg0.N) : Vec F S1x1x128 .f32 :=
  (kernelRun c (grid0.coords t) (ms0_0 t) (hs0_0 t) (ms0_1 t) (hs0_1 t) (ms0_2 t) (hs0_2 t) (ms0_3 t) (hs0_3 t)
    (iblk m c 0 t) (iblk m c 1 t) (iblk m c 2 t) j7₀ j8₀).1

/-! ## The pipeline's proof data -/

/-- The arrays as the region finds them; after the body each input's buffer at its block and the result's at
    `outsAt`; the invariant: the scratch at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant with the scratch operands as memrefs owned at some contents. -/
theorem PhiA_eq (c : Dev nD) :
    (Pipeline.ΦA spec0 c : sProp 𝕄)
      = iprop(iprop((∃ d, owns (c : Thread nD τ) sc5 fullShare d) ∗ (∃ d, owns (c : Thread nD τ) sc6 fullShare d)
          ∗ (∃ d, owns (c : Thread nD τ) sc7 fullShare d) ∗ (∃ d, owns (c : Thread nD τ) sc8 fullShare d)) ∗ (∃ r, prngReg c r)) := by
  unfold Pipeline.ΦA; rw [scopedRest0_eq]; simp only [sc5, sc6, sc7, sc8, owns_whole]; try rfl

end Cert.KernelIdeal.Hand

end
-- ==== Proof.KICover.lean ====
import proofs.«419406_j17239998726835_3_alg».proof.Proof.KIOpen

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The first loop makes eight trips. -/
theorem k0_t1_trips : k0_t1_loop.trips = 8 := by decide +kernel

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-- The stores into the augmented right operand made by the trips before trip n, last made first. -/
abbrev PB1 (X2 : BufTy.Contents (Elt F) M2.view.ty) (X3 : BufTy.Contents (Elt F) M3.view.ty) (n : ℕ) :
    List (View.Piece (Elt F) S68x8192 .bf16) :=
  pb_k0_t1 (F := F) 𝒱₀ c none i M1 h1 M2 h2 M3 h3 M4 h4 sc5 (Memref.isWhole_whole _) sc6 (Memref.isWhole_whole _) sc7 (Memref.isWhole_whole _) sc8 (Memref.isWhole_whole _) X2 X3 n

/-- One trip's stores, named. -/
abbrev TL1 (X2 : BufTy.Contents (Elt F) M2.view.ty) (X3 : BufTy.Contents (Elt F) M3.view.ty) (k : Fin k0_t1_loop.trips) :
    List (View.Piece (Elt F) S68x8192 .bf16) :=
  tripL_k0_t1 (F := F) 𝒱₀ c none i M1 h1 M2 h2 M3 h3 M4 h4 sc5 (Memref.isWhole_whole _) sc6 (Memref.isWhole_whole _) sc7 (Memref.isWhole_whole _) sc8 (Memref.isWhole_whole _) X2 X3 k

/-- The stores before trip n+1 are trip n's stores put in front of the stores before trip n. -/
theorem PB1_succ (X2 : BufTy.Contents (Elt F) M2.view.ty) (X3 : BufTy.Contents (Elt F) M3.view.ty) (n : ℕ) (h : n < k0_t1_loop.trips) :
    PB1 c i M1 h1 M2 h2 M3 h3 M4 h4 X2 X3 (n + 1)
      = TL1 c i M1 h1 M2 h2 M3 h3 M4 h4 X2 X3 ⟨n, h⟩ ++ PB1 c i M1 h1 M2 h2 M3 h3 M4 h4 X2 X3 n :=
  pb_k0_t1_succ (F := F) 𝒱₀ c none i M1 h1 M2 h2 M3 h3 M4 h4 sc5 (Memref.isWhole_whole _) sc6 (Memref.isWhole_whole _) sc7 (Memref.isWhole_whole _) sc8 (Memref.isWhole_whole _) X2 X3 ⟨n, h⟩

/-- Every store of trip k is among the stores before trip n, for k < n ≤ the trip count. -/
theorem TL1_sub_PB1 (X2 : BufTy.Contents (Elt F) M2.view.ty) (X3 : BufTy.Contents (Elt F) M3.view.ty) (k : Fin k0_t1_loop.trips) :
    ∀ n, k.val < n → n ≤ k0_t1_loop.trips →
      ∀ p ∈ TL1 c i M1 h1 M2 h2 M3 h3 M4 h4 X2 X3 k, p ∈ PB1 c i M1 h1 M2 h2 M3 h3 M4 h4 X2 X3 n
  | 0, h, _ => absurd h (Nat.not_lt_zero _)
  | n + 1, h, hn => by
    intro p hp
    rw [PB1_succ c i M1 h1 M2 h2 M3 h3 M4 h4 X2 X3 n (by omega)]
    rcases Nat.lt_succ_iff_lt_or_eq.mp h with h' | h'
    · exact List.mem_append_right _ (TL1_sub_PB1 X2 X3 k n h' (by omega) p hp)
    · have hk : (⟨n, by omega⟩ : Fin k0_t1_loop.trips) = k := Fin.ext h'.symm
      rw [hk]
      exact List.mem_append_left _ hp

/-- Every element of the augmented right operand lies in some store's rectangle: column tile (y 1) / 1024,
    the coordinate rows for a row below 64 and the bias rows otherwise. -/
theorem PB1_cover (X2 : BufTy.Contents (Elt F) M2.view.ty) (X3 : BufTy.Contents (Elt F) M3.view.ty) (y : S68x8192.Idx) :
    ∃ p ∈ PB1 c i M1 h1 M2 h2 M3 h3 M4 h4 X2 X3 (Scf.trips k0_t1_loop.lb k0_t1_loop.ub k0_t1_loop.st), y ∈ p.1.set := by
  have hy0 : (y 0).val < 68 := (y 0).isLt
  have hy1 : (y 1).val < 8192 := (y 1).isLt
  have ht : k0_t1_loop.trips = 8 := k0_t1_trips
  have hkt : (y 1).val / 1024 < k0_t1_loop.trips := by rw [ht]; omega
  have hsub := TL1_sub_PB1 c i M1 h1 M2 h2 M3 h3 M4 h4 X2 X3 ⟨(y 1).val / 1024, hkt⟩ k0_t1_loop.trips hkt le_rfl
  unfold TL1 at hsub
  rw [tripL1_eq] at hsub
  by_cases hr : (y 0).val < 64
  · refine ⟨_, hsub _ (List.mem_cons_of_mem _ List.mem_cons_self), ?_⟩
    rw [Rect.mem_set_unit]
    intro a
    rw [k0_off3_eq]
    fin_cases a
    · simp [Shape.size]; omega
    · simp [Shape.size]; omega
  · refine ⟨_, hsub _ List.mem_cons_self, ?_⟩
    rw [Rect.mem_set_unit]
    intro a
    rw [k0_off4_eq]
    fin_cases a
    · simp [Shape.size]; omega
    · simp [Shape.size]; omega

/-- What the eight trips leave in the augmented right operand does not depend on what it held before. -/
theorem X7_indep (X2 : BufTy.Contents (Elt F) M2.view.ty) (X3 : BufTy.Contents (Elt F) M3.view.ty)
    (f f' : BufTy.Contents (Elt F) sc7.view.ty) :
    sc7.view.writes (Elt F) f (PB1 c i M1 h1 M2 h2 M3 h3 M4 h4 X2 X3 (Scf.trips k0_t1_loop.lb k0_t1_loop.ub k0_t1_loop.st))
      = sc7.view.writes (Elt F) f' (PB1 c i M1 h1 M2 h2 M3 h3 M4 h4 X2 X3 (Scf.trips k0_t1_loop.lb k0_t1_loop.ub k0_t1_loop.st)) := by
  have key : sc7.view.read (Elt F) (sc7.view.writes (Elt F) f (PB1 c i M1 h1 M2 h2 M3 h3 M4 h4 X2 X3 (Scf.trips k0_t1_loop.lb k0_t1_loop.ub k0_t1_loop.st)))
      = sc7.view.read (Elt F) (sc7.view.writes (Elt F) f' (PB1 c i M1 h1 M2 h2 M3 h3 M4 h4 X2 X3 (Scf.trips k0_t1_loop.lb k0_t1_loop.ub k0_t1_loop.st))) :=
    funext fun y => View.read_writes_apply_eq sc7.view f sc7.view f' y _ (PB1_cover c i M1 h1 M2 h2 M3 h3 M4 h4 X2 X3 y)
  exact key

end

end Cert.KernelIdeal.Hand

end
-- ==== Proof.KIObl.lean ====
/-
  The body obligation of the kernel's launch, the run of @main and the frame: the body's run at each grid
  point on the staging buffers the pipeline passes, the scratch handed to it at whatever it holds.
-/
import proofs.«419406_j17239998726835_3_alg».proof.Proof.KIData
import proofs.«419406_j17239998726835_3_alg».proof.Proof.KICover

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's buffer does not depend on what the two operand scratch buffers held on entry:
    the second loop's row and column stores are functions of the first cloud's block and of the right operand's column
    tiles alone, and the eight trips of the first loop overwrite the whole right operand. -/
theorem Y_indep (c : Dev nD) (i : grid0.Coords)
    (M1 : Memref sig .tc .vmem S1x8192x64 .f32) (h1 : M1.IsWhole) (M2 : Memref sig .tc .vmem S1x64x8192 .bf16) (h2 : M2.IsWhole)
    (M3 : Memref sig .tc .vmem S1x1x8192 .f32) (h3 : M3.IsWhole) (M4 : Memref sig .tc .vmem S1x1x128 .f32) (h4 : M4.IsWhole)
    (x1 : Vec F S1x8192x64 .f32) (x2 : Vec F S1x64x8192 .bf16) (x3 : Vec F S1x1x8192 .f32)
    (j7 j7' : Vec F S68x8192 .bf16) (j8 j8' : Vec F S1024x68 .bf16) :
    (kernelRun c i M1 h1 M2 h2 M3 h3 M4 h4 x1 x2 x3 j7 j8).1 = (kernelRun c i M1 h1 M2 h2 M3 h3 M4 h4 x1 x2 x3 j7' j8').1 := by
  rw [Y_eq, Y_eq]
  unfold kernelRun.sl.v10 kernelRun.sl.v15
  have e := @PB2_eq F _ c i M1 h1 M2 h2 M3 h3 M4 h4
  unfold PB2 at e
  have e1 := fun X1 X7 G5 G6 G8 n => (e X1 X7 G5 G6 G8 n).1
  have e2 := fun X1 X7 G5 G6 G8 n => (e X1 X7 G5 G6 G8 n).2
  simp only [e1, e2]
  rw [X7_indep c i M1 h1 M2 h2 M3 h3 M4 h4 (h2.unread x2) (h3.unread x3) ((Memref.isWhole_whole _).unread j7) ((Memref.isWhole_whole _).unread j7')]

/-! ## The body obligation -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl, PhiA_eq]
  unfold outsAt
  iintro ⟨⟨⟨H5, H6, ⟨%d7, H7⟩, ⟨%d8, H8⟩⟩, HR⟩, Ho, ⟨%d0, H0⟩, ⟨%d1, H1⟩, ⟨%d2, H2⟩, ⟨%d3, H3⟩⟩
  rw [Y_indep c (grid0.coords t) (ms0_0 t) (hs0_0 t) (ms0_1 t) (hs0_1 t) (ms0_2 t) (hs0_2 t) (ms0_3 t) (hs0_3 t)
    (iblk m c 0 t) (iblk m c 1 t) (iblk m c 2 t) j7₀ d7 j8₀ d8]
  iapply ((kernelRun c (grid0.coords t) (ms0_0 t) (hs0_0 t) (ms0_1 t) (hs0_1 t) (ms0_2 t) (hs0_2 t) (ms0_3 t) (hs0_3 t)
    (iblk m c 0 t) (iblk m c 1 t) (iblk m c 2 t) d7 d8).2 Set.univ _)
  isplitl [H0]; · iexact H0
  isplitl [H1]; · iexact H1
  isplitl [H2]; · iexact H2
  isplitl [H3]; · iexists _; iexact H3
  isplitl [H5]; · iexact H5
  isplitl [H6]; · iexact H6
  isplitl [H7]; · iexact H7
  isplitl [H8]; · iexact H8
  iintro ⟨H0, H1, H2, H3, H5, H6, H7, H8⟩
  isplitl [H5 H6 H7 H8 HR]
  · isplitr [HR]
    · isplitl [H5]; · iexact H5
      isplitl [H6]; · iexact H6
      isplitl [H7]; · iexact H7
      iexact H8
    · iexact HR
  isplitl [Ho]; · iexact Ho
  isplitl [H0]; · iexact H0
  isplitl [H1]; · iexact H1
  isplitl [H2]; · iexact H2
  iexact H3

/-! ## The run and the frame -/

set_option backward.isDefEq.respectTransparency.types false in
/-- Every weakly fair execution of @main terminates, and every final state has every array of the pipeline at what
    the library computes from the proof data and every other unscoped buffer at what the host lines after the
    region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The frame: the argument arrays end as they started. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

end Cert.KernelIdeal.Hand

end
-- ==== Proof.Spec.lean ====
/-
  The mathematics of the chamfer distance, stated once over the extended reals and free of any program.

  For two clouds of 8192 points in dimension 64 per batch (4 batches) the squared distance of point n of
  the first cloud to point m of the second is  -2·⟨x_n, y_m⟩ + |x_n|² + |y_m|².  The quantity computed is the
  mean over the batches of (mean over n of the least distance to any y_m) + (mean over m of the least
  distance to any x_n).

  Two spellings are given. The "H" one is the textbook one (a whole inner product scaled by -2, the two
  squared norms added afterwards; least elements as folds of min over a whole axis). The "K" one is a
  tiled arrangement: the inner product is taken over 68 lanes, 64 of them carrying -2·x_n against y_m and four
  carrying (|x|², |x|²-|x|², 1, 1) against (1, 1, |y|², |y|²-|y|²); least elements are taken tile by tile
  (8 tiles of 1024) and the tiles' results are combined one after the other starting from +∞.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A batch of point clouds: batch, point, coordinate. -/
abbrev Pts := (⟨3, ![4, 8192, 64]⟩ : Shape).Idx → EReal

/-- The float literals the two programs share, kept as their binary words. -/
abbrev negTwo : EReal := Ideal.ofBits .f32 0xC0000000#32
abbrev one32 : EReal := Ideal.ofBits .f32 0x3F800000#32
abbrev pinf : EReal := Ideal.ofBits .f32 0x7F800000#32
abbrev zero32 : EReal := Ideal.ofBits .f32 0x00000000#32
abbrev c8192 : EReal := Ideal.ofBits .f32 0x46000000#32
abbrev c4 : EReal := Ideal.ofBits .f32 0x40800000#32

/-! ## The textbook spelling -/

def dotH (X Y : Pts) (b : Fin 4) (n m : Fin 8192) : EReal := ∑ d : Fin 64, X (ix3 b n d) * Y (ix3 b m d)
def ssqH (Z : Pts) (b : Fin 4) (n : Fin 8192) : EReal := zero32 + ∑ d : Fin 64, Z (ix3 b n d) * Z (ix3 b n d)
def distH (X Y : Pts) (b : Fin 4) (n m : Fin 8192) : EReal := (negTwo * dotH X Y b n m + ssqH X b n) + ssqH Y b m
def rowMinH (X Y : Pts) (b : Fin 4) (n : Fin 8192) : EReal :=
  (Finset.univ : Finset (Fin 8192)).fold min pinf (fun m => distH X Y b n m)
def colMinH (X Y : Pts) (b : Fin 4) (m : Fin 8192) : EReal :=
  (Finset.univ : Finset (Fin 8192)).fold min pinf (fun n => distH X Y b n m)
def perBatchH (X Y : Pts) (b : Fin 4) : EReal :=
  Ideal.div (zero32 + ∑ n : Fin 8192, rowMinH X Y b n) c8192 + Ideal.div (zero32 + ∑ m : Fin 8192, colMinH X Y b m) c8192
def resultH (X Y : Pts) : EReal := Ideal.div (zero32 + ∑ b : Fin 4, perBatchH X Y b) c4

/-! ## The tiled spelling, over one batch's blocks: `xb n d` the first cloud, `yt d m` the second cloud
    transposed, `sq m` the second cloud's squared norms -/

def ssqK (xb : Fin 8192 → Fin 64 → EReal) (n : Fin 8192) : EReal := ∑ d : Fin 64, xb n d * xb n d
/-- The 68 lanes of the left operand at point n. -/
def lhsK (xb : Fin 8192 → Fin 64 → EReal) (n : Fin 8192) (k : Fin 68) : EReal :=
  if h : k.val < 64 then negTwo * xb n ⟨k.val, h⟩
  else if k.val = 64 then ssqK xb n else if k.val = 65 then ssqK xb n - ssqK xb n else one32
/-- The 68 lanes of the right operand at point m. -/
def rhsK (yt : Fin 64 → Fin 8192 → EReal) (sq : Fin 8192 → EReal) (k : Fin 68) (m : Fin 8192) : EReal :=
  if h : k.val < 64 then yt ⟨k.val, h⟩ m
  else if k.val < 66 then one32 else if k.val = 66 then sq m else sq m - sq m
def distK (xb : Fin 8192 → Fin 64 → EReal) (yt : Fin 64 → Fin 8192 → EReal) (sq : Fin 8192 → EReal) (n m : Fin 8192) : EReal :=
  ∑ k : Fin 68, lhsK xb n k * rhsK yt sq k m
/-- Element r of tile a. -/
def tileIdx (a : Fin 8) (r : Fin 1024) : Fin 8192 := ⟨a.val * 1024 + r.val, by omega⟩
def tileRow (xb : Fin 8192 → Fin 64 → EReal) (yt : Fin 64 → Fin 8192 → EReal) (sq : Fin 8192 → EReal) (n : Fin 8192) (mi : Fin 8) : EReal :=
  (Finset.univ : Finset (Fin 1024)).fold min pinf (fun j => distK xb yt sq n (tileIdx mi j))
def tileCol (xb : Fin 8192 → Fin 64 → EReal) (yt : Fin 64 → Fin 8192 → EReal) (sq : Fin 8192 → EReal) (ni : Fin 8) (m : Fin 8192) : EReal :=
  (Finset.univ : Finset (Fin 1024)).fold min pinf (fun r => distK xb yt sq (tileIdx ni r) m)
/-- Eight tiles' results combined one after the other, starting from +∞. -/
def nest8 (f : Fin 8 → EReal) : EReal :=
  min (min (min (min (min (min (min (min pinf (f 0)) (f 1)) (f 2)) (f 3)) (f 4)) (f 5)) (f 6)) (f 7)
def rowK (xb : Fin 8192 → Fin 64 → EReal) (yt : Fin 64 → Fin 8192 → EReal) (sq : Fin 8192 → EReal) (n : Fin 8192) : EReal :=
  nest8 (tileRow xb yt sq n)
def colK (xb : Fin 8192 → Fin 64 → EReal) (yt : Fin 64 → Fin 8192 → EReal) (sq : Fin 8192 → EReal) (m : Fin 8192) : EReal :=
  nest8 (fun ni => tileCol xb yt sq ni m)
def batchK (xb : Fin 8192 → Fin 64 → EReal) (yt : Fin 64 → Fin 8192 → EReal) (sq : Fin 8192 → EReal) : EReal :=
  Ideal.div (∑ n : Fin 8192, rowK xb yt sq n) c8192 + Ideal.div (∑ m : Fin 8192, colK xb yt sq m) c8192
/-- The tiled spelling of the whole result: batch b's blocks cut out of the two clouds. -/
def resultK (X Y : Pts) : EReal :=
  Ideal.div (zero32 + ∑ b : Fin 4, batchK (fun n d => X (ix3 b n d)) (fun d m => Y (ix3 b m d)) (fun m => ssqH Y b m)) c4

end Cert.Spec

end
-- ==== Proof.KerPayB.lean ====
/-
  Stored values read at an index, at the exact (extended-real) float instance, each as a function of the loaded
  vectors: two rows of 8192 entries are +∞ everywhere; for a loaded block x of 1024 points with 64 coordinates, 64
  lanes carry -2·x and four more carry (|x|², |x|² - |x|², 1, 1) with |x|² the sum of the 64 squares; a loaded block
  of 64 by 1024 is carried as it is, and for a loaded row s four sublanes carry (1, 1, s, s - s); for two loaded rows
  of 8192 entries, the mean of the one plus the mean of the other, the same at every lane.
-/
import proofs.«419406_j17239998726835_3_alg».proof.Proof.Gen.KernelIdeal.Skeleton
import proofs.«419406_j17239998726835_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KerPay

open Cert.KernelIdeal Cert.KernelIdeal.Gen Cert.Spec Idealize.ShloMosaic Idealize.ShloMosaic.ValueIdx

namespace B

/-! ## Selectors over four lanes or sublanes, and the column forms of a cast and a broadcast -/

/-- A sublane selector over four rows: rows 0 and 1 take the first value, row 2 the second, row 3 the third. -/
theorem select_lt2_eq2 {α : Type} (q : Fin 4) (u a b : α) :
    Scalar.select (IntOp.cmpi .slt (BitVec.ofNat 32 q.val) 2#32) u
        (Scalar.select (IntOp.cmpi .eq (BitVec.ofNat 32 q.val) 2#32) a b)
      = if q.val < 2 then u else if q.val = 2 then a else b := by
  match q with
  | ⟨0, _⟩ => rfl
  | ⟨1, _⟩ => rfl
  | ⟨2, _⟩ => rfl
  | ⟨3, _⟩ => rfl

/-- A lane selector over four lanes: lane 0 takes the first value, lane 1 the second, lanes 2 and 3 the third. -/
theorem select_eq0_eq1 {α : Type} (q : Fin 4) (a b u : α) :
    Scalar.select (IntOp.cmpi .eq (BitVec.ofNat 32 q.val) 0#32) a
        (Scalar.select (IntOp.cmpi .eq (BitVec.ofNat 32 q.val) 1#32) b u)
      = if q.val = 0 then a else if q.val = 1 then b else u := by
  match q with
  | ⟨0, _⟩ => rfl
  | ⟨1, _⟩ => rfl
  | ⟨2, _⟩ => rfl
  | ⟨3, _⟩ => rfl

/-- A vector cast to a column reads, at row i, the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of the squared block at row r: the sum of the 64 squared coordinates of point r. -/
theorem ssq_apply (x : Vec Ideal S1x1024x64 .f32) (hφ : FKind.Formats FTy.f32)
    (hacc : (0x00000000#32 : BitVec 32) = 0x00000000#32) (r : Fin 1024) :
    multiReduction (F := Ideal) .add [1] S1024
        (mulf (F := Ideal) (φ := .f32) (shapeCast S1024x64 x shapeCasts_S1x1024x64_S1024x64)
          (shapeCast S1024x64 x shapeCasts_S1x1024x64_S1024x64))
        0x00000000#32 reduces_S1024x64_S1024 hφ hacc (ix1 r)
      = ∑ d : Fin 64, x (ix3 0 r d) * x (ix3 0 r d) := by
  refine (Ideal.multiReduction_add_single _ 0x00000000#32 reduces_S1024x64_S1024 hφ hacc (ix1 r)).trans ?_
  refine Finset.sum_congr rfl fun (d : Fin 64) _ => ?_
  have hl : reduces_S1024x64_S1024.lift (ix1 r) d = ix2 r d := by
    funext a
    match a with
    | ⟨0, _⟩ => rfl
    | ⟨1, _⟩ => rfl
  rw [hl, mulf_apply, shapeCast_1ab_ab_apply]

/-- The lane sum of a one-row vector: the sum of its 8192 entries. -/
theorem rowSum8192 (v : Vec Ideal S1x8192 .f32) (hφ : FKind.Formats FTy.f32)
    (hacc : (0x00000000#32 : BitVec 32) = 0x00000000#32) (j : S1.Idx) :
    multiReduction (F := Ideal) .add [1] S1 v 0x00000000#32 reduces_S1x8192_S1 hφ hacc j
      = ∑ n : Fin 8192, v (ix2 0 n) := by
  refine (Ideal.multiReduction_add_single v 0x00000000#32 reduces_S1x8192_S1 hφ hacc j).trans ?_
  refine Finset.sum_congr rfl fun n _ => congrArg v ?_
  funext a
  match a with
  | ⟨0, _⟩ => exact Fin.ext (by have h1 : (j 0).val < 1 := (j 0).isLt; show (j 0).val = 0; omega)
  | ⟨1, _⟩ => rfl

end B

open B

/-! ## The stored values at an index -/

/-- A row of 8192 entries, +∞ everywhere. -/
theorem pay1_apply (j : S1x8192.Idx) : k0_pay1 (F := Ideal) j = pinf := by
  unfold k0_pay1
  rw [shapeCast_self]
  rfl

/-- Another row of 8192 entries, +∞ everywhere. -/
theorem pay2_apply (j : S1x8192.Idx) : k0_pay2 (F := Ideal) j = pinf := by
  unfold k0_pay2
  rw [shapeCast_self]
  rfl

/-- The loaded block of 64 by 1024, entry by entry. -/
theorem pay3_apply (x : Vec Ideal S1x64x1024 .bf16) (d : Fin 64) (c : Fin 1024) :
    k0_pay3 (F := Ideal) x (ix2 d c) = x (ix3 0 d c) := by
  unfold k0_pay3
  rw [shapeCast_self]
  exact shapeCast_1ab_ab_apply x _ d c

/-- The 64 coordinate lanes: -2 times the loaded block. -/
theorem pay10_apply (x : Vec Ideal S1x1024x64 .f32) (r : Fin 1024) (d : Fin 64) :
    k0_pay10 (F := Ideal) x (ix2 r d) = negTwo * x (ix3 0 r d) := by
  unfold k0_pay10 k0_pay9
  rw [shapeCast_self]
  show negTwo * shapeCast S1024x64 x shapeCasts_S1x1024x64_S1024x64 (ix2 r d) = _
  rw [shapeCast_1ab_ab_apply]

/-- Four sublanes at column c: 1, 1, the loaded row's entry, and that entry's difference with itself. -/
theorem pay4_apply (x : Vec Ideal S1x1x1024 .f32) (q : Fin 4) (c : Fin 1024) :
    k0_pay4 (F := Ideal) x (ix2 q c) = (if q.val < 2 then one32 else if q.val = 2 then x (ix3 0 0 c) else x (ix3 0 0 c) - x (ix3 0 0 c)) := by
  unfold k0_pay4
  simp only [shapeCast_self]
  show Scalar.select (IntOp.cmpi .slt (iota .tc S4x1024 32 [0] iota_S4x1024_d0_w32 (ix2 q c)) 2#32) one32
        (Scalar.select (IntOp.cmpi .eq (iota .tc S4x1024 32 [0] iota_S4x1024_d0_w32 (ix2 q c)) 2#32)
          (broadcastTo S4x1024 (shapeCast S1x1024 x shapeCasts_S1x1x1024_S1x1024) broadcasts_S1x1024_S4x1024 (ix2 q c))
          (broadcastTo S4x1024
            (subf (F := Ideal) (φ := .f32) (shapeCast S1x1024 x shapeCasts_S1x1x1024_S1x1024)
              (shapeCast S1x1024 x shapeCasts_S1x1x1024_S1x1024))
            broadcasts_S1x1024_S4x1024 (ix2 q c))) = _
  rw [iota_single_apply, broadcastTo_1b_ab_apply, broadcastTo_1b_ab_apply, subf_apply, shapeCast_1ab_ab_apply]
  exact select_lt2_eq2 q _ _ _

/-- Four lanes at row r: the sum of the 64 squared coordinates, its difference with itself, 1, 1. -/
theorem pay11_apply (x : Vec Ideal S1x1024x64 .f32) (r : Fin 1024) (q : Fin 4) :
    k0_pay11 (F := Ideal) x (ix2 r q) = (if q.val = 0 then (∑ d : Fin 64, x (ix3 0 r d) * x (ix3 0 r d)) else if q.val = 1 then (∑ d : Fin 64, x (ix3 0 r d) * x (ix3 0 r d)) - (∑ d : Fin 64, x (ix3 0 r d) * x (ix3 0 r d)) else one32) := by
  unfold k0_pay11 k0_pay9
  simp only [shapeCast_self]
  show Scalar.select (IntOp.cmpi .eq (iota .tc S1024x4 32 [1] iota_S1024x4_d1_w32 (ix2 r q)) 0#32)
        (broadcastTo S1024x4 (shapeCast S1024x1 _ shapeCasts_S1024_S1024x1) broadcasts_S1024x1_S1024x4 (ix2 r q))
        (Scalar.select (IntOp.cmpi .eq (iota .tc S1024x4 32 [1] iota_S1024x4_d1_w32 (ix2 r q)) 1#32)
          (broadcastTo S1024x4
            (subf (F := Ideal) (φ := .f32) (shapeCast S1024x1 _ shapeCasts_S1024_S1024x1)
              (shapeCast S1024x1 _ shapeCasts_S1024_S1024x1))
            broadcasts_S1024x1_S1024x4 (ix2 r q))
          one32) = _
  rw [iota_single_apply, broadcastTo_a1_ab_apply, broadcastTo_a1_ab_apply, subf_apply, shapeCast_a_a1_apply, ssq_apply]
  exact select_eq0_eq1 q _ _ _

/-- The mean of the first row's 8192 entries plus the mean of the second row's, at every lane. -/
theorem pay8_apply (v10 v15 : Vec Ideal S1x8192 .f32) (j : S1x1x128.Idx) :
    k0_pay8 (F := Ideal) v10 v15 j
      = Ideal.div (∑ n : Fin 8192, v10 (ix2 0 n)) c8192 + Ideal.div (∑ m : Fin 8192, v15 (ix2 0 m)) c8192 := by
  obtain ⟨a, b, l, rfl⟩ : ∃ (a : Fin 1) (b : Fin 1) (l : Fin 128), j = ix3 a b l := ⟨j 0, j 1, j 2, eq_ix3 j⟩
  unfold k0_pay8
  rw [shapeCast_ab_1ab_apply]
  rw [broadcastTo_apply _ _ (ix2 b l) (ix2 (0 : Fin 1) (0 : Fin 1))
    (fun ax => match ax with | ⟨0, _⟩ => rfl | ⟨1, _⟩ => rfl)]
  rw [shapeCast_self]
  show Ideal.div (shapeCast S1x1 _ shapeCasts_S1_S1x1 (ix2 0 0)) c8192
      + Ideal.div (shapeCast S1x1 _ shapeCasts_S1_S1x1 (ix2 0 0)) c8192 = _
  rw [shapeCast_a_1a_apply, shapeCast_a_1a_apply, rowSum8192, rowSum8192]

end Cert.KerPay

end
-- ==== Proof.KIRhs.lean ====
import proofs.«419406_j17239998726835_3_alg».proof.Proof.KICover
import proofs.«419406_j17239998726835_3_alg».proof.Proof.Spec
import proofs.«419406_j17239998726835_3_alg».proof.Proof.KerPayB

noncomputable section

namespace Cert.KernelIdeal.Hand

open Cert.KernelIdeal Cert.KernelIdeal.Gen
open Idealize.ShloMosaic Idealize.ShloMosaic.TcCoe
open Idealize.SL Idealize.SL.Sem

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)

/-! ## The contents of the augmented right operand at the exact float instance -/

open Cert.Spec Idealize.ShloMosaic.ValueIdx

/-- The right operand's 68 lanes as a function of the buffer's index. -/
def rhsG (yt : Fin 64 → Fin 8192 → EReal) (sq : Fin 8192 → EReal) (y : S68x8192.Idx) : Elt Ideal .bf16 :=
  rhsK yt sq ⟨(y 0).val, idx2_lt0 y⟩ ⟨(y 1).val, idx2_lt1 y⟩

theorem rhsG_eq (yt : Fin 64 → Fin 8192 → EReal) (sq : Fin 8192 → EReal) (y : S68x8192.Idx) (r : Fin 68) (m : Fin 8192)
    (h0 : (y 0).val = r.val) (h1 : (y 1).val = m.val) : rhsG yt sq y = rhsK yt sq r m := by
  unfold rhsG
  congr 1
  · exact Fin.ext h0
  · exact Fin.ext h1

/-- The four bias lanes of the right operand: 1, 1, the squared norm, its difference with itself. -/
theorem rhsK_bias (yt : Fin 64 → Fin 8192 → EReal) (sq : Fin 8192 → EReal) (q : Fin 4) (m : Fin 8192) (h : 64 + q.val < 68) :
    rhsK yt sq ⟨64 + q.val, h⟩ m = (if q.val < 2 then one32 else if q.val = 2 then sq m else sq m - sq m) := by
  obtain ⟨q, hq⟩ := q
  interval_cases q <;> simp [rhsK]

/-- The 64 coordinate lanes of the right operand. -/
theorem rhsK_coord (yt : Fin 64 → Fin 8192 → EReal) (sq : Fin 8192 → EReal) (d : Fin 64) (m : Fin 8192) (h : d.val < 68) :
    rhsK yt sq ⟨d.val, h⟩ m = yt d m := by
  unfold rhsK
  rw [dif_pos (show (⟨d.val, h⟩ : Fin 68).val < 64 from d.isLt)]

/-- Column c of trip k's loaded row of squared norms sits at column 1024·k + c of the row. -/
theorem idx_off2 (k : Fin k0_t1_loop.trips) (cc : Fin 1024) (hk : 1024 * k.val + cc.val < 8192) :
    (Rect.unit (s := S1x1x8192) (k0_off2 k) S1x1x1024.size (k0_off2_inb k)).toLoadRect.idx (ix3 0 0 cc)
      = ix3 0 0 ⟨1024 * k.val + cc.val, hk⟩ := by
  funext a
  apply Fin.ext
  rw [LoadRect.idx_apply]
  show k0_off2 k a + 1 * ((ix3 (0 : Fin 1) (0 : Fin 1) cc) a).val = _
  rw [k0_off2_eq]
  fin_cases a <;> simp

/-- Entry (d, c) of trip k's loaded block of the transposed cloud sits at column 1024·k + c of row d. -/
theorem idx_off1 (k : Fin k0_t1_loop.trips) (d : Fin 64) (cc : Fin 1024) (hk : 1024 * k.val + cc.val < 8192) :
    (Rect.unit (s := S1x64x8192) (k0_off1 k) S1x64x1024.size (k0_off1_inb k)).toLoadRect.idx (ix3 0 d cc)
      = ix3 0 d ⟨1024 * k.val + cc.val, hk⟩ := by
  funext a
  apply Fin.ext
  rw [LoadRect.idx_apply]
  show k0_off1 k a + 1 * ((ix3 (0 : Fin 1) d cc) a).val = _
  rw [k0_off1_eq]
  fin_cases a <;> simp

/-- Each store of trip k is a block of the right operand's lanes. -/
theorem TL1_block (X2 : BufTy.Contents (Elt Ideal) M2.view.ty) (X3 : BufTy.Contents (Elt Ideal) M3.view.ty) (k : Fin k0_t1_loop.trips) :
    ∀ p ∈ TL1 (F := Ideal) c i M1 h1 M2 h2 M3 h3 M4 h4 X2 X3 k, ∀ x : p.1.shape.Idx,
      p.2 x = rhsG (fun d m => M2.view.read (Elt Ideal) X2 (ix3 0 d m)) (fun m => M3.view.read (Elt Ideal) X3 (ix3 0 0 m)) (p.1.emb x) := by
  have hk8 : k.val < 8 := Nat.lt_of_lt_of_le k.isLt k0_t1_abs.2.1
  intro p hp
  unfold TL1 at hp
  rw [tripL1_eq] at hp
  simp only [List.mem_cons, List.not_mem_nil, or_false] at hp
  rcases hp with rfl | rfl
  · intro x
    obtain ⟨q, cc, rfl⟩ : ∃ (q : Fin 4) (cc : Fin 1024), x = ix2 q cc := ⟨x 0, x 1, eq_ix2 x⟩
    have hq := q.isLt
    have hc := cc.isLt
    refine (Cert.KerPay.pay4_apply _ q cc).trans ?_
    rw [View.readAt_apply, idx_off2 k cc (by omega)]
    rw [rhsG_eq _ _ _ ⟨64 + q.val, by omega⟩ ⟨1024 * k.val + cc.val, by omega⟩
      (by rw [Rect.emb_apply]; show k0_off4 k 0 + 1 * q.val = 64 + q.val; rw [k0_off4_eq]; simp)
      (by rw [Rect.emb_apply]; show k0_off4 k 1 + 1 * cc.val = 1024 * k.val + cc.val; rw [k0_off4_eq]; simp)]
    rw [rhsK_bias]
  · intro x
    obtain ⟨d, cc, rfl⟩ : ∃ (d : Fin 64) (cc : Fin 1024), x = ix2 d cc := ⟨x 0, x 1, eq_ix2 x⟩
    have hd := d.isLt
    have hc := cc.isLt
    have e3 := Cert.KerPay.pay3_apply (View.readAt (Elt Ideal) M2.view (Rect.unit (s := S1x64x8192) (k0_off1 k) S1x64x1024.size (k0_off1_inb k)).toLoadRect X2) d cc
    refine e3.trans ?_
    rw [View.readAt_apply, idx_off1 k d cc (by omega)]
    rw [rhsG_eq _ _ _ ⟨d.val, by omega⟩ ⟨1024 * k.val + cc.val, by omega⟩
      (by rw [Rect.emb_apply]; show k0_off3 k 0 + 1 * d.val = d.val; rw [k0_off3_eq]; simp)
      (by rw [Rect.emb_apply]; show k0_off3 k 1 + 1 * cc.val = 1024 * k.val + cc.val; rw [k0_off3_eq]; simp)]
    rw [rhsK_coord]

/-- Every store of the trips before trip n is a block of the right operand's lanes. -/
theorem PB1_block (X2 : BufTy.Contents (Elt Ideal) M2.view.ty) (X3 : BufTy.Contents (Elt Ideal) M3.view.ty) :
    ∀ n, n ≤ k0_t1_loop.trips → ∀ p ∈ PB1 (F := Ideal) c i M1 h1 M2 h2 M3 h3 M4 h4 X2 X3 n, ∀ x : p.1.shape.Idx,
      p.2 x = rhsG (fun d m => M2.view.read (Elt Ideal) X2 (ix3 0 d m)) (fun m => M3.view.read (Elt Ideal) X3 (ix3 0 0 m)) (p.1.emb x)
  | 0, _ => fun p hp => absurd hp List.not_mem_nil
  | n + 1, hn => by
    intro p hp
    rw [PB1_succ c i M1 h1 M2 h2 M3 h3 M4 h4 X2 X3 n (by omega)] at hp
    rcases List.mem_append.mp hp with h | h
    · exact TL1_block c i M1 h1 M2 h2 M3 h3 M4 h4 X2 X3 ⟨n, by omega⟩ p h
    · exact PB1_block X2 X3 n (by omega) p h

/-- After the eight trips the augmented right operand holds, at row k and column m, lane k of the right operand at
    point m: the transposed cloud in rows below 64, then 1, 1, the squared norm and its difference with itself. -/
theorem X7_apply (X2 : BufTy.Contents (Elt Ideal) M2.view.ty) (X3 : BufTy.Contents (Elt Ideal) M3.view.ty)
    (f : BufTy.Contents (Elt Ideal) sc7.view.ty) (k : Fin 68) (m : Fin 8192) :
    sc7.view.read (Elt Ideal) (sc7.view.writes (Elt Ideal) f
        (PB1 (F := Ideal) c i M1 h1 M2 h2 M3 h3 M4 h4 X2 X3 (Scf.trips k0_t1_loop.lb k0_t1_loop.ub k0_t1_loop.st))) (ValueIdx.ix2 k m)
      = Cert.Spec.rhsK (fun d m => M2.view.read (Elt Ideal) X2 (ValueIdx.ix3 0 d m)) (fun m => M3.view.read (Elt Ideal) X3 (ValueIdx.ix3 0 0 m)) k m := by
  rw [View.read_writes_apply_eq_canon sc7.view f (ix2 k m) _ (PB1_cover c i M1 h1 M2 h2 M3 h3 M4 h4 X2 X3 (ix2 k m))]
  rw [View.canon_apply_of_pieces
    (rhsG (fun d m => M2.view.read (Elt Ideal) X2 (ix3 0 d m)) (fun m => M3.view.read (Elt Ideal) X3 (ix3 0 0 m))) _
    (PB1_block c i M1 h1 M2 h2 M3 h3 M4 h4 X2 X3 _ le_rfl) (ix2 k m) (PB1_cover c i M1 h1 M2 h2 M3 h3 M4 h4 X2 X3 (ix2 k m))]
  exact rhsG_eq _ _ _ k m rfl rfl

end

end Cert.KernelIdeal.Hand

end
-- ==== Proof.KILhs.lean ====
/-
  The augmented left tile read at an index. Row tile k of the first cloud's block is its points k·1024 … k·1024 + 1023;
  the tile's 68 lanes at row r are the 68 lanes of the left operand at point k·1024 + r: lanes 0 … 63 carry -2 times
  the point's coordinates, lane 64 the sum of the 64 squared coordinates, lane 65 that sum's difference with itself,
  lanes 66 and 67 the constant 1.
-/
import proofs.«419406_j17239998726835_3_alg».proof.Proof.KIOpen
import proofs.«419406_j17239998726835_3_alg».proof.Proof.Spec
import proofs.«419406_j17239998726835_3_alg».proof.Proof.KerPayB

noncomputable section

namespace Cert.KernelIdeal.Hand

open Cert.KernelIdeal Cert.KernelIdeal.Gen Cert.Spec Cert.KerPay
open Idealize.ShloMosaic Idealize.ShloMosaic.ValueIdx

/-- Row tile k of the first cloud's block read at (0, r, d): the block at point k·1024 + r. -/
theorem ld1_apply (M1 : Memref sig .tc .vmem S1x8192x64 .f32) (X1 : BufTy.Contents (Elt Ideal) M1.view.ty)
    (k : Fin k0_t2_loop.trips) (hk : k.val < 8) (r : Fin 1024) (d : Fin 64) :
    ld1 (F := Ideal) M1 X1 k (ix3 0 r d) = M1.view.read (Elt Ideal) X1 (ix3 0 (tileIdx ⟨k.val, hk⟩ r) d) := by
  unfold ld1
  rw [View.readAt_apply]
  congr 1
  funext a
  apply Fin.ext
  rw [LoadRect.idx_apply]
  match a with
  | ⟨0, _⟩ =>
    show k0_off5 k 0 + 1 * 0 = 0
    rw [congrFun (k0_off5_eq k) 0]
    rfl
  | ⟨1, _⟩ =>
    show k0_off5 k 1 + 1 * r.val = k.val * 1024 + r.val
    rw [congrFun (k0_off5_eq k) 1]
    show 1024 * k.val + 1 * r.val = k.val * 1024 + r.val
    omega
  | ⟨2, _⟩ =>
    show k0_off5 k 2 + 1 * d.val = d.val
    rw [congrFun (k0_off5_eq k) 2]
    show 0 + 1 * d.val = d.val
    omega

theorem lhsTile_apply (M1 : Memref sig .tc .vmem S1x8192x64 .f32) (X1 : BufTy.Contents (Elt Ideal) M1.view.ty)
    (k : Fin k0_t2_loop.trips) (hk : k.val < 8) (r : Fin 1024) (k' : Fin 68) :
    lhsTile (F := Ideal) M1 X1 k (ix2 r k')
      = lhsK (fun n d => M1.view.read (Elt Ideal) X1 (ix3 0 n d)) (tileIdx ⟨k.val, hk⟩ r) k' := by
  unfold lhsTile
  rw [View.readCov_eq_canon']
  unfold lhsPieces
  beta_reduce
  by_cases h : k'.val < 64
  · have hy : (Rect.unit (s := S1024x68) ![0, 0] S1024x68.size inb_S1024x68_S1024x68_0_0).toLoadRect.idx (ix2 r k')
        = (Rect.unit (s := S1024x68) ![0, 0] S1024x64.size inb_S1024x68_S1024x64_0_0).emb (ix2 r ⟨k'.val, h⟩) := by
      funext a
      match a with
      | ⟨0, _⟩ => rfl
      | ⟨1, _⟩ => rfl
    have hn : (Rect.unit (s := S1024x68) ![0, 0] S1024x68.size inb_S1024x68_S1024x68_0_0).toLoadRect.idx (ix2 r k')
        ∉ (Rect.unit (s := S1024x68) ![0, 64] S1024x4.size inb_S1024x68_S1024x4_0_64).set := by
      rw [Rect.mem_set_unit]
      intro hall
      have h1 := (hall 1).1
      have h2 : (((Rect.unit (s := S1024x68) ![0, 0] S1024x68.size inb_S1024x68_S1024x68_0_0).toLoadRect.idx (ix2 r k')) 1).val = 0 + 1 * k'.val := rfl
      rw [h2] at h1
      have h3 : (![0, 64] : Fin 2 → ℕ) 1 = 64 := rfl
      rw [h3] at h1
      omega
    rw [View.canon_cons_of_not_mem
      (⟨Rect.unit (s := S1024x68) ![0, 64] S1024x4.size inb_S1024x68_S1024x4_0_64, k0_pay11 (ld1 M1 X1 k)⟩ : View.Piece (Elt Ideal) S1024x68 .bf16)
      [⟨Rect.unit (s := S1024x68) ![0, 0] S1024x64.size inb_S1024x68_S1024x64_0_0, k0_pay10 (ld1 M1 X1 k)⟩] hn]
    rw [hy]
    rw [View.canon_cons_emb (Val := Elt Ideal) (e := .bf16) (Rect.unit (s := S1024x68) ![0, 0] S1024x64.size inb_S1024x68_S1024x64_0_0) (k0_pay10 (ld1 M1 X1 k)) [] (ix2 r ⟨k'.val, h⟩)]
    rw [pay10_apply (ld1 M1 X1 k) r ⟨k'.val, h⟩]
    rw [ld1_apply M1 X1 k hk]
    unfold lhsK
    rw [dif_pos h]
  · have hlt : k'.val - 64 < 4 := by have := k'.isLt; omega
    have hy : (Rect.unit (s := S1024x68) ![0, 0] S1024x68.size inb_S1024x68_S1024x68_0_0).toLoadRect.idx (ix2 r k')
        = (Rect.unit (s := S1024x68) ![0, 64] S1024x4.size inb_S1024x68_S1024x4_0_64).emb (ix2 r ⟨k'.val - 64, hlt⟩) := by
      funext a
      apply Fin.ext
      match a with
      | ⟨0, _⟩ => rfl
      | ⟨1, _⟩ =>
        show 0 + 1 * k'.val = 64 + 1 * (k'.val - 64)
        omega
    rw [hy]
    rw [View.canon_cons_emb (Val := Elt Ideal) (e := .bf16) (Rect.unit (s := S1024x68) ![0, 64] S1024x4.size inb_S1024x68_S1024x4_0_64) (k0_pay11 (ld1 M1 X1 k))
      [⟨Rect.unit (s := S1024x68) ![0, 0] S1024x64.size inb_S1024x68_S1024x64_0_0, k0_pay10 (ld1 M1 X1 k)⟩] (ix2 r ⟨k'.val - 64, hlt⟩)]
    rw [pay11_apply (ld1 M1 X1 k) r ⟨k'.val - 64, hlt⟩]
    simp only [ld1_apply M1 X1 k hk]
    unfold lhsK ssqK
    rw [dif_neg h]
    by_cases h64 : k'.val = 64
    · rw [if_pos (show k'.val - 64 = 0 by omega), if_pos h64]
    · rw [if_neg (show ¬ (k'.val - 64 = 0) by omega), if_neg h64]
      by_cases h65 : k'.val = 65
      · rw [if_pos (show k'.val - 64 = 1 by omega), if_pos h65]
      · rw [if_neg (show ¬ (k'.val - 64 = 1) by omega), if_neg h65]

end Cert.KernelIdeal.Hand

end
-- ==== Proof.KerPayA.lean ====
import proofs.«419406_j17239998726835_3_alg».proof.Proof.Gen.KernelIdeal.Skeleton
import proofs.«419406_j17239998726835_3_alg».proof.Proof.Spec
import proofs.«419406_j17239998726835_3_alg».proof.Proof.KIDefs
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KerPay

open Cert.KernelIdeal Cert.KernelIdeal.Gen Cert.KernelIdeal.Hand Cert.Spec
open Idealize.ShloMosaic Idealize.ShloMosaic.ValueIdx

/-- Entry (r, c) of the product of a 1024 × 68 matrix with a 68 × 1024 matrix. -/
def mm (v62 : Vec Ideal S1024x68 .bf16) (w : Vec Ideal S68x1024 .bf16) (r c : Fin 1024) : EReal :=
  ∑ k' : Fin 68, v62 (ix2 r k') * w (ix2 k' c)
/-- The least entry of column c, starting from +∞. -/
def colMin (M : Fin 1024 → Fin 1024 → EReal) (c : Fin 1024) : EReal :=
  (Finset.univ : Finset (Fin 1024)).fold min pinf (fun r => M r c)
/-- The least entry of row r, starting from +∞. -/
def rowMin (M : Fin 1024 → Fin 1024 → EReal) (r : Fin 1024) : EReal :=
  (Finset.univ : Finset (Fin 1024)).fold min pinf (fun c => M r c)

/-! ## The product at an index -/

theorem lhs_mm_0 (i : S1024x1024.Idx) (q : dot_S1024x68_S68x1024_S1024x1024_1_0_0_1_n_n.contr.Idx) :
    (dot_S1024x68_S68x1024_S1024x1024_1_0_0_1_n_n.lhsIdx i q 0).val = (i 0).val := by
  unfold DotDims.lhsIdx
  rw [dif_neg (show ¬(0 : Fin S1024x68.rank) ∈ dot_S1024x68_S68x1024_S1024x1024_1_0_0_1_n_n.lhsBatch by decide), dif_pos (show (0 : Fin S1024x68.rank) ∈ dot_S1024x68_S68x1024_S1024x1024_1_0_0_1_n_n.lhsNonContracting by decide)]
  rfl
theorem lhs_mm_1 (i : S1024x1024.Idx) (q : dot_S1024x68_S68x1024_S1024x1024_1_0_0_1_n_n.contr.Idx) :
    (dot_S1024x68_S68x1024_S1024x1024_1_0_0_1_n_n.lhsIdx i q 1).val = (q ⟨0, by decide⟩).val :=
  dot_S1024x68_S68x1024_S1024x1024_1_0_0_1_n_n.lhsIdx_val_of_single rfl i q
theorem rhs_mm_0 (i : S1024x1024.Idx) (q : dot_S1024x68_S68x1024_S1024x1024_1_0_0_1_n_n.contr.Idx) :
    (dot_S1024x68_S68x1024_S1024x1024_1_0_0_1_n_n.rhsIdx i q 0).val = (q ⟨0, by decide⟩).val :=
  dot_S1024x68_S68x1024_S1024x1024_1_0_0_1_n_n.rhsIdx_val_of_single rfl i q
theorem rhs_mm_1 (i : S1024x1024.Idx) (q : dot_S1024x68_S68x1024_S1024x1024_1_0_0_1_n_n.contr.Idx) :
    (dot_S1024x68_S68x1024_S1024x1024_1_0_0_1_n_n.rhsIdx i q 1).val = (i 1).val := by
  unfold DotDims.rhsIdx
  rw [dif_neg (show ¬(1 : Fin S68x1024.rank) ∈ dot_S1024x68_S68x1024_S1024x1024_1_0_0_1_n_n.rhsBatch by decide), dif_pos (show (1 : Fin S68x1024.rank) ∈ dot_S1024x68_S68x1024_S1024x1024_1_0_0_1_n_n.rhsNonContracting by decide)]
  rfl

/-- The product into the zero matrix, read at (r, c): the sum over the 68 lanes. -/
theorem matmul_ix2 (v62 : Vec Ideal S1024x68 .bf16) (w : Vec Ideal S68x1024 .bf16) (r c : Fin 1024) :
    matmul (F := Ideal) (φ₁ := .bf16) (φ₂ := .bf16) dot_S1024x68_S68x1024_S1024x1024_1_0_0_1_n_n none v62 w (constant (F := Ideal) S1024x1024 .f32 0x00000000#32) (ix2 r c)
      = mm v62 w r c := by
  simp only [matmul]
  rw [Ideal.matmul_constant_zero_apply, ← Equiv.sum_comp (contrEquiv1 dot_S1024x68_S68x1024_S1024x1024_1_0_0_1_n_n 68 rfl rfl).symm]
  unfold mm
  refine Finset.sum_congr rfl fun k _ => ?_
  have hk := contrEquiv1_symm_val dot_S1024x68_S68x1024_S1024x1024_1_0_0_1_n_n 68 rfl rfl k
  have el : dot_S1024x68_S68x1024_S1024x1024_1_0_0_1_n_n.lhsIdx (ix2 r c) ((contrEquiv1 dot_S1024x68_S68x1024_S1024x1024_1_0_0_1_n_n 68 rfl rfl).symm k) = ix2 r k := funext fun a => Fin.ext (by
    match a with
    | ⟨0, _⟩ => exact lhs_mm_0 _ _
    | ⟨1, _⟩ => exact (lhs_mm_1 _ _).trans hk)
  have er : dot_S1024x68_S68x1024_S1024x1024_1_0_0_1_n_n.rhsIdx (ix2 r c) ((contrEquiv1 dot_S1024x68_S68x1024_S1024x1024_1_0_0_1_n_n 68 rfl rfl).symm k) = ix2 k c := funext fun a => Fin.ext (by
    match a with
    | ⟨0, _⟩ => exact (rhs_mm_0 _ _).trans hk
    | ⟨1, _⟩ => exact rhs_mm_1 _ _)
  rw [el, er]

theorem pay13_apply (v62 : Vec Ideal S1024x68 .bf16) (w : Vec Ideal S68x1024 .bf16) (r c : Fin 1024) :
    k0_pay13 (F := Ideal) v62 w (ix2 r c) = mm v62 w r c := matmul_ix2 v62 w r c
theorem pay15_apply (v62 : Vec Ideal S1024x68 .bf16) (w : Vec Ideal S68x1024 .bf16) (r c : Fin 1024) :
    k0_pay15 (F := Ideal) v62 w (ix2 r c) = mm v62 w r c := matmul_ix2 v62 w r c
theorem pay18_apply (v62 : Vec Ideal S1024x68 .bf16) (w : Vec Ideal S68x1024 .bf16) (r c : Fin 1024) :
    k0_pay18 (F := Ideal) v62 w (ix2 r c) = mm v62 w r c := matmul_ix2 v62 w r c
theorem pay20_apply (v62 : Vec Ideal S1024x68 .bf16) (w : Vec Ideal S68x1024 .bf16) (r c : Fin 1024) :
    k0_pay20 (F := Ideal) v62 w (ix2 r c) = mm v62 w r c := matmul_ix2 v62 w r c
theorem pay23_apply (v62 : Vec Ideal S1024x68 .bf16) (w : Vec Ideal S68x1024 .bf16) (r c : Fin 1024) :
    k0_pay23 (F := Ideal) v62 w (ix2 r c) = mm v62 w r c := matmul_ix2 v62 w r c
theorem pay26_apply (v62 : Vec Ideal S1024x68 .bf16) (w : Vec Ideal S68x1024 .bf16) (r c : Fin 1024) :
    k0_pay26 (F := Ideal) v62 w (ix2 r c) = mm v62 w r c := matmul_ix2 v62 w r c
theorem pay29_apply (v62 : Vec Ideal S1024x68 .bf16) (w : Vec Ideal S68x1024 .bf16) (r c : Fin 1024) :
    k0_pay29 (F := Ideal) v62 w (ix2 r c) = mm v62 w r c := matmul_ix2 v62 w r c
theorem pay5_apply (v62 : Vec Ideal S1024x68 .bf16) (w : Vec Ideal S68x1024 .bf16) (r c : Fin 1024) :
    k0_pay5 (F := Ideal) v62 w (ix2 r c) = mm v62 w r c := matmul_ix2 v62 w r c

/-! ## The least entry along one axis of a 1024 × 1024 matrix -/

/-- The reduction along the rows (axis 0) read at column c: the fold of min over the rows. -/
theorem minRed0 (src : FVec Ideal S1024x1024 .f32) (h : S1024x1024.Reduces [0] S1024) (hφ : FKind.Formats .f32)
    (hacc : (0x7F800000#32 : BitVec 32) = FKind.minimumf.neutral .f32 hφ) (c : Fin 1024) :
    multiReduction (F := Ideal) .minimumf [0] S1024 src 0x7F800000#32 h hφ hacc (ix1 c)
      = (Finset.univ : Finset (Fin 1024)).fold min pinf (fun r => src (ix2 r c)) := by
  refine ((multiReduction_minimumf_eq_fold src _ h hφ hacc (ix1 c)).trans
    (h.fold_filter_drop_single _ _ src (ix1 c))).trans ?_
  show (Finset.univ : Finset (Fin 1024)).fold min pinf (src ∘ h.lift (ix1 c)) = _
  refine congrArg (fun f => (Finset.univ : Finset (Fin 1024)).fold min pinf f) (funext fun r => congrArg src ?_)
  funext a
  match a with
  | ⟨0, _⟩ => rfl
  | ⟨1, _⟩ => rfl

/-- The reduction along the columns (axis 1) read at row r: the fold of min over the columns. -/
theorem minRed1 (src : FVec Ideal S1024x1024 .f32) (h : S1024x1024.Reduces [1] S1024) (hφ : FKind.Formats .f32)
    (hacc : (0x7F800000#32 : BitVec 32) = FKind.minimumf.neutral .f32 hφ) (r : Fin 1024) :
    multiReduction (F := Ideal) .minimumf [1] S1024 src 0x7F800000#32 h hφ hacc (ix1 r)
      = (Finset.univ : Finset (Fin 1024)).fold min pinf (fun c => src (ix2 r c)) := by
  refine ((multiReduction_minimumf_eq_fold src _ h hφ hacc (ix1 r)).trans
    (h.fold_filter_drop_single _ _ src (ix1 r))).trans ?_
  show (Finset.univ : Finset (Fin 1024)).fold min pinf (src ∘ h.lift (ix1 r)) = _
  refine congrArg (fun f => (Finset.univ : Finset (Fin 1024)).fold min pinf f) (funext fun c => congrArg src ?_)
  funext a
  match a with
  | ⟨0, _⟩ => rfl
  | ⟨1, _⟩ => rfl

/-- A vector of length a made a column: at (i, u) it reads the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The column minima taken into a running vector -/

theorem pay19_apply (v104 : FVec Ideal S1024x1024 .f32) (a : Vec Ideal S1x1024 .f32) (c : Fin 1024) :
    k0_pay19 (F := Ideal) v104 a (ix2 0 c) = min (a (ix2 0 c)) (colMin (fun r c => v104 (ix2 r c)) c) := by
  unfold k0_pay19
  dsimp only
  rw [shapeCast_self]
  refine (minimumf_apply (φ := .f32) _ _ _).trans ?_
  refine congrArg (min (a (ix2 0 c))) ?_
  refine (shapeCast_a_1a_apply _ _ 0 c).trans ?_
  exact minRed0 v104 _ _ _ c

/-- The column stage over a product: the running vector against the column minima of the product. -/
theorem colStage_mm (v62 : Vec Ideal S1024x68 .bf16) (w : Vec Ideal S68x1024 .bf16) (M : FVec Ideal S1024x1024 .f32)
    (hM : ∀ r c : Fin 1024, M (ix2 r c) = mm v62 w r c) (a : Vec Ideal S1x1024 .f32) (c : Fin 1024) :
    k0_pay19 (F := Ideal) M a (ix2 0 c) = min (a (ix2 0 c)) (colMin (mm v62 w) c) := by
  rw [pay19_apply]
  refine congrArg (min (a (ix2 0 c))) ?_
  unfold colMin
  exact congrArg (fun f => (Finset.univ : Finset (Fin 1024)).fold min pinf f) (funext fun r => hM r c)

theorem pay14_apply (v62 : Vec Ideal S1024x68 .bf16) (w : Vec Ideal S68x1024 .bf16) (a : Vec Ideal S1x1024 .f32) (c : Fin 1024) :
    k0_pay14 (F := Ideal) v62 w a (ix2 0 c) = min (a (ix2 0 c)) (colMin (mm v62 w) c) :=
  colStage_mm v62 w (k0_pay13 (F := Ideal) v62 w) (pay13_apply v62 w) a c
theorem pay16_apply (v62 : Vec Ideal S1024x68 .bf16) (w : Vec Ideal S68x1024 .bf16) (a : Vec Ideal S1x1024 .f32) (c : Fin 1024) :
    k0_pay16 (F := Ideal) v62 w a (ix2 0 c) = min (a (ix2 0 c)) (colMin (mm v62 w) c) :=
  colStage_mm v62 w (k0_pay15 (F := Ideal) v62 w) (pay15_apply v62 w) a c
theorem pay21_apply (v62 : Vec Ideal S1024x68 .bf16) (w : Vec Ideal S68x1024 .bf16) (a : Vec Ideal S1x1024 .f32) (c : Fin 1024) :
    k0_pay21 (F := Ideal) v62 w a (ix2 0 c) = min (a (ix2 0 c)) (colMin (mm v62 w) c) :=
  colStage_mm v62 w (k0_pay20 (F := Ideal) v62 w) (pay20_apply v62 w) a c
theorem pay27_apply (v62 : Vec Ideal S1024x68 .bf16) (w : Vec Ideal S68x1024 .bf16) (a : Vec Ideal S1x1024 .f32) (c : Fin 1024) :
    k0_pay27 (F := Ideal) v62 w a (ix2 0 c) = min (a (ix2 0 c)) (colMin (mm v62 w) c) :=
  colStage_mm v62 w (k0_pay26 (F := Ideal) v62 w) (pay26_apply v62 w) a c
theorem pay30_apply (v62 : Vec Ideal S1024x68 .bf16) (w : Vec Ideal S68x1024 .bf16) (a : Vec Ideal S1x1024 .f32) (c : Fin 1024) :
    k0_pay30 (F := Ideal) v62 w a (ix2 0 c) = min (a (ix2 0 c)) (colMin (mm v62 w) c) :=
  colStage_mm v62 w (k0_pay29 (F := Ideal) v62 w) (pay29_apply v62 w) a c
theorem pay6_apply (v62 : Vec Ideal S1024x68 .bf16) (w : Vec Ideal S68x1024 .bf16) (a : Vec Ideal S1x1024 .f32) (c : Fin 1024) :
    k0_pay6 (F := Ideal) v62 w a (ix2 0 c) = min (a (ix2 0 c)) (colMin (mm v62 w) c) :=
  colStage_mm v62 w (k0_pay5 (F := Ideal) v62 w) (pay5_apply v62 w) a c

/-- The same stage without the closing cast of the row to itself. -/
theorem pay24_apply (v62 : Vec Ideal S1024x68 .bf16) (w : Vec Ideal S68x1024 .bf16) (a : Vec Ideal S1x1024 .f32) (c : Fin 1024) :
    k0_pay24 (F := Ideal) v62 w a (ix2 0 c) = min (a (ix2 0 c)) (colMin (mm v62 w) c) := by
  refine Eq.trans ?_ (colStage_mm v62 w (k0_pay23 (F := Ideal) v62 w) (pay23_apply v62 w) a c)
  unfold k0_pay24 k0_pay19
  dsimp only
  rw [shapeCast_self]

theorem pay25_apply (v145 : FVec Ideal S1x1024 .f32) (c : Fin 1024) :
    k0_pay25 (F := Ideal) v145 (ix2 0 c) = v145 (ix2 0 c) := by
  unfold k0_pay25
  rw [shapeCast_self]

/-! ## The row minima, transposed, taken into a running vector -/

/-- The row minima of a matrix made a column and transposed: at (0, r) the least entry of row r. -/
theorem rowMinT_apply (M : FVec Ideal S1024x1024 .f32) (r : Fin 1024) :
    transpose S1x1024 [1, 0]
        (shapeCast S1024x1 (multiReduction (F := Ideal) .minimumf [1] S1024 M 0x7F800000#32 reduces_S1024x1024_S1024_2 (.inl rfl) rfl)
          shapeCasts_S1024_S1024x1)
        transposes_S1024x1_p1_0_S1x1024 (ix2 0 r)
      = rowMin (fun r c => M (ix2 r c)) r := by
  refine (transpose_ix2_apply _ _ 0 r).trans ?_
  refine (shapeCast_a_a1_apply _ _ r 0).trans ?_
  exact minRed1 M _ _ _ r

/-- The same over a product. -/
theorem rowMinT_mm (v62 : Vec Ideal S1024x68 .bf16) (w : Vec Ideal S68x1024 .bf16) (M : FVec Ideal S1024x1024 .f32)
    (hM : ∀ r c : Fin 1024, M (ix2 r c) = mm v62 w r c) (r : Fin 1024) :
    transpose S1x1024 [1, 0]
        (shapeCast S1024x1 (multiReduction (F := Ideal) .minimumf [1] S1024 M 0x7F800000#32 reduces_S1024x1024_S1024_2 (.inl rfl) rfl)
          shapeCasts_S1024_S1024x1)
        transposes_S1024x1_p1_0_S1x1024 (ix2 0 r)
      = rowMin (mm v62 w) r := by
  rw [rowMinT_apply]
  unfold rowMin
  exact congrArg (fun f => (Finset.univ : Finset (Fin 1024)).fold min pinf f) (funext fun c => hM r c)

theorem pay12_apply (r : Fin 1024) : k0_pay12 (F := Ideal) (ix2 0 r) = pinf := rfl

theorem pay17_apply (v62 : Vec Ideal S1024x68 .bf16) (v63 : FVec Ideal S1x1024 .f32) (w1 w2 : Vec Ideal S68x1024 .bf16) (r : Fin 1024) :
    k0_pay17 (F := Ideal) v62 v63 w1 w2 (ix2 0 r)
      = min (min (v63 (ix2 0 r)) (rowMin (mm v62 w1) r)) (rowMin (mm v62 w2) r) := by
  unfold k0_pay17
  dsimp only
  refine (minimumf_apply (φ := .f32) _ _ _).trans ?_
  refine congrArg₂ min ((minimumf_apply (φ := .f32) _ _ _).trans (congrArg (min (v63 (ix2 0 r))) ?_)) ?_
  · exact rowMinT_mm v62 w1 _ (pay13_apply v62 w1) r
  · exact rowMinT_mm v62 w2 _ (pay15_apply v62 w2) r

theorem pay22_apply (v62 : Vec Ideal S1024x68 .bf16) (v99 : FVec Ideal S1x1024 .f32) (v104 : FVec Ideal S1024x1024 .f32)
    (w : Vec Ideal S68x1024 .bf16) (r : Fin 1024) :
    k0_pay22 (F := Ideal) v62 v99 v104 w (ix2 0 r)
      = min (min (v99 (ix2 0 r)) (rowMin (fun r c => v104 (ix2 r c)) r)) (rowMin (mm v62 w) r) := by
  unfold k0_pay22
  dsimp only
  refine (minimumf_apply (φ := .f32) _ _ _).trans ?_
  refine congrArg₂ min ((minimumf_apply (φ := .f32) _ _ _).trans (congrArg (min (v99 (ix2 0 r))) ?_)) ?_
  · exact rowMinT_apply v104 r
  · exact rowMinT_mm v62 w _ (pay20_apply v62 w) r

theorem pay28_apply (v62 : Vec Ideal S1024x68 .bf16) (v135 : FVec Ideal S1x1024 .f32) (v140 : FVec Ideal S1024x1024 .f32)
    (w : Vec Ideal S68x1024 .bf16) (r : Fin 1024) :
    k0_pay28 (F := Ideal) v62 v135 v140 w (ix2 0 r)
      = min (min (v135 (ix2 0 r)) (rowMin (fun r c => v140 (ix2 r c)) r)) (rowMin (mm v62 w) r) := by
  unfold k0_pay28
  dsimp only
  refine (minimumf_apply (φ := .f32) _ _ _).trans ?_
  refine congrArg₂ min ((minimumf_apply (φ := .f32) _ _ _).trans (congrArg (min (v135 (ix2 0 r))) ?_)) ?_
  · exact rowMinT_apply v140 r
  · exact rowMinT_mm v62 w _ (pay26_apply v62 w) r

theorem pay7_apply (v62 : Vec Ideal S1024x68 .bf16) (v171 : FVec Ideal S1x1024 .f32) (v176 : FVec Ideal S1024x1024 .f32)
    (w : Vec Ideal S68x1024 .bf16) (r : Fin 1024) :
    k0_pay7 (F := Ideal) v62 v171 v176 w (ix2 0 r)
      = min (min (v171 (ix2 0 r)) (rowMin (fun r c => v176 (ix2 r c)) r)) (rowMin (mm v62 w) r) := by
  unfold k0_pay7
  dsimp only
  rw [shapeCast_self]
  refine (minimumf_apply (φ := .f32) _ _ _).trans ?_
  refine congrArg₂ min ((minimumf_apply (φ := .f32) _ _ _).trans (congrArg (min (v171 (ix2 0 r))) ?_)) ?_
  · exact rowMinT_apply v176 r
  · exact rowMinT_mm v62 w _ (pay5_apply v62 w) r

/-- The row minima of one row tile against eight column tiles, combined one after the other from +∞. -/
theorem rowChain_apply (v62 : Vec Ideal S1024x68 .bf16) (ld7 : Fin 8 → Vec Ideal S68x1024 .bf16) (r : Fin 1024) :
    rowChain (F := Ideal) v62 ld7 (ix2 0 r) = nest8 (fun j => rowMin (mm v62 (ld7 j)) r) := by
  unfold rowChain
  rw [pay7_apply, pay28_apply, pay22_apply, pay17_apply, pay12_apply]
  simp only [pay29_apply, pay23_apply, pay18_apply]
  rfl

end Cert.KerPay

end
-- ==== Proof.KIRows.lean ====
/-
  The row-minimum buffer after the second loop, read at an index. Trip k stores, at columns k·1024 … k·1024 + 1023 of a
  row of 8192 entries, the running row minimum of row tile k through the eight column tiles; with the left tile's lanes
  and the right tiles' lanes as the tiled spelling has them, the product's entry (r, c) against column tile j is the tiled
  distance of points k·1024 + r and j·1024 + c, so the stored entry r is the tiled row minimum of point k·1024 + r. The
  eight stores are blocks of one function of the column and cover the row, so the +∞ the row held before is read nowhere.
-/
import proofs.«419406_j17239998726835_3_alg».proof.Proof.KIPB
import proofs.«419406_j17239998726835_3_alg».proof.Proof.Spec
import proofs.«419406_j17239998726835_3_alg».proof.Proof.KerPayA
import proofs.«419406_j17239998726835_3_alg».proof.Proof.KerPayB
import Idealize.ShloMosaic.Lib.Pipeline.CanonAppend

noncomputable section

namespace Cert.KernelIdeal.Hand

open Cert.KernelIdeal Cert.KernelIdeal.Gen Cert.Spec Cert.KerPay
open Idealize.ShloMosaic Idealize.ShloMosaic.ValueIdx

/-- The product of an augmented left tile with an augmented right tile, entry by entry: the tiled distance of the two
    points the entry names. -/
theorem mm_eq_distK (lhs : Vec Ideal S1024x68 .bf16) (wj : Vec Ideal S68x1024 .bf16)
    (xb : Fin 8192 → Fin 64 → EReal) (yt : Fin 64 → Fin 8192 → EReal) (sq : Fin 8192 → EReal) (a j : Fin 8)
    (hl : ∀ (r : Fin 1024) (k' : Fin 68), lhs (ix2 r k') = lhsK xb (tileIdx a r) k')
    (hw : ∀ (k' : Fin 68) (cc : Fin 1024), wj (ix2 k' cc) = rhsK yt sq k' (tileIdx j cc)) (r cc : Fin 1024) :
    mm lhs wj r cc = distK xb yt sq (tileIdx a r) (tileIdx j cc) := by
  unfold mm distK
  exact Finset.sum_congr rfl fun k' _ => by rw [hl, hw]

/-- The running row minimum of row tile a through the eight column tiles, at local row r: the tiled row minimum
    of point a·1024 + r. -/
theorem rowChain_eq_rowK (lhs : Vec Ideal S1024x68 .bf16) (w : Fin 8 → Vec Ideal S68x1024 .bf16)
    (xb : Fin 8192 → Fin 64 → EReal) (yt : Fin 64 → Fin 8192 → EReal) (sq : Fin 8192 → EReal) (a : Fin 8)
    (hl : ∀ (r : Fin 1024) (k' : Fin 68), lhs (ix2 r k') = lhsK xb (tileIdx a r) k')
    (hw : ∀ (j : Fin 8) (k' : Fin 68) (cc : Fin 1024), w j (ix2 k' cc) = rhsK yt sq k' (tileIdx j cc)) (r : Fin 1024) :
    rowChain (F := Ideal) lhs w (ix2 0 r) = rowK xb yt sq (tileIdx a r) := by
  rw [rowChain_apply]
  unfold rowK
  refine congrArg nest8 (funext fun j => ?_)
  unfold rowMin tileRow
  exact congrArg (fun f => (Finset.univ : Finset (Fin 1024)).fold min pinf f)
    (funext fun cc => mm_eq_distK lhs (w j) xb yt sq a j hl (hw j) r cc)

section
variable (M1 : Memref sig .tc .vmem S1x8192x64 .f32) (X1 : BufTy.Contents (Elt Ideal) M1.view.ty)
  (w : Fin 8 → Vec Ideal S68x1024 .bf16)

/-- Trip k's store of the row minima of row tile k. -/
abbrev rowPiece (k : Fin k0_t2_loop.trips) : View.Piece (Elt Ideal) S1x8192 .f32 :=
  ⟨Rect.unit (s := S1x8192) (k0_off8 k) S1x1024.size (k0_off8_inb k), rowChain (F := Ideal) (lhsTile M1 X1 k) w⟩

/-- Every row store of the trips before trip n is some trip's store. -/
theorem mem_rowsPB : ∀ (n : ℕ) (p : View.Piece (Elt Ideal) S1x8192 .f32), p ∈ rowsPB (F := Ideal) M1 X1 w n →
    ∃ k : Fin k0_t2_loop.trips, p = rowPiece M1 X1 w k
  | 0, p, hp => by rw [rowsPB] at hp; exact absurd hp List.not_mem_nil
  | n + 1, p, hp => by
    rw [rowsPB] at hp
    by_cases h : n < k0_t2_loop.trips
    · rw [dif_pos h] at hp
      rcases List.mem_append.mp hp with hp | hp
      · exact ⟨⟨n, h⟩, List.mem_singleton.mp hp⟩
      · exact mem_rowsPB n p hp
    · rw [dif_neg h] at hp
      exact mem_rowsPB n p hp

/-- Trip k's row store is among the row stores of the trips before trip n, for k < n. -/
theorem rowPiece_mem (k : Fin k0_t2_loop.trips) : ∀ (n : ℕ), k.val < n → rowPiece M1 X1 w k ∈ rowsPB (F := Ideal) M1 X1 w n
  | 0, hk => absurd hk (Nat.not_lt_zero _)
  | n + 1, hk => by
    rw [rowsPB]
    by_cases h : n < k0_t2_loop.trips
    · rw [dif_pos h]
      rcases Nat.lt_succ_iff_lt_or_eq.mp hk with hlt | heq
      · exact List.mem_append_right _ (rowPiece_mem k n hlt)
      · refine List.mem_append_left _ ?_
        have hk' : k = ⟨n, h⟩ := Fin.ext heq
        rw [hk']
        exact List.mem_singleton.mpr rfl
    · have : k.val < n := by have := k.isLt; omega
      rw [dif_neg h]
      exact rowPiece_mem k n this

end

/-- The tiled row minima laid out along the row buffer: index (0, n) holds point n's. -/
def rowsG (xb : Fin 8192 → Fin 64 → EReal) (yt : Fin 64 → Fin 8192 → EReal) (sq : Fin 8192 → EReal) :
    S1x8192.Idx → Elt Ideal (.f32 : EltTy) :=
  fun y => rowK xb yt sq ⟨(y 1).val, (y 1).isLt⟩

theorem trips2_eq : k0_t2_loop.trips = 8 := by decide +kernel

/-- Trip k's row store is a block of the tiled row minima. -/
theorem rowPiece_block (M1 : Memref sig .tc .vmem S1x8192x64 .f32) (X1 : BufTy.Contents (Elt Ideal) M1.view.ty)
    (w : Fin 8 → Vec Ideal S68x1024 .bf16)
    (xb : Fin 8192 → Fin 64 → EReal) (yt : Fin 64 → Fin 8192 → EReal) (sq : Fin 8192 → EReal)
    (hl : ∀ (k : Fin k0_t2_loop.trips) (hk : k.val < 8) (r : Fin 1024) (k' : Fin 68), lhsTile (F := Ideal) M1 X1 k (ix2 r k') = lhsK xb (tileIdx ⟨k.val, hk⟩ r) k')
    (hw : ∀ (j : Fin 8) (k' : Fin 68) (cc : Fin 1024), w j (ix2 k' cc) = rhsK yt sq k' (tileIdx j cc))
    (k : Fin k0_t2_loop.trips) (x : (rowPiece M1 X1 w k).1.shape.Idx) :
    (rowPiece M1 X1 w k).2 x = rowsG xb yt sq ((rowPiece M1 X1 w k).1.emb x) := by
  have hk : k.val < 8 := trips2_eq ▸ k.isLt
  obtain ⟨a, r, rfl⟩ : ∃ (a : Fin 1) (r : Fin 1024), x = ix2 a r := ⟨x 0, x 1, eq_ix2 x⟩
  obtain rfl : a = 0 := Subsingleton.elim _ _
  show rowChain (F := Ideal) (lhsTile M1 X1 k) w (ix2 0 r) = _
  rw [rowChain_eq_rowK (lhsTile M1 X1 k) w xb yt sq ⟨k.val, hk⟩ (hl k hk) hw r]
  unfold rowsG
  refine congrArg (rowK xb yt sq) (Fin.ext ?_)
  show k.val * 1024 + r.val = k0_off8 k 1 + 1 * r.val
  rw [k0_off8_eq]
  show k.val * 1024 + r.val = 1024 * k.val + 1 * r.val
  omega

/-- Index (0, n) of the row buffer lies in the store of trip n / 1024. -/
theorem rowPiece_cover (M1 : Memref sig .tc .vmem S1x8192x64 .f32) (X1 : BufTy.Contents (Elt Ideal) M1.view.ty)
    (w : Fin 8 → Vec Ideal S68x1024 .bf16) (n : Fin 8192) (h : n.val / 1024 < k0_t2_loop.trips) :
    (ix2 (0 : Fin 1) n : S1x8192.Idx) ∈ (rowPiece M1 X1 w ⟨n.val / 1024, h⟩).1.set := by
  refine (Rect.mem_set_unit (inb := k0_off8_inb _)).mpr fun a => ?_
  rw [k0_off8_eq]
  match a with
  | ⟨0, _⟩ =>
    show 0 ≤ 0 ∧ 0 < 0 + 1
    omega
  | ⟨1, _⟩ =>
    show 1024 * (n.val / 1024) ≤ n.val ∧ n.val < 1024 * (n.val / 1024) + 1024
    omega

/-- The row-minimum buffer after the loop, read at index (0, n): the tiled row minimum of point n; the +∞ fill made
    before the loop is under the eight trips' stores everywhere. -/
theorem rows_apply (M1 : Memref sig .tc .vmem S1x8192x64 .f32) (X1 : BufTy.Contents (Elt Ideal) M1.view.ty) (w : Fin 8 → Vec Ideal S68x1024 .bf16)
    (xb : Fin 8192 → Fin 64 → EReal) (yt : Fin 64 → Fin 8192 → EReal) (sq : Fin 8192 → EReal)
    (hl : ∀ (k : Fin k0_t2_loop.trips) (hk : k.val < 8) (r : Fin 1024) (k' : Fin 68), lhsTile (F := Ideal) M1 X1 k (ix2 r k') = lhsK xb (tileIdx ⟨k.val, hk⟩ r) k')
    (hw : ∀ (j : Fin 8) (k' : Fin 68) (cc : Fin 1024), w j (ix2 k' cc) = rhsK yt sq k' (tileIdx j cc))
    (n : Fin 8192) :
    View.canon (rowsPB (F := Ideal) M1 X1 w (Scf.trips k0_t2_loop.lb k0_t2_loop.ub k0_t2_loop.st)
        ++ [(⟨Rect.unit (s := S1x8192) ![0, 0] S1x8192.size inb_S1x8192_S1x8192_0_0, k0_pay1 (F := Ideal)⟩ : View.Piece (Elt Ideal) S1x8192 .f32)]) (ix2 0 n)
      = rowK xb yt sq n := by
  have hn : n.val / 1024 < k0_t2_loop.trips := by rw [trips2_eq]; have := n.isLt; omega
  refine (View.canon_append_of_pieces (rowsG xb yt sq) _ _ (fun p hp x => ?_) (ix2 0 n)
    ⟨rowPiece M1 X1 w ⟨n.val / 1024, hn⟩, rowPiece_mem M1 X1 w _ _ hn, rowPiece_cover M1 X1 w n hn⟩).trans ?_
  · obtain ⟨k, rfl⟩ := mem_rowsPB M1 X1 w _ p hp
    exact rowPiece_block M1 X1 w xb yt sq hl hw k x
  · rfl

end Cert.KernelIdeal.Hand

end
-- ==== Proof.KICols.lean ====
/-
  The running column-minimum row after the kernel's second loop, read at an index. The row is filled with +∞; trip n
  then replaces, in each of the eight column tiles, every entry by the minimum of what it held and the least distance from
  the 1024 points of row tile n to that column's point. After the eight trips column m holds the eight row tiles' least
  distances to point m of the second cloud combined one after the other starting from +∞.
-/
import proofs.«419406_j17239998726835_3_alg».proof.Proof.KIPB
import proofs.«419406_j17239998726835_3_alg».proof.Proof.Spec
import proofs.«419406_j17239998726835_3_alg».proof.Proof.KerPayA
import proofs.«419406_j17239998726835_3_alg».proof.Proof.KerPayB
import Idealize.ShloMosaic.Lib.Pipeline.CanonAppend
import Idealize.ShloMosaic.Lib.Writes

noncomputable section

namespace Cert.KernelIdeal.Hand

open Cert.KernelIdeal Cert.KernelIdeal.Gen Cert.Spec Cert.KerPay
open Idealize.ShloMosaic Idealize.ShloMosaic.ValueIdx

/-- The one store that fills the running column minima with +∞. -/
abbrev fill6 : List (View.Piece (Elt Ideal) S1x8192 .f32) :=
  [(⟨Rect.unit (s := S1x8192) ![0, 0] S1x8192.size inb_S1x8192_S1x8192_0_0, k0_pay2 (F := Ideal)⟩ : View.Piece (Elt Ideal) S1x8192 .f32)]

/-- The running column minima's contents when the loop starts. -/
abbrev G6 : BufTy.Contents (Elt Ideal) sc6.view.ty := sc6.view.writes (Elt Ideal) sc6.view.junk fill6

/-- The column of an index of the row buffer, as a point of the second cloud. -/
def colOf (y : S1x8192.Idx) : Fin 8192 := ⟨(y 1).val, (y 1).isLt⟩

/-- After the fill alone every entry is +∞. -/
theorem canon_fill6 (y : S1x8192.Idx) : View.canon fill6 y = pinf := by
  unfold fill6
  rw [View.canon_unit_zero (S := S1x8192) (by funext a; fin_cases a <;> rfl) inb_S1x8192_S1x8192_0_0]
  exact pay2_apply y

/-- Each of a trip's eight stores is at column tile j for some j, and its payload at column c of the tile is the minimum of
    what was loaded there and the column minimum of the product of the left tile with column tile j. -/
theorem colPieces_spec (lhs : Vec Ideal S1024x68 .bf16) (w : Fin 8 → Vec Ideal S68x1024 .bf16) (a : Fin 8 → Vec Ideal S1x1024 .f32) :
    ∀ p ∈ colPieces (F := Ideal) lhs w a, ∃ (j : Fin 8) (f : (bx6 j).shape.Idx → Elt Ideal .f32),
      p = ⟨bx6 j, f⟩ ∧ ∀ cc : Fin 1024, f (ix2 0 cc) = min (a j (ix2 0 cc)) (colMin (mm lhs (w j)) cc) := by
  intro p hp
  simp only [colPieces, List.mem_cons, List.not_mem_nil, or_false] at hp
  rcases hp with rfl | rfl | rfl | rfl | rfl | rfl | rfl | rfl
  · exact ⟨7, _, rfl, pay6_apply _ _ _⟩
  · exact ⟨6, _, rfl, pay30_apply _ _ _⟩
  · exact ⟨5, _, rfl, pay27_apply _ _ _⟩
  · exact ⟨4, _, rfl, fun cc => (pay25_apply _ cc).trans (pay24_apply _ _ _ cc)⟩
  · exact ⟨3, _, rfl, pay21_apply _ _ _⟩
  · exact ⟨2, _, rfl, fun cc => colStage_mm lhs (w 2) (k0_pay18 (F := Ideal) lhs (w 2)) (pay18_apply lhs (w 2)) (a 2) cc⟩
  · exact ⟨1, _, rfl, pay16_apply _ _ _⟩
  · exact ⟨0, _, rfl, pay14_apply _ _ _⟩

/-- Every column tile is stored by the trip. -/
theorem colPieces_cover (lhs : Vec Ideal S1024x68 .bf16) (w : Fin 8 → Vec Ideal S68x1024 .bf16) (a : Fin 8 → Vec Ideal S1x1024 .f32)
    (j : Fin 8) : ∃ p ∈ colPieces (F := Ideal) lhs w a, p.1 = bx6 j := by
  unfold colPieces
  fin_cases j
  · exact ⟨_, .tail _ (.tail _ (.tail _ (.tail _ (.tail _ (.tail _ (.tail _ (.head _))))))), rfl⟩
  · exact ⟨_, .tail _ (.tail _ (.tail _ (.tail _ (.tail _ (.tail _ (.head _)))))), rfl⟩
  · exact ⟨_, .tail _ (.tail _ (.tail _ (.tail _ (.tail _ (.head _))))), rfl⟩
  · exact ⟨_, .tail _ (.tail _ (.tail _ (.tail _ (.head _)))), rfl⟩
  · exact ⟨_, .tail _ (.tail _ (.tail _ (.head _))), rfl⟩
  · exact ⟨_, .tail _ (.tail _ (.head _)), rfl⟩
  · exact ⟨_, .tail _ (.head _), rfl⟩
  · exact ⟨_, .head _, rfl⟩

section
variable (M1 : Memref sig .tc .vmem S1x8192x64 .f32) (X1 : BufTy.Contents (Elt Ideal) M1.view.ty) (w : Fin 8 → Vec Ideal S68x1024 .bf16)

/-- What a trip loads of the running column minima after the stores L made over the fill: what L and the fill leave. -/
theorem ld6_apply (L : List (View.Piece (Elt Ideal) S1x8192 .f32)) (j : Fin 8) (x : (bx6 j).shape.Idx) :
    ld6 (F := Ideal) (sc6.view.writes (Elt Ideal) G6 L) j x = View.canon (L ++ fill6) ((bx6 j).emb x) := by
  unfold ld6 G6
  rw [View.readAt_apply, ← View.writes_append, View.read_writes_junk_apply_eq_canon]
  rfl

/-- One trip: every entry of the running column minima becomes the minimum of what it was and the least distance from
    the trip's row tile to that column's point. -/
theorem cols_step (xb : Fin 8192 → Fin 64 → EReal) (yt : Fin 64 → Fin 8192 → EReal) (sq : Fin 8192 → EReal)
    (hl : ∀ (k : Fin k0_t2_loop.trips) (hk : k.val < 8) (r : Fin 1024) (k' : Fin 68), lhsTile (F := Ideal) M1 X1 k (ix2 r k') = lhsK xb (tileIdx ⟨k.val, hk⟩ r) k')
    (hw : ∀ (j : Fin 8) (k' : Fin 68) (cc : Fin 1024), w j (ix2 k' cc) = rhsK yt sq k' (tileIdx j cc))
    (n : ℕ) (h : n < k0_t2_loop.trips) (hk : n < 8) (y : S1x8192.Idx) :
    View.canon (colsPB (F := Ideal) M1 X1 w G6 (n + 1) ++ fill6) y
      = min (View.canon (colsPB (F := Ideal) M1 X1 w G6 n ++ fill6) y) (tileCol xb yt sq ⟨n, hk⟩ (colOf y)) := by
  rw [colsPB, dif_pos h, List.append_assoc]
  refine View.canon_append_of_pieces
    (fun y => min (View.canon (colsPB (F := Ideal) M1 X1 w G6 n ++ fill6) y) (tileCol xb yt sq ⟨n, hk⟩ (colOf y))) _ _ ?_ y ?_
  · intro p hp x
    obtain ⟨j, f, rfl, hf⟩ := colPieces_spec _ _ _ p hp
    obtain ⟨u, cc, rfl⟩ : ∃ (u : Fin 1) (cc : Fin 1024), x = ix2 u cc := ⟨x 0, x 1, eq_ix2 x⟩
    obtain rfl : u = 0 := Subsingleton.elim _ _
    show f (ix2 0 cc) = _
    rw [hf cc, ld6_apply]
    refine congrArg₂ min rfl ?_
    have hc : colOf ((bx6 j).emb (ix2 0 cc)) = tileIdx j cc := Fin.ext (by simp [colOf, tileIdx])
    rw [hc]
    unfold colMin tileCol
    refine congrArg (fun g => (Finset.univ : Finset (Fin 1024)).fold min pinf g) (funext fun r => ?_)
    unfold mm distK
    exact Finset.sum_congr rfl fun k' _ => by rw [hl ⟨n, h⟩ hk r k', hw j k' cc]
  · have hy := (y 1).isLt
    obtain ⟨p, hp, hpe⟩ := colPieces_cover (lhsTile (F := Ideal) M1 X1 ⟨n, h⟩) w
      (ld6 (F := Ideal) (sc6.view.writes (Elt Ideal) G6 (colsPB (F := Ideal) M1 X1 w G6 n))) ⟨(y 1).val / 1024, by
        have : (y 1).val < 8192 := hy
        omega⟩
    refine ⟨p, hp, ?_⟩
    rw [hpe, Rect.mem_set_unit]
    intro a
    match a with
    | ⟨0, _⟩ =>
      have h0 : (y 0).val < 1 := (y 0).isLt
      exact ⟨Nat.zero_le _, by show (y 0).val < 0 + 1; omega⟩
    | ⟨1, _⟩ =>
      show (y 1).val / 1024 * 1024 ≤ (y 1).val ∧ (y 1).val < (y 1).val / 1024 * 1024 + 1024
      omega

end

/-- The running column minima after the loop, read at column m: the eight row tiles' least distances to point m of the
    second cloud, combined one after the other starting from +∞. -/
theorem cols_apply (M1 : Memref sig .tc .vmem S1x8192x64 .f32) (X1 : BufTy.Contents (Elt Ideal) M1.view.ty) (w : Fin 8 → Vec Ideal S68x1024 .bf16)
    (xb : Fin 8192 → Fin 64 → EReal) (yt : Fin 64 → Fin 8192 → EReal) (sq : Fin 8192 → EReal)
    (hl : ∀ (k : Fin k0_t2_loop.trips) (hk : k.val < 8) (r : Fin 1024) (k' : Fin 68), lhsTile (F := Ideal) M1 X1 k (ix2 r k') = lhsK xb (tileIdx ⟨k.val, hk⟩ r) k')
    (hw : ∀ (j : Fin 8) (k' : Fin 68) (cc : Fin 1024), w j (ix2 k' cc) = rhsK yt sq k' (tileIdx j cc))
    (m : Fin 8192) :
    View.canon (colsPB (F := Ideal) M1 X1 w
          (sc6.view.writes (Elt Ideal) sc6.view.junk [(⟨Rect.unit (s := S1x8192) ![0, 0] S1x8192.size inb_S1x8192_S1x8192_0_0, k0_pay2 (F := Ideal)⟩ : View.Piece (Elt Ideal) S1x8192 .f32)])
          (Scf.trips k0_t2_loop.lb k0_t2_loop.ub k0_t2_loop.st)
        ++ [(⟨Rect.unit (s := S1x8192) ![0, 0] S1x8192.size inb_S1x8192_S1x8192_0_0, k0_pay2 (F := Ideal)⟩ : View.Piece (Elt Ideal) S1x8192 .f32)]) (ix2 0 m)
      = colK xb yt sq m := by
  have h8 : Scf.trips k0_t2_loop.lb k0_t2_loop.ub k0_t2_loop.st = 8 := by decide +kernel
  have ht : k0_t2_loop.trips = 8 := h8
  have step := fun (n : ℕ) (hk : n < 8) =>
    cols_step M1 X1 w xb yt sq hl hw n (by rw [ht]; exact hk) hk (ix2 0 m)
  rw [h8]
  show View.canon (colsPB (F := Ideal) M1 X1 w G6 8 ++ fill6) (ix2 0 m) = _
  rw [step 7 (by omega), step 6 (by omega), step 5 (by omega), step 4 (by omega), step 3 (by omega), step 2 (by omega),
    step 1 (by omega), step 0 (by omega)]
  rw [show colsPB (F := Ideal) M1 X1 w G6 0 = [] from rfl, List.nil_append, canon_fill6]
  rfl

end Cert.KernelIdeal.Hand

end
-- ==== Proof.KIValue.lean ====
/-
  The value the kernel body leaves in the result's buffer at a grid point, at the ideal instance: the mean of
  the tiled row minima plus the mean of the tiled column minima of the 68-lane products, as functions of the
  three input blocks.
-/
import proofs.«419406_j17239998726835_3_alg».proof.Proof.KIData
import proofs.«419406_j17239998726835_3_alg».proof.Proof.KIRhs
import proofs.«419406_j17239998726835_3_alg».proof.Proof.KILhs
import proofs.«419406_j17239998726835_3_alg».proof.Proof.KIRows
import proofs.«419406_j17239998726835_3_alg».proof.Proof.KICols
import proofs.«419406_j17239998726835_3_alg».proof.Proof.KerPayB
import proofs.«419406_j17239998726835_3_alg».proof.Proof.Spec

noncomputable section

namespace Cert.KernelIdeal.Hand

open Cert.KernelIdeal Cert.KernelIdeal.Gen Cert.Spec Cert.KerPay
open Idealize.ShloMosaic Idealize.ShloMosaic.TcCoe Idealize.ShloMosaic.ValueIdx
open Idealize.SL Idealize.SL.Sem

theorem hz2 : (![0, 0] : Fin 2 → ℕ) = fun _ => 0 := by funext a; fin_cases a <;> rfl

section
variable (c : Dev nD) (i : grid0.Coords)
  (M1 : Memref sig .tc .vmem S1x8192x64 .f32) (h1 : M1.IsWhole) (M2 : Memref sig .tc .vmem S1x64x8192 .bf16) (h2 : M2.IsWhole)
  (M3 : Memref sig .tc .vmem S1x1x8192 .f32) (h3 : M3.IsWhole) (M4 : Memref sig .tc .vmem S1x1x128 .f32) (h4 : M4.IsWhole)
  (x1 : Vec Ideal S1x8192x64 .f32) (x2 : Vec Ideal S1x64x8192 .bf16) (x3 : Vec Ideal S1x1x8192 .f32)
  (j7 : Vec Ideal S68x8192 .bf16) (j8 : Vec Ideal S1024x68 .bf16)

/-- The right operand after the first loop. -/
abbrev X7of : BufTy.Contents (Elt Ideal) sc7.view.ty :=
  sc7.view.writes (Elt Ideal) ((Memref.isWhole_whole _).unread j7)
    (PB1 (F := Ideal) c i M1 h1 M2 h2 M3 h3 M4 h4 (h2.unread x2) (h3.unread x3) (Scf.trips k0_t1_loop.lb k0_t1_loop.ub k0_t1_loop.st))

/-- Column tile j of the right operand after the first loop holds the 68 right-hand lanes of the points of tile j. -/
theorem ld7_apply (j : Fin 8) (k' : Fin 68) (cc : Fin 1024) :
    ld7 (F := Ideal) (X7of c i M1 h1 M2 h2 M3 h3 M4 h4 x2 x3 j7) j (ix2 k' cc)
      = rhsK (fun d mm => x2 (ix3 0 d mm)) (fun mm => x3 (ix3 0 0 mm)) k' (tileIdx j cc) := by
  unfold ld7
  rw [View.readAt_apply]
  have hidx : (bx7 j).toLoadRect.idx (ix2 k' cc) = ix2 k' (tileIdx j cc) := by
    funext a; apply Fin.ext
    match a with
    | ⟨0, _⟩ => simp [LoadRect.idx, ix2, tileIdx]
    | ⟨1, _⟩ => simp [LoadRect.idx, ix2, tileIdx] <;> omega
  rw [hidx, X7_apply c i M1 h1 M2 h2 M3 h3 M4 h4 (h2.unread x2) (h3.unread x3) _ k' (tileIdx j cc), h2.read_unread x2, h3.read_unread x3]

/-- The left tile of trip k holds the 68 left-hand lanes of the points of row tile k. -/
theorem lhs_apply (k : Fin k0_t2_loop.trips) (hk : k.val < 8) (r : Fin 1024) (k' : Fin 68) :
    lhsTile (F := Ideal) M1 (h1.unread x1) k (ix2 r k') = lhsK (fun n d => x1 (ix3 0 n d)) (tileIdx ⟨k.val, hk⟩ r) k' := by
  rw [lhsTile_apply M1 (h1.unread x1) k hk r k', h1.read_unread x1]

/-- The value the run finds: the two means. -/
theorem Y_value (j : S1x1x128.Idx) :
    (kernelRun (F := Ideal) c i M1 h1 M2 h2 M3 h3 M4 h4 x1 x2 x3 j7 j8).1 j
      = batchK (fun n d => x1 (ix3 0 n d)) (fun d mm => x2 (ix3 0 d mm)) (fun mm => x3 (ix3 0 0 mm)) := by
  rw [Y_eq, pay8_apply]
  unfold batchK
  have e := @PB2_eq Ideal _ c i M1 h1 M2 h2 M3 h3 M4 h4
  unfold PB2 at e
  have e1 := fun X1 X7 G5 G6 G8 n => (e X1 X7 G5 G6 G8 n).1
  have e2 := fun X1 X7 G5 G6 G8 n => (e X1 X7 G5 G6 G8 n).2
  have hrow : ∀ n : Fin 8192, kernelRun.sl.v10 (F := Ideal) c i M1 h1 M2 h2 M3 h3 M4 h4 x1 x2 x3 j7 j8 (ix2 0 n)
      = rowK (fun n d => x1 (ix3 0 n d)) (fun d mm => x2 (ix3 0 d mm)) (fun mm => x3 (ix3 0 0 mm)) n := by
    intro n
    unfold kernelRun.sl.v10
    simp only [e1]
    rw [View.readAt_eq_ld, View.ld_unit_zero (S := S1x8192) hz2, View.read_writes_junk_eq_canon]
    exact rows_apply M1 (h1.unread x1) _ _ _ _ (lhs_apply M1 h1 x1) (ld7_apply c i M1 h1 M2 h2 M3 h3 M4 h4 x2 x3 j7) n
  have hcol : ∀ mm : Fin 8192, kernelRun.sl.v15 (F := Ideal) c i M1 h1 M2 h2 M3 h3 M4 h4 x1 x2 x3 j7 j8 (ix2 0 mm)
      = colK (fun n d => x1 (ix3 0 n d)) (fun d mm => x2 (ix3 0 d mm)) (fun mm => x3 (ix3 0 0 mm)) mm := by
    intro mm
    unfold kernelRun.sl.v15
    simp only [e2]
    rw [View.readAt_eq_ld, View.ld_unit_zero (S := S1x8192) hz2, View.read_writes_junk_eq_canon]
    exact cols_apply M1 (h1.unread x1) _ _ _ _ (lhs_apply M1 h1 x1) (ld7_apply c i M1 h1 M2 h2 M3 h3 M4 h4 x2 x3 j7) mm
  simp only [hrow, hcol]

end

/-- At every grid point the body leaves, at every lane of the result's block, the tiled spelling of that batch's
    chamfer term over the three input blocks. -/
theorem outsAt_eq (m : (ℓ : Loc nD τ sig) → Buf (Elt Ideal) ℓ) (c : Dev nD) (t : Fin cfg0.N) :
    outsAt (F := Ideal) m c t = fun _ => batchK
      (fun n d => (iblk m c 0 t : Vec Ideal S1x8192x64 .f32) (ix3 0 n d))
      (fun d mm => (iblk m c 1 t : Vec Ideal S1x64x8192 .bf16) (ix3 0 d mm))
      (fun mm => (iblk m c 2 t : Vec Ideal S1x1x8192 .f32) (ix3 0 0 mm)) := by
  funext j
  unfold outsAt
  exact Y_value c _ _ _ _ _ _ _ _ _ _ _ _ _ _ j

end Cert.KernelIdeal.Hand

end
-- ==== Proof.KIMainBlocks.lean ====
/-
  The three input blocks of a grid point read off the two clouds: point t works on batch t; the first cloud's
  block is that batch, the second cloud's block is that batch transposed, the third block is that batch's
  squared norms (zero plus the sum of squares over the coordinate axis).
-/
import proofs.«419406_j17239998726835_3_alg».proof.Proof.KIData
import proofs.«419406_j17239998726835_3_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable (m : (ℓ : Loc nD τ sig) → Buf (Elt Ideal) ℓ) (ρ : Dev nD → PrngReg)

/-- The batch a grid point works on. -/
def bOf (t : Fin cfg0.N) : Fin 4 := Fin.cast N_0 t

/-- Every window's block index at point t is (t, 0, 0). -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) :=
  (by decide +kernel : ∀ t : Fin grid0.N, _)

/-- The second cloud transposed (and converted, the identity here), as the region finds it. -/
theorem V_main_v1 (c : Dev nD) : @Eq (FVec Ideal S4x64x8192 .bf16) (V m c main_v1)
    (truncf (F := Ideal) .bf16 (transpose S4x64x8192 [0, 2, 1] (m ((c : Thread nD τ).loc main_arg1) : FVec Ideal S4x8192x64 .f32) transposes_S4x8192x64_S4x64x8192_0_2_1) bitsLt_bf16_f32) := by
  show StableHlo.after hostOps0 (fun b => m (c, b)) (Proc.devRef .tc main_v1) = _
  after_results <;> rfl

theorem V_main_v1_apply (c : Dev nD) (j : S4x64x8192.Idx) (k : S4x8192x64.Idx)
    (h0 : (k 0).val = (j 0).val) (h1 : (k 1).val = (j 2).val) (h2 : (k 2).val = (j 1).val) :
    (V m c main_v1 : S4x64x8192.Idx → EReal) j = (m ((c : Thread nD τ).loc main_arg1) : S4x8192x64.Idx → EReal) k := by
  rw [V_main_v1]
  show transpose S4x64x8192 [0, 2, 1] (m ((c : Thread nD τ).loc main_arg1)) transposes_S4x8192x64_S4x64x8192_0_2_1 j = _
  refine transpose_apply _ _ _ j k fun b => ?_
  match b with
  | ⟨0, _⟩ => exact h0
  | ⟨1, _⟩ => exact h2
  | ⟨2, _⟩ => exact h1

/-- The second cloud's squared norms, as the region finds them. -/
theorem V_main_v4 (c : Dev nD) : (V m c main_v4 : S4x1x8192.Idx → EReal) =
    broadcastInDim S4x1x8192 ![0, 2] bcast_S4x8192_S4x1x8192_0_2
      (Host.reduceAdd (mulf (m ((c : Thread nD τ).loc main_arg1)) (m ((c : Thread nD τ).loc main_arg1)))
        (constant (F := Ideal) S_ .f32 0x00000000#32) reducesTo_S4x8192x64_S4x8192_d2 h_S_) := by
  show StableHlo.after hostOps0 (fun b => m (c, b)) (Proc.devRef .tc main_v4) = _
  after_results <;> rfl

theorem V_main_v4_apply (c : Dev nD) (j : S4x1x8192.Idx) (b : Fin 4) (mm : Fin 8192)
    (h0 : (j 0).val = b.val) (h2 : (j 2).val = mm.val) :
    (V m c main_v4 : S4x1x8192.Idx → EReal) j = Cert.Spec.ssqH (m ((c : Thread nD τ).loc main_arg1)) b mm := by
  rw [V_main_v4]
  refine (broadcastInDim_apply _ bcast_S4x8192_S4x1x8192_0_2 _ j (ix2 b mm) fun a => ?_).trans ?_
  · match a with
    | ⟨0, _⟩ => exact ((if_neg (show ¬ S4x8192.size 0 = 1 by decide)).trans h0).symm
    | ⟨1, _⟩ => exact ((if_neg (show ¬ S4x8192.size 1 = 1 by decide)).trans h2).symm
  simp only [Host.reduceAdd, Ideal.hostReduceAdd_def]
  rw [Ideal.hostReduceAdd_single reducesTo_S4x8192x64_S4x8192_d2 (by decide)]
  unfold Cert.Spec.ssqH
  refine congrArg₂ (· + ·) rfl (Finset.sum_congr rfl fun d _ => ?_)
  have e : (Shape.Reduces.lift (by decide : S4x8192x64.Reduces [2] S4x8192) (ix2 b mm) d) = ix3 b mm d :=
    funext fun a => Fin.ext (by match a with | ⟨0, _⟩ => rfl | ⟨1, _⟩ => rfl | ⟨2, _⟩ => rfl)
  rw [e]
  rfl

/-- Window 0's block at point t is batch t of the first cloud. -/
theorem iblk0_apply (c : Dev nD) (t : Fin cfg0.N) (n : Fin 8192) (d : Fin 64) :
    (iblk m c 0 t : Vec Ideal S1x8192x64 .f32) (ix3 0 n d)
      = (m ((c : Thread nD τ).loc main_arg0) : S4x8192x64.Idx → EReal) (ix3 (bOf t) n d) := by
  obtain ⟨⟨e0, e1, e2⟩, -⟩ := idx_facts t
  unfold iblk
  rw [View.read_apply]
  refine (congrFun (V_main_arg0 m c) _).trans ?_
  congr 1
  funext a
  apply Fin.ext
  match a with
  | ⟨0, _⟩ => show win0_0.index t 0 * 1 + 1 * 0 = t.val; rw [e0]; omega
  | ⟨1, _⟩ => show win0_0.index t 1 * 8192 + 1 * n.val = n.val; rw [e1]; omega
  | ⟨2, _⟩ => show win0_0.index t 2 * 64 + 1 * d.val = d.val; rw [e2]; omega

/-- Window 1's block at point t is batch t of the second cloud, transposed. -/
theorem iblk1_apply (c : Dev nD) (t : Fin cfg0.N) (d : Fin 64) (mm : Fin 8192) :
    (iblk m c 1 t : Vec Ideal S1x64x8192 .bf16) (ix3 0 d mm)
      = (m ((c : Thread nD τ).loc main_arg1) : S4x8192x64.Idx → EReal) (ix3 (bOf t) mm d) := by
  obtain ⟨-, ⟨e0, e1, e2⟩, -⟩ := idx_facts t
  unfold iblk
  rw [View.read_apply]
  refine V_main_v1_apply m c _ _ ?_ ?_ ?_
  · show t.val = win0_1.index t 0 * 1 + 1 * 0; rw [e0]; omega
  · show mm.val = win0_1.index t 2 * 8192 + 1 * mm.val; rw [e2]; omega
  · show d.val = win0_1.index t 1 * 64 + 1 * d.val; rw [e1]; omega

/-- Window 2's block at point t is batch t of the second cloud's squared norms. -/
theorem iblk2_apply (c : Dev nD) (t : Fin cfg0.N) (mm : Fin 8192) :
    (iblk m c 2 t : Vec Ideal S1x1x8192 .f32) (ix3 0 0 mm)
      = Cert.Spec.ssqH (m ((c : Thread nD τ).loc main_arg1)) (bOf t) mm := by
  obtain ⟨-, -, ⟨e0, e1, e2⟩, -⟩ := idx_facts t
  unfold iblk
  rw [View.read_apply]
  refine V_main_v4_apply m c _ (bOf t) mm ?_ ?_
  · show win0_2.index t 0 * 1 + 1 * 0 = t.val; rw [e0]; omega
  · show win0_2.index t 2 * 8192 + 1 * mm.val = mm.val; rw [e2]; omega

end Cert.KernelIdeal.Hand

end
-- ==== Proof.KIMain.lean ====
/-
  The value of the whole program from the run of its one region: the result array after the region holds,
  in batch b's block, batch b's quantity; the operations after the region read one entry per batch, add the
  four from zero and divide by four, which is the tiled spelling of the result.
-/
import proofs.«419406_j17239998726835_3_alg».proof.Proof.KIMainBlocks
import proofs.«419406_j17239998726835_3_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable (m : (ℓ : Loc nD τ sig) → Buf (Elt Ideal) ℓ) (ρ : Dev nD → PrngReg)

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- What the result array holds after the region: every entry of batch b's block is batch b's quantity. -/
def resArr (c : Dev nD) : S4x1x128.Idx → EReal := fun i =>
  Cert.Spec.batchK (fun n d => (m ((c : Thread nD τ).loc main_arg0) : S4x8192x64.Idx → EReal) (ix3 (i 0) n d))
    (fun d mm => (m ((c : Thread nD τ).loc main_arg1) : S4x8192x64.Idx → EReal) (ix3 (i 0) mm d))
    (fun mm => Cert.Spec.ssqH (m ((c : Thread nD τ).loc main_arg1)) (i 0) mm)

section
variable (hout : ∀ (c : Dev nD) (t : Fin cfg0.N), outsAt (F := Ideal) m c t = fun _ => Cert.Spec.batchK
          (fun n d => (iblk m c 0 t : Vec Ideal S1x8192x64 .f32) (ValueIdx.ix3 0 n d))
          (fun d mm => (iblk m c 1 t : Vec Ideal S1x64x8192 .bf16) (ValueIdx.ix3 0 d mm))
          (fun mm => (iblk m c 2 t : Vec Ideal S1x1x8192 .f32) (ValueIdx.ix3 0 0 mm)))
include hout

/-- What point t writes back is block t of the result array's final contents. -/
theorem flushed_eq (c : Dev nD) (t : Fin cfg0.N) :
    (dats m 0 c).flushed 3 t = ((cfg0.win 3).blk t).view.read (Elt Ideal) (resArr m c) := by
  show (cfg0.win 3).cut (grid0.coords t) ((dats m 0 c).after 3 t) = _
  rw [after0_3, hout c t]
  obtain ⟨-, -, -, ⟨e0, e1, e2⟩⟩ := idx_facts t
  funext y
  rw [View.read_apply]
  have hb : ((cfg0.win 3).blk t).view.emb y 0 = bOf t := by
    apply Fin.ext
    show win0_3.index t 0 * 1 + 1 * (y 0).val = t.val
    have : (y 0).val < 1 := (y 0).isLt
    rw [e0]; omega
  unfold resArr
  rw [hb]
  have h0 : (fun n d => (iblk m c 0 t : Vec Ideal S1x8192x64 .f32) (ix3 0 n d))
      = fun n d => (m ((c : Thread nD τ).loc main_arg0) : S4x8192x64.Idx → EReal) (ix3 (bOf t) n d) :=
    funext fun n => funext fun d => iblk0_apply m c t n d
  have h1 : (fun d mm => (iblk m c 1 t : Vec Ideal S1x64x8192 .bf16) (ix3 0 d mm))
      = fun d mm => (m ((c : Thread nD τ).loc main_arg1) : S4x8192x64.Idx → EReal) (ix3 (bOf t) mm d) :=
    funext fun d => funext fun mm => iblk1_apply m c t d mm
  have h2 : (fun mm => (iblk m c 2 t : Vec Ideal S1x1x8192 .f32) (ix3 0 0 mm))
      = fun mm => Cert.Spec.ssqH (m ((c : Thread nD τ).loc main_arg1)) (bOf t) mm :=
    funext fun mm => iblk2_apply m c t mm
  exact congr (congr (congrArg Cert.Spec.batchK h0) h1) h2

omit hout in
/-- An index of the result array is in point t's block iff each coordinate is in the block's range on its axis. -/
theorem mem_blk3 (t : Fin cfg0.N) (i : S4x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v5).slice (win0_3.rect t)).set ↔ _
  rw [View.set_slice_whole, Rect.mem_set_unit]
  exact Iff.rfl

omit hout in
/-- Every index of the result array is in the block of the point of its batch. -/
theorem cover3 (i : S4x1x128.Idx) :
    ∃ t : Fin cfg0.N, (cfg0.win 3).flush t = true ∧ i ∈ ((cfg0.win 3).blk t).view.set := by
  refine ⟨Fin.cast N_0.symm (i 0), flush0_3 _, ?_⟩
  rw [mem_blk3]
  obtain ⟨-, -, -, ⟨e0, e1, e2⟩⟩ := idx_facts (Fin.cast N_0.symm (i 0))
  have hi1 : (i 1).val < 1 := (i 1).isLt
  have hi2 : (i 2).val < 128 := (i 2).isLt
  intro a
  match a with
  | ⟨0, _⟩ => show win0_3.index (Fin.cast N_0.symm (i 0)) 0 * 1 ≤ (i 0).val ∧ (i 0).val < win0_3.index (Fin.cast N_0.symm (i 0)) 0 * 1 + 1
              rw [e0]; show (i 0).val * 1 ≤ (i 0).val ∧ (i 0).val < (i 0).val * 1 + 1; omega
  | ⟨1, _⟩ => show win0_3.index (Fin.cast N_0.symm (i 0)) 1 * 1 ≤ (i 1).val ∧ (i 1).val < win0_3.index (Fin.cast N_0.symm (i 0)) 1 * 1 + 1
              rw [e1]; omega
  | ⟨2, _⟩ => show win0_3.index (Fin.cast N_0.symm (i 0)) 2 * 128 ≤ (i 2).val ∧ (i 2).val < win0_3.index (Fin.cast N_0.symm (i 0)) 2 * 128 + 128
              rw [e2]; omega

/-- The result array after the region. -/
theorem final3 (c : Dev nD) : (dats m 0 c).arrAt 3 cfg0.N = resArr m c :=
  (dats m 0 c).arrAt_eq_of_cover 3 (resArr m c) (fun t _ => flushed_eq m hout c t) cover3

/-- The operations after the region read entry (b, 0, 0) of each batch's block, add the four from zero and divide by four. -/
theorem tail_eq (c : Dev nD) : Pipeline.afterTail₀ cfgs (dats (F := Ideal) m) 0 (V0 m) [hostOps1] c main_v9
    = fun _ => Cert.Spec.resultK (m ((c : Thread nD τ).loc main_arg0)) (m ((c : Thread nD τ).loc main_arg1)) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v5) = resArr m c :=
    (Pipeline.withArrays_arr spec0 launch0.win.arr_inj c _ _ 3).trans (final3 m hout c)
  rw [hw]
  funext i
  unfold Cert.Spec.resultK
  refine congrArg₂ Ideal.div ?_ rfl
  simp only [Host.reduceAdd, Ideal.hostReduceAdd_def]
  rw [Ideal.hostReduceAdd_total reducesTo_S4_S_d0 (fun b => b.elim0), sum_idx1]
  refine congrArg₂ (· + ·) rfl (Finset.sum_congr rfl fun b _ => ?_)
  refine (shapeCast_apply _ shapeCasts_S4x1x1_S4 (ix1 b) (ix3 b 0 0) ?_).trans ?_
  · rw [Shape.rowMajor_val_three, Shape.rowMajor_val_one]
    show (b.val * 1 + 0) * 1 + 0 = b.val
    omega
  refine (extractStridedSlice_apply _ _ slices_S4x1x128_S4x1x1_0_0_0 (ix3 b 0 0) (ix3 b 0 0) fun a => ?_).trans rfl
  match a with
  | ⟨0, _⟩ => show b.val = 0 + b.val; omega
  | ⟨1, _⟩ => rfl
  | ⟨2, _⟩ => rfl
end

/-- The value of the whole program from the run of its region and the value the body leaves at each point. -/
theorem value_of_run (m : (ℓ : Loc nD τ sig) → Buf (Elt Ideal) ℓ) (ρ : Dev nD → PrngReg)
    (hrun : θ_run (defs (F := Ideal)) (onTc (τ := τ) (main (F := Ideal))) (s₀ m ρ)
        (Pipeline.FramePost cfgs (dats (F := Ideal) m) 0 (Pipeline.afterTail₀ cfgs (dats (F := Ideal) m) 0 (V0 m) [hostOps1])))
    (hout : ∀ (c : Dev nD) (t : Fin cfg0.N), outsAt (F := Ideal) m c t = fun _ => Cert.Spec.batchK
        (fun n d => (iblk m c 0 t : Vec Ideal S1x8192x64 .f32) (ValueIdx.ix3 0 n d))
        (fun d mm => (iblk m c 1 t : Vec Ideal S1x64x8192 .bf16) (ValueIdx.ix3 0 d mm))
        (fun mm => (iblk m c 2 t : Vec Ideal S1x1x8192 .f32) (ValueIdx.ix3 0 0 mm))) :
    θ_run (defs (F := Ideal)) (onTc (τ := τ) (main (F := Ideal))) ⟨m, fun _ => 0, ρ⟩ (fun r => ∀ c : Dev nD,
      r.2.mem ((c.tc : Thread nD τ).loc main_v9) = (fun _ => Cert.Spec.resultK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (tail_eq m hout c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) hrun

end Cert.KernelIdeal.Hand

end
-- ==== Proof.RefValue.lean ====
/-
  The value of the reference computation of the chamfer distance between two batches of point clouds.

  The reference forms the table of squared distances d(b, n, m) = -2·⟨x_n, y_m⟩ + |x_n|² + |y_m|² (the inner product over
  the 64 coordinates, each squared norm a sum from zero spread along the other cloud's axis), takes for every point of
  either cloud the least entry of its row or column starting from +∞, averages those least distances over each cloud
  (a sum from zero divided by 8192), adds the two averages, and averages over the four batches (a sum from zero
  divided by 4). Read index by index this is the textbook spelling of the specification: the distance table entry by
  entry, the two families of least distances, the per-batch value, and last the scalar result. The run of the
  reference then ends with its result buffer constantly equal to that scalar, the two argument arrays unchanged.
-/
import proofs.«419406_j17239998726835_3_alg».proof.Proof.Gen.ReferenceIdeal.Run
import proofs.«419406_j17239998726835_3_alg».proof.Proof.Gen.ReferenceIdeal.Read
import proofs.«419406_j17239998726835_3_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- One batch of points as the reference's argument arrays hold it. -/
abbrev Arr : Type := (⟨S4x8192x64, .f32⟩ : BufTy).Contents (Elt Ideal)

/-- The squared distance of point n of the first cloud to point m of the second: the scaled inner product, then the
    first cloud's squared norm (constant along m), then the second's (constant along n). -/
theorem dist_apply (x0 x1 : Arr) (b : Fin 4) (n m : Fin 8192) :
    val_main_v12 (F := Ideal) x0 x1 (ix3 b n m) = Cert.Spec.distH x0 x1 b n m := by
  have el : ∀ k : Fin 64, lidx_main_v0 (ix3 b n m) k = ix3 b n k := fun k =>
    funext fun a => Fin.ext (by match a with | ⟨0, _⟩ => rfl | ⟨1, _⟩ => rfl | ⟨2, _⟩ => rfl)
  have er : ∀ k : Fin 64, ridx_main_v0 (ix3 b n m) k = ix3 b m k := fun k =>
    funext fun a => Fin.ext (by match a with | ⟨0, _⟩ => rfl | ⟨1, _⟩ => rfl | ⟨2, _⟩ => rfl)
  have ex : ∀ k : Fin 64, idx_main_v4 (idx_main_v5 (idx_main_v6 (ix3 b n m))) k = ix3 b n k := fun k =>
    funext fun a => Fin.ext (by match a with | ⟨0, _⟩ => rfl | ⟨1, _⟩ => rfl | ⟨2, _⟩ => rfl)
  have ey : ∀ k : Fin 64, idx_main_v9 (idx_main_v10 (idx_main_v11 (ix3 b n m))) k = ix3 b m k := fun k =>
    funext fun a => Fin.ext (by match a with | ⟨0, _⟩ => rfl | ⟨1, _⟩ => rfl | ⟨2, _⟩ => rfl)
  rw [val_main_v12_apply, val_main_v7_apply, val_main_v2_apply, val_main_v1_apply, val_main_cst_apply, val_main_v0_apply,
    val_main_v6_apply, val_main_v5_apply, val_main_v4_apply, val_main_cst_0_apply,
    val_main_v11_apply, val_main_v10_apply, val_main_v9_apply, val_main_cst_1_apply]
  simp only [val_main_v3_apply, val_main_v8_apply, el, er, ex, ey, Ideal.mulf_def, Ideal.addf_def, Ideal.ofBits_def]
  rfl

/-- A row index of the distance table with the second cloud's point m put back. -/
theorem lift_row (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  match c with
  | ⟨0, _⟩ => rfl
  | ⟨1, _⟩ => rfl
  | ⟨2, _⟩ => rfl

/-- A column index of the distance table with the first cloud's point n put back. -/
theorem lift_col (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  match c with
  | ⟨0, _⟩ => rfl
  | ⟨1, _⟩ => rfl
  | ⟨2, _⟩ => rfl

/-- The least distance from point n of the first cloud to the second cloud: the min-reduce along the last axis,
    started at +∞. -/
theorem rowMin_apply (x0 x1 : Arr) (b : Fin 4) (n : Fin 8192) :
    val_main_v13 (F := Ideal) x0 x1 (ix2 b n) = Cert.Spec.rowMinH x0 x1 b n := by
  have h : S4x8192x8192.Reduces [2] S4x8192 := by decide
  unfold val_main_v13
  rw [Host.reduce_eq_fold_single FloatOps.minimumf _ _ reducesTo_S4x8192x8192_S4x8192_d2 h h_S_]
  have hf : (val_main_v12 (F := Ideal) x0 x1 ∘ h.lift (ix2 b n)) = fun m : Fin 8192 => Cert.Spec.distH x0 x1 b n m :=
    funext fun k => (congrArg (val_main_v12 (F := Ideal) x0 x1) (lift_row h b n k)).trans (dist_apply x0 x1 b n ⟨k.val, k.isLt⟩)
  exact congrArg (fun f => Finset.fold min Cert.Spec.pinf f (Finset.univ : Finset (Fin 8192))) hf

/-- The least distance from point m of the second cloud to the first cloud: the min-reduce along the middle axis,
    started at +∞. -/
theorem colMin_apply (x0 x1 : Arr) (b : Fin 4) (m : Fin 8192) :
    val_main_v14 (F := Ideal) x0 x1 (ix2 b m) = Cert.Spec.colMinH x0 x1 b m := by
  have h : S4x8192x8192.Reduces [1] S4x8192 := by decide
  unfold val_main_v14
  rw [Host.reduce_eq_fold_single FloatOps.minimumf _ _ reducesTo_S4x8192x8192_S4x8192_d1 h h_S_]
  have hf : (val_main_v12 (F := Ideal) x0 x1 ∘ h.lift (ix2 b m)) = fun n : Fin 8192 => Cert.Spec.distH x0 x1 b n m :=
    funext fun k => (congrArg (val_main_v12 (F := Ideal) x0 x1) (lift_col h b m k)).trans (dist_apply x0 x1 b ⟨k.val, k.isLt⟩ m)
  exact congrArg (fun f => Finset.fold min Cert.Spec.pinf f (Finset.univ : Finset (Fin 8192))) hf

/-- A rank-1 index set of four entries is its coordinate's range. -/
def batchEquiv : S4.Idx ≃ Fin 4 where
  toFun i := i 0
  invFun a := ix1 a
  left_inv i := (eq_ix1 i).symm
  right_inv _ := rfl

/-- One batch's value: the mean over the first cloud of the least distances plus the mean over the second cloud of
    the least distances, each mean a sum from zero divided by 8192. -/
theorem perBatch_apply (x0 x1 : Arr) (b : Fin 4) :
    val_main_v21 (F := Ideal) x0 x1 (ix1 b) = Cert.Spec.perBatchH x0 x1 b := by
  have er : ∀ k : Fin 8192, idx_main_v15 (ix1 b) k = ix2 b k := fun k =>
    funext fun a => Fin.ext (by match a with | ⟨0, _⟩ => rfl | ⟨1, _⟩ => rfl)
  have ec : ∀ k : Fin 8192, idx_main_v18 (ix1 b) k = ix2 b k := fun k =>
    funext fun a => Fin.ext (by match a with | ⟨0, _⟩ => rfl | ⟨1, _⟩ => rfl)
  rw [val_main_v21_apply, val_main_v17_apply, val_main_v15_apply, val_main_cst_4_apply, val_main_v16_apply, val_main_cst_5_apply,
    val_main_v20_apply, val_main_v18_apply, val_main_cst_6_apply, val_main_v19_apply, val_main_cst_7_apply]
  simp only [er, ec, rowMin_apply, colMin_apply, Ideal.addf_def, Ideal.hostDivf_def, Ideal.ofBits_def]
  rfl

/-- The reference's result: the mean over the four batches of the per-batch values, a sum from zero divided by 4. -/
theorem result_eq (x0 x1 : Arr) :
    val_main_v23 (F := Ideal) x0 x1 = fun _ => Cert.Spec.resultH x0 x1 := by
  funext i
  have hs : ∑ j : S4.Idx, val_main_v21 (F := Ideal) x0 x1 j = ∑ b : Fin 4, Cert.Spec.perBatchH x0 x1 b :=
    (Equiv.sum_comp batchEquiv.symm (val_main_v21 (F := Ideal) x0 x1)).symm.trans
      (Finset.sum_congr rfl fun b _ => perBatch_apply x0 x1 b)
  rw [val_main_v23_apply, val_main_v22_apply, val_main_cst_8_apply, val_main_cst_9_apply, hs]
  simp only [Ideal.hostDivf_def, Ideal.ofBits_def]
  rfl

/-- Every weakly fair execution of the reference terminates with its result buffer holding the chamfer value of the
    two argument arrays as launched, in the textbook spelling, and with the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v23)
          = (fun _ => Cert.Spec.resultH (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v23_eq _ _).trans (result_eq _ _)), (h c).2⟩)
    (Cert.ReferenceIdeal.Value.run (F := Ideal) m' ρ')

end Cert.RefValue

end
-- ==== Proof.Algebra.lean ====
import proofs.«419406_j17239998726835_3_alg».proof.Proof.Spec
import Mathlib.Data.EReal.Operations
import Mathlib.Algebra.BigOperators.Fin
import Mathlib.Data.Finset.Fold

/-!
  The tiled spelling of the chamfer distance equals the textbook one when every coordinate is finite.

  Three facts carry it. (a) With finite entries the 68-lane inner product is the squared distance: the 64
  lanes sum to -2·⟨x, y⟩ by distributivity over the reals, and the four extra lanes contribute
  |x|²·1 + (|x|² - |x|²)·1 + 1·|y|² + 1·(|y|² - |y|²) = |x|² + |y|². (b) The least element over 8192 indices,
  taken as eight least elements over tiles of 1024 combined one after the other from +∞, is the least element
  over the whole axis: a bound lies below one exactly when it lies below the other. (c) A leading zero added
  to a sum changes nothing.
-/

noncomputable section

namespace Cert.Algebra

open Cert.Spec Idealize.ShloMosaic Idealize.ShloMosaic.ValueIdx

/-! ## The literals -/

theorem negTwo_eq : negTwo = ((-2 : ℝ) : EReal) := by
  simp [Ideal.ofBits, Ideal.ieee]
  rw [← EReal.coe_mul]
  norm_num

theorem one32_eq : one32 = ((1 : ℝ) : EReal) := by
  simp [Ideal.ofBits, Ideal.ieee]
  rw [← EReal.coe_mul, ← EReal.coe_one]
  norm_num

theorem zero32_eq : zero32 = 0 := by
  simp [Ideal.ofBits, Ideal.ieee]

theorem pinf_eq : pinf = ⊤ := by
  simp [Ideal.ofBits, Ideal.ieee]

/-! ## Finite sums of reals inside the extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## (a) The 68-lane inner product is the squared distance -/

section Lanes

variable (xb : Fin 8192 → Fin 64 → EReal) (yt : Fin 64 → Fin 8192 → EReal) (sq : Fin 8192 → EReal)
  (n m : Fin 8192)

theorem lhsK_low (i : Fin 64) : lhsK xb n (Fin.castAdd 4 i) = negTwo * xb n i := by
  unfold lhsK
  rw [dif_pos (show (Fin.castAdd 4 i).val < 64 from i.isLt)]
  rfl

theorem rhsK_low (i : Fin 64) : rhsK yt sq (Fin.castAdd 4 i) m = yt i m := by
  unfold rhsK
  rw [dif_pos (show (Fin.castAdd 4 i).val < 64 from i.isLt)]
  rfl

theorem lhsK_64 : lhsK xb n (Fin.natAdd 64 (0 : Fin 4)) = ssqK xb n := by
  simp [lhsK]

theorem lhsK_65 : lhsK xb n (Fin.natAdd 64 (1 : Fin 4)) = ssqK xb n - ssqK xb n := by
  simp [lhsK]

theorem lhsK_66 : lhsK xb n (Fin.natAdd 64 (2 : Fin 4)) = one32 := by
  simp [lhsK]

theorem lhsK_67 : lhsK xb n (Fin.natAdd 64 (3 : Fin 4)) = one32 := by
  simp [lhsK]

theorem rhsK_64 : rhsK yt sq (Fin.natAdd 64 (0 : Fin 4)) m = one32 := by
  simp [rhsK]

theorem rhsK_65 : rhsK yt sq (Fin.natAdd 64 (1 : Fin 4)) m = one32 := by
  simp [rhsK]

theorem rhsK_66 : rhsK yt sq (Fin.natAdd 64 (2 : Fin 4)) m = sq m := by
  simp [rhsK]

theorem rhsK_67 : rhsK yt sq (Fin.natAdd 64 (3 : Fin 4)) m = sq m - sq m := by
  simp [rhsK]

/-- With real entries x, y at the two points and a real squared norm s on the right, the 68 lanes sum to
    -2·⟨x, y⟩ + |x|² + s. -/
theorem distK_coe (x y : Fin 64 → ℝ) (s : ℝ) (hx : ∀ d, xb n d = (x d : EReal))
    (hy : ∀ d, yt d m = (y d : EReal)) (hs : sq m = (s : EReal)) :
    distK xb yt sq n m = ((-2 * ∑ d, x d * y d + ∑ d, x d * x d + s : ℝ) : EReal) := by
  have hss : ssqK xb n = ((∑ d, x d * x d : ℝ) : EReal) := by
    unfold ssqK
    rw [coe_sum]
    exact Finset.sum_congr rfl fun d _ => by rw [hx d, EReal.coe_mul]
  have hlow : ∑ i : Fin 64, lhsK xb n (Fin.castAdd 4 i) * rhsK yt sq (Fin.castAdd 4 i) m
      = ((∑ d, -2 * (x d * y d) : ℝ) : EReal) := by
    rw [coe_sum]
    refine Finset.sum_congr rfl fun i _ => ?_
    rw [lhsK_low, rhsK_low, hx, hy, negTwo_eq, ← EReal.coe_mul, ← EReal.coe_mul, mul_assoc]
  unfold distK
  refine (Fin.sum_univ_add (a := 64) (b := 4) (fun k => lhsK xb n k * rhsK yt sq k m)).trans ?_
  rw [hlow, Fin.sum_univ_four, lhsK_64, lhsK_65, lhsK_66, lhsK_67, rhsK_64, rhsK_65, rhsK_66, rhsK_67,
    hss, hs, one32_eq, ← EReal.coe_sub, ← EReal.coe_sub, ← EReal.coe_mul, ← EReal.coe_mul, ← EReal.coe_mul,
    ← EReal.coe_mul, ← EReal.coe_add, ← EReal.coe_add, ← EReal.coe_add, ← EReal.coe_add, ← Finset.mul_sum]
  congr 1
  ring

end Lanes

/-- The squared norm of a point with real coordinates. -/
theorem ssqH_coe (Z : Pts) (b : Fin 4) (n : Fin 8192) (z : Fin 64 → ℝ)
    (hz : ∀ d, Z (ix3 b n d) = (z d : EReal)) : ssqH Z b n = ((∑ d, z d * z d : ℝ) : EReal) := by
  unfold ssqH
  rw [zero32_eq, zero_add, coe_sum]
  exact Finset.sum_congr rfl fun d _ => by rw [hz d, EReal.coe_mul]

/-- The textbook squared distance of two points with real coordinates. -/
theorem distH_coe (X Y : Pts) (b : Fin 4) (n m : Fin 8192) (x y : Fin 64 → ℝ)
    (hx : ∀ d, X (ix3 b n d) = (x d : EReal)) (hy : ∀ d, Y (ix3 b m d) = (y d : EReal)) :
    distH X Y b n m
      = ((-2 * ∑ d, x d * y d + ∑ d, x d * x d + ∑ d, y d * y d : ℝ) : EReal) := by
  have hdot : dotH X Y b n m = ((∑ d, x d * y d : ℝ) : EReal) := by
    unfold dotH
    rw [coe_sum]
    exact Finset.sum_congr rfl fun d _ => by rw [hx d, hy d, EReal.coe_mul]
  unfold distH
  rw [hdot, ssqH_coe X b n x hx, ssqH_coe Y b m y hy, negTwo_eq, ← EReal.coe_mul, ← EReal.coe_add,
    ← EReal.coe_add]

theorem distK_eq_distH (X Y : Pts) (hX : ∀ i, ∃ r : ℝ, X i = (r : EReal))
    (hY : ∀ i, ∃ r : ℝ, Y i = (r : EReal)) (b : Fin 4) (n m : Fin 8192) :
    distK (fun n d => X (ix3 b n d)) (fun d m => Y (ix3 b m d)) (fun m => ssqH Y b m) n m
      = distH X Y b n m := by
  choose x hx using hX
  choose y hy using hY
  rw [distH_coe X Y b n m (fun d => x (ix3 b n d)) (fun d => y (ix3 b m d)) (fun d => hx _) (fun d => hy _)]
  exact distK_coe _ _ _ n m (fun d => x (ix3 b n d)) (fun d => y (ix3 b m d)) _ (fun d => hx _)
    (fun d => hy _) (ssqH_coe Y b m _ (fun d => hy _))

/-! ## (b) Least elements tile by tile -/

/-- A bound lies below the eight combined tile results exactly when it lies below each of them. -/
theorem le_nest8 (c : EReal) (f : Fin 8 → EReal) : c ≤ nest8 f ↔ ∀ a, c ≤ f a := by
  unfold nest8
  rw [pinf_eq]
  simp only [le_min_iff, le_top, true_and, Fin.forall_fin_succ, Fin.forall_fin_zero, and_true, and_assoc]
  rfl

/-- Every index of the axis is an element of a tile. -/
theorem exists_tileIdx (i : Fin 8192) : ∃ a r, tileIdx a r = i :=
  ⟨⟨i.val / 1024, by omega⟩, ⟨i.val % 1024, by omega⟩, Fin.ext (by simp only [tileIdx]; omega)⟩

/-- Eight tiles' least elements combined from +∞ are the least element of the whole axis. -/
theorem nest8_tiles (g : Fin 8192 → EReal) :
    nest8 (fun a => (Finset.univ : Finset (Fin 1024)).fold min pinf (fun r => g (tileIdx a r)))
      = (Finset.univ : Finset (Fin 8192)).fold min pinf g := by
  refine eq_of_forall_le_iff fun c => ?_
  rw [le_nest8, Finset.le_fold_min]
  simp only [Finset.le_fold_min, Finset.mem_univ, true_implies, pinf_eq, le_top, true_and]
  constructor
  · intro h i
    obtain ⟨a, r, rfl⟩ := exists_tileIdx i
    exact h a r
  · intro h a r
    exact h _

/-! ## (c) One batch, and the whole result -/

theorem rowK_eq_rowMinH (X Y : Pts) (hX : ∀ i, ∃ r : ℝ, X i = (r : EReal))
    (hY : ∀ i, ∃ r : ℝ, Y i = (r : EReal)) (b : Fin 4) (n : Fin 8192) :
    rowK (fun n d => X (ix3 b n d)) (fun d m => Y (ix3 b m d)) (fun m => ssqH Y b m) n
      = rowMinH X Y b n := by
  unfold rowK rowMinH tileRow
  exact (nest8_tiles (fun m => distK (fun n d => X (ix3 b n d)) (fun d m => Y (ix3 b m d))
    (fun m => ssqH Y b m) n m)).trans (Finset.fold_congr fun m _ => distK_eq_distH X Y hX hY b n m)

theorem colK_eq_colMinH (X Y : Pts) (hX : ∀ i, ∃ r : ℝ, X i = (r : EReal))
    (hY : ∀ i, ∃ r : ℝ, Y i = (r : EReal)) (b : Fin 4) (m : Fin 8192) :
    colK (fun n d => X (ix3 b n d)) (fun d m => Y (ix3 b m d)) (fun m => ssqH Y b m) m
      = colMinH X Y b m := by
  unfold colK colMinH tileCol
  exact (nest8_tiles (fun n => distK (fun n d => X (ix3 b n d)) (fun d m => Y (ix3 b m d))
    (fun m => ssqH Y b m) n m)).trans (Finset.fold_congr fun n _ => distK_eq_distH X Y hX hY b n m)

theorem batchK_eq_perBatchH (X Y : Pts) (hX : ∀ i, ∃ r : ℝ, X i = (r : EReal))
    (hY : ∀ i, ∃ r : ℝ, Y i = (r : EReal)) (b : Fin 4) :
    batchK (fun n d => X (ix3 b n d)) (fun d m => Y (ix3 b m d)) (fun m => ssqH Y b m)
      = perBatchH X Y b := by
  unfold batchK perBatchH
  rw [zero32_eq, zero_add, zero_add]
  simp only [rowK_eq_rowMinH X Y hX hY b, colK_eq_colMinH X Y hX hY b]

theorem resultK_eq_resultH (X Y : Cert.Spec.Pts) (hX : ∀ i, ∃ r : ℝ, X i = (r : EReal))
    (hY : ∀ i, ∃ r : ℝ, Y i = (r : EReal)) : Cert.Spec.resultK X Y = Cert.Spec.resultH X Y := by
  unfold resultK resultH
  simp only [batchK_eq_perBatchH X Y hX hY]

end Cert.Algebra
-- ==== Proof.Finite.lean ====
import proofs.«419406_j17239998726835_3_alg».proof.Defs
import Idealize.ShloMosaic.Lib.ReduceAll
import Idealize.ShloMosaic.Lib.ValueIdx

noncomputable section

namespace Cert.Finite

open Idealize.ShloMosaic Idealize.SL.Sem

/-- The shape of a scalar has a single index. -/
instance : Subsingleton Cert.Pre_finite_inputs.S_.Idx := ⟨fun a b => funext fun d => d.elim0⟩

/-- An extended real whose absolute value lies strictly below +∞ is a real number. -/
theorem real_of_abs_lt (x : EReal)
    (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- If the printed finiteness predicate of two arrays is all ones, every entry of both arrays is a real number. -/
theorem all_real [hPre_finite_inputs : Cert.Pre_finite_inputs.Facts]
    (a b : FVec Ideal Cert.Pre_finite_inputs.S4x8192x64 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt (a i) (Host.reduce_andi_all _ _ _ _ _ h1 i)
  · exact real_of_abs_lt (b i) (Host.reduce_andi_all _ _ _ _ _ h2 i)

/-- Under the precondition every entry of both argument arrays is a real number, on every device. -/
theorem of_pre [hPre_finite_inputs : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧ (∀ i, ∃ r : ℝ, m ((c.tc : Thread Cert.KernelIdeal.nD Cert.KernelIdeal.τ).loc Cert.KernelIdeal.main_arg1) i = (r : EReal)) :=
  all_real _ _ (h c)

end Cert.Finite

end
-- ==== Proof.lean ====
/-
  The chamfer-distance kernel against its reference: the five claims.

  The kernel computes, per batch, the squared distances of 8192 points to 8192 points as ONE inner product
  over 68 lanes (64 coordinates scaled by -2 and four lanes carrying the two squared norms), tile by tile,
  and keeps running row and column minima; the reference scales a whole inner product by -2, adds the two
  squared norms and takes the minima over whole axes. Over the extended reals, for finite inputs, the two are
  one function: distributivity turns the 64 scaled lanes into -2 times the inner product, the four bias lanes
  add the two squared norms (s - s = 0 for a finite s), and a minimum taken tile by tile from +∞ is the minimum
  over the whole axis.

  The frames: each program runs to the end on every weakly fair execution and leaves its arguments unchanged;
  the kernel's two scratch operands are overwritten before they are read at every grid point, so what they held
  does not reach the result. The idealization replaced six widenings of a narrowed value by the value itself.
-/
import proofs.«419406_j17239998726835_3_alg».proof.Defs
import proofs.«419406_j17239998726835_3_alg».proof.Proof.Gen.Kernel
import proofs.«419406_j17239998726835_3_alg».proof.Proof.Gen.KernelIdeal
import proofs.«419406_j17239998726835_3_alg».proof.Proof.Gen.ReferenceIdeal
import proofs.«419406_j17239998726835_3_alg».proof.Proof.Gen.Pre_finite_inputs
import proofs.«419406_j17239998726835_3_alg».proof.Proof.KObl
import proofs.«419406_j17239998726835_3_alg».proof.Proof.KIObl
import proofs.«419406_j17239998726835_3_alg».proof.Proof.KIValue
import proofs.«419406_j17239998726835_3_alg».proof.Proof.KIMain
import proofs.«419406_j17239998726835_3_alg».proof.Proof.RefValue
import proofs.«419406_j17239998726835_3_alg».proof.Proof.Algebra
import proofs.«419406_j17239998726835_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_run (F := Bits) m ρ
theorem frame_ki : Cert.frame_KernelIdeal := fun m ρ _ => Cert.KernelIdeal.Hand.frame_run (F := Ideal) m ρ
theorem frame_ri : Cert.frame_ReferenceIdeal := fun m ρ _ =>
  (θ_run Cert.ReferenceIdeal.defs _ _).mono (fun _ h c => (h c).2) (Cert.RefValue.run m ρ)

/-- Each of the six rewritten windows widened a value it had just narrowed; at the ideal values both are the identity. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both programs end at the chamfer distance of their (equal, finite) arguments: the kernel at its tiled spelling,
    the reference at the textbook one, and the two spellings agree. -/
theorem algebraic : Cert.algebraic_KernelIdeal_ReferenceIdeal := by
  intro m ρ m' ρ' hpre hagree
  refine ⟨_, Cert.KernelIdeal.Hand.value_of_run m ρ (Cert.KernelIdeal.Hand.run_main m ρ) (Cert.KernelIdeal.Hand.outsAt_eq m), ?_⟩
  refine (θ_run Cert.ReferenceIdeal.defs _ _).mono (fun _ h c => ⟨(h c).1.trans ?_, (h c).2⟩) (Cert.RefValue.run m' ρ')
  rw [(hagree c).1, (hagree c).2]
  funext _
  exact (Cert.Algebra.resultK_eq_resultH _ _ (Cert.Finite.of_pre m hpre c).1 (Cert.Finite.of_pre m hpre c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
